-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_arg2 : IVec S800000 32) (main_arg3 : IVec S800000 32) (main_v83 : IVec S_ 1) (main_v84 : IVec S800000 32) : IVec S_ 1 :=
  let main_v85 : IVec S800000 1 := cmpi .sge main_arg2 main_v84
  let main_c_33 : IVec S_ 32 := constantI S_ 32 50000#32
  let main_v86 : IVec S800000 32 := broadcastInDim S800000 ![] bcast_S_S800000 main_c_33
  let main_v87 : IVec S800000 1 := cmpi .slt main_arg2 main_v86
  let main_v88 : IVec S800000 1 := andi main_v85 main_v87
  let main_c_34 : IVec S_ 1 := constantI S_ 1 1#1
  let main_v89 : IVec S_ 1 := (fun x v => Host.reduce IntOp.andi x v reducesTo_S800000_S_d0 h_S_) main_v88 main_c_34
  let main_v90 : IVec S_ 1 := andi main_v83 main_v89
  let main_c_35 : IVec S_ 32 := constantI S_ 32 0#32
  let main_v91 : IVec S800000 32 := broadcastInDim S800000 ![] bcast_S_S800000 main_c_35
  let main_v92 : IVec S800000 1 := cmpi .sge main_arg3 main_v91
  let main_c_36 : IVec S_ 32 := constantI S_ 32 50000#32
  let main_v93 : IVec S800000 32 := broadcastInDim S800000 ![] bcast_S_S800000 main_c_36
  let main_v94 : IVec S800000 1 := cmpi .slt main_arg3 main_v93
  let main_v95 : IVec S800000 1 := andi main_v92 main_v94
  let main_c_37 : IVec S_ 1 := constantI S_ 1 1#1
  let main_v96 : IVec S_ 1 := (fun x v => Host.reduce IntOp.andi x v reducesTo_S800000_S_d0 h_S_) main_v95 main_c_37
  let main_v97 : IVec S_ 1 := andi main_v90 main_v96
  main_v97

def fn_part4 {F : FTy → Type} [FloatOps F] (main_arg2 : IVec S800000 32) (main_arg3 : IVec S800000 32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_c_32 : IVec S_ 32 := constantI S_ 32 0#32
  let main_v84 : IVec S800000 32 := broadcastInDim S800000 ![] bcast_S_S800000 main_c_32
  fn_part5 (F := F) main_arg2 main_arg3 main_v83 main_v84

def fn_part3 {F : FTy → Type} [FloatOps F] (main_arg2 : IVec S800000 32) (main_arg3 : IVec S800000 32) (main_arg13 : FVec F S64 .f32) (main_arg14 : FVec F S64 .f32) (main_arg15 : FVec F S64 .f32) (main_arg16 : FVec F S64 .f32) (main_arg17 : FVec F S64 .f32) (main_arg18 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg16 main_arg17 main_arg18 main_v63 main_v67

def fn_part2 {F : FTy → Type} [FloatOps F] (main_arg2 : IVec S800000 32) (main_arg3 : IVec S800000 32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg2 main_arg3 main_arg13 main_arg14 main_arg15 main_arg16 main_arg17 main_arg18 main_v48 main_v49 main_v50

def fn_part1 {F : FTy → Type} [FloatOps F] (main_arg2 : IVec S800000 32) (main_arg3 : IVec S800000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S5000x64 : Shape := ⟨2, ![5000, 64]⟩
abbrev S1x64 : Shape := ⟨2, ![1, 64]⟩
abbrev S800000x1 : Shape := ⟨2, ![800000, 1]⟩
abbrev S1 : Shape := ⟨1, ![1]⟩
abbrev S1x1 : Shape := ⟨2, ![1, 1]⟩
abbrev S10000x64 : Shape := ⟨2, ![10000, 64]⟩

abbrev nBuf : Space → Nat
  | .hbm => 173
  | .vmem => 65
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S50000x64, .f32⟩
  | 31 => ⟨S50000x64, .f32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S1, .i32⟩
  | 43 => ⟨S_, .i32⟩
  | 44 => ⟨S800000x1, .i32⟩
  | 45 => ⟨S800000x1, .i1⟩
  | 46 => ⟨S1x1, .i32⟩
  | 47 => ⟨S800000x1, .i32⟩
  | 48 => ⟨S800000x1, .i1⟩
  | 49 => ⟨S800000x1, .i1⟩
  | 50 => ⟨S_, .i1⟩
  | 51 => ⟨S800000, .i1⟩
  | 52 => ⟨S800000x64, .f32⟩
  | 53 => ⟨S800000x64, .i1⟩
  | 54 => ⟨S_, .f32⟩
  | 55 => ⟨S800000x64, .f32⟩
  | 56 => ⟨S800000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000x64, .f32⟩
  | 76 => ⟨S800000x64, .i1⟩
  | 77 => ⟨S_, .f32⟩
  | 78 => ⟨S800000x64, .f32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S1, .i32⟩
  | 89 => ⟨S_, .i32⟩
  | 90 => ⟨S800000x1, .i32⟩
  | 91 => ⟨S800000x1, .i1⟩
  | 92 => ⟨S1x1, .i32⟩
  | 93 => ⟨S800000x1, .i32⟩
  | 94 => ⟨S800000x1, .i1⟩
  | 95 => ⟨S800000x1, .i1⟩
  | 96 => ⟨S_, .i1⟩
  | 97 => ⟨S800000, .i1⟩
  | 98 => ⟨S800000x64, .f32⟩
  | 99 => ⟨S800000x64, .i1⟩
  | 100 => ⟨S_, .f32⟩
  | 101 => ⟨S800000x64, .f32⟩
  | 102 => ⟨S800000x64, .f32⟩
  | 103 => ⟨S800000x64, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S_, .f32⟩
  | 111 => ⟨S50000x64, .f32⟩
  | 112 => ⟨S800000x1, .i32⟩
  | 113 => ⟨S50000x64, .f32⟩
  | 114 => ⟨S50000x64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S50000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S800000x64, .f32⟩
  | 29 => ⟨S800000x64, .f32⟩
  | 30 => ⟨S800000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S64, .f32⟩
  | .local _ .vmem, ⟨48, _⟩ => ⟨S64, .f32⟩
  | .local _ .vmem, ⟨49, _⟩ => ⟨S64, .f32⟩
  | .local _ .vmem, ⟨50, _⟩ => ⟨S64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S10000x64, .f32⟩
  | .local _ .vmem, ⟨56, _⟩ => ⟨S10000x64, .f32⟩
  | .local _ .vmem, ⟨57, _⟩ => ⟨S64, .f32⟩
  | .local _ .vmem, ⟨58, _⟩ => ⟨S64, .f32⟩
  | .local _ .vmem, ⟨59, _⟩ => ⟨S64, .f32⟩
  | .local _ .vmem, ⟨60, _⟩ => ⟨S64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v0 : Ref sig .tc := ⟨.hbm, 26, rfl⟩
abbrev main_cst_1 : Ref sig .tc := ⟨.hbm, 27, rfl⟩
abbrev main_v1 : Ref sig .tc := ⟨.hbm, 28, rfl⟩
abbrev main_v2 : Ref sig .tc := ⟨.hbm, 29, rfl⟩
abbrev main_v3_0 : Ref sig .tc := ⟨.hbm, 30, rfl⟩
abbrev main_v3_1 : Ref sig .tc := ⟨.hbm, 31, rfl⟩
abbrev main_v3_2 : Ref sig .tc := ⟨.hbm, 32, rfl⟩
abbrev main_v3_3 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v4 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v5 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v6 : Ref sig .tc := ⟨.hbm, 102, rfl⟩
abbrev main_v7_0 : Ref sig .tc := ⟨.hbm, 103, rfl⟩
abbrev main_v7_1 : Ref sig .tc := ⟨.hbm, 104, rfl⟩
abbrev main_v7_2 : Ref sig .tc := ⟨.hbm, 105, rfl⟩
abbrev main_cst_2 : Ref sig .tc := ⟨.hbm, 106, rfl⟩
abbrev main_v8 : Ref sig .tc := ⟨.hbm, 107, rfl⟩
abbrev main_v9 : Ref sig .tc := ⟨.hbm, 108, rfl⟩
abbrev main_v10 : Ref sig .tc := ⟨.hbm, 109, rfl⟩
abbrev main_cst_3 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_cst_4 : Ref sig .tc := ⟨.hbm, 115, rfl⟩
abbrev main_v15 : Ref sig .tc := ⟨.hbm, 116, rfl⟩
abbrev main_cst_5 : Ref sig .tc := ⟨.hbm, 117, rfl⟩
abbrev main_v16 : Ref sig .tc := ⟨.hbm, 118, rfl⟩
abbrev main_v17 : Ref sig .tc := ⟨.hbm, 119, rfl⟩
abbrev main_c : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_cst_1 : Ref sig .tc := ⟨.hbm, 131, rfl⟩
abbrev main_call4_v8 : Ref sig .tc := ⟨.hbm, 132, rfl⟩
abbrev main_call4_cst_2 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_cst_3 : Ref sig .tc := ⟨.hbm, 137, rfl⟩
abbrev main_call4_v12 : Ref sig .tc := ⟨.hbm, 138, rfl⟩
abbrev main_call4_cst_4 : Ref sig .tc := ⟨.hbm, 139, rfl⟩
abbrev main_call4_call0_v0 : Ref sig .tc := ⟨.hbm, 140, rfl⟩
abbrev main_call4_call0_v1 : Ref sig .tc := ⟨.hbm, 141, rfl⟩
abbrev main_v18 : Ref sig .tc := ⟨.hbm, 142, rfl⟩
abbrev main_v19 : Ref sig .tc := ⟨.hbm, 143, rfl⟩
abbrev main_cst_6 : Ref sig .tc := ⟨.hbm, 144, rfl⟩
abbrev main_v20 : Ref sig .tc := ⟨.hbm, 145, rfl⟩
abbrev main_cst_7 : Ref sig .tc := ⟨.hbm, 146, rfl⟩
abbrev main_v21 : Ref sig .tc := ⟨.hbm, 147, rfl⟩
abbrev main_v22 : Ref sig .tc := ⟨.hbm, 148, rfl⟩
abbrev main_c_8 : Ref sig .tc := ⟨.hbm, 149, rfl⟩
abbrev main_call5_cst : Ref sig .tc := ⟨.hbm, 150, rfl⟩
abbrev main_call5_v0 : Ref sig .tc := ⟨.hbm, 151, rfl⟩
abbrev main_call5_v1 : Ref sig .tc := ⟨.hbm, 152, rfl⟩
abbrev main_call5_cst_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_v7 : Ref sig .tc := ⟨.hbm, 159, rfl⟩
abbrev main_call5_cst_1 : Ref sig .tc := ⟨.hbm, 160, rfl⟩
abbrev main_call5_v8 : Ref sig .tc := ⟨.hbm, 161, rfl⟩
abbrev main_call5_cst_2 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_cst_3 : Ref sig .tc := ⟨.hbm, 166, rfl⟩
abbrev main_call5_v12 : Ref sig .tc := ⟨.hbm, 167, rfl⟩
abbrev main_call5_cst_4 : Ref sig .tc := ⟨.hbm, 168, rfl⟩
abbrev main_call5_call0_v0 : Ref sig .tc := ⟨.hbm, 169, rfl⟩
abbrev main_call5_call0_v1 : Ref sig .tc := ⟨.hbm, 170, rfl⟩
abbrev main_v23 : Ref sig .tc := ⟨.hbm, 171, rfl⟩
abbrev main_v24 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg4_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg5_1 : Ref sig .tc := ⟨.vmem, 52, rfl⟩
abbrev cc3_stg6_0 : Ref sig .tc := ⟨.vmem, 53, rfl⟩
abbrev cc3_stg6_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg5_1 : Ref sig .tc := ⟨.vmem, 62, rfl⟩
abbrev cc4_stg6_0 : Ref sig .tc := ⟨.vmem, 63, rfl⟩
abbrev cc4_stg6_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem4_1 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem5_1 : DmaSem sig := 52
abbrev cc3_sem6_0 : DmaSem sig := 53
abbrev cc3_sem6_1 : DmaSem sig := 54
abbrev cc4_sem0_0 : DmaSem sig := 55
abbrev cc4_sem0_1 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem5_1 : DmaSem sig := 62
abbrev cc4_sem6_0 : DmaSem sig := 63
abbrev cc4_sem6_1 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S64 : S_.BroadcastsInDim S64 (![] : Fin 0 → Fin S64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S64_S64 : S64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S5000x64_S5000x64 : S5000x64.ShapeCasts S5000x64
  bcast_S_S50000x64 : S_.BroadcastsInDim S50000x64 (![] : Fin 0 → Fin S50000x64.rank)
  reducesTo_S50000x64_S64_d0 : S50000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  reducesTo_S800000x64_S64_d0 : S800000x64.ReducesTo [0] S64
  bcast_S1x64_S800000x64_0_1 : S1x64.BroadcastsInDim S800000x64 (![0, 1] : Fin 2 → Fin S800000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S50000x64.size a
  hwx0_11 : ∀ i : grid0.Coords, EltTy.bits .f32 = 32 ∨ (Rect.block (s := S50000x64) S5000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S50000x64.size a
  hwx0_12 : ∀ i : grid0.Coords, EltTy.bits .f32 = 32 ∨ (Rect.block (s := S50000x64) S5000x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x64.size a ≤ S50000x64.size a
  hwx0_13 : ∀ i : grid0.Coords, EltTy.bits .f32 = 32 ∨ (Rect.block (s := S50000x64) S5000x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S800000x64.size a
  hwx1_0 : ∀ i : grid1.Coords, EltTy.bits .f32 = 32 ∨ (Rect.block (s := S800000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S800000x64.size a
  hwx1_2 : ∀ i : grid1.Coords, EltTy.bits .f32 = 32 ∨ (Rect.block (s := S800000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S800000x64.size a
  hwx1_3 : ∀ i : grid1.Coords, EltTy.bits .f32 = 32 ∨ (Rect.block (s := S800000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S800000x64.size a
  hwx1_7 : ∀ i : grid1.Coords, EltTy.bits .f32 = 32 ∨ (Rect.block (s := S800000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S800000x64.size a
  hwx1_8 : ∀ i : grid1.Coords, EltTy.bits .f32 = 32 ∨ (Rect.block (s := S800000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S800000x64.size a
  hwx1_9 : ∀ i : grid1.Coords, EltTy.bits .f32 = 32 ∨ (Rect.block (s := S800000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S800000x64.size a
  hwx4_5 : ∀ i : grid4.Coords, EltTy.bits .f32 = 32 ∨ (Rect.block (s := S800000x64) S10000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S800000x64.size a
  hwx4_6 : ∀ i : grid4.Coords, EltTy.bits .f32 = 32 ∨ (Rect.block (s := S800000x64) S10000x64.size (cc4_transform_6 i) (hinb4_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_2) S5000x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3_3) S5000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7_1) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v7_2) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v3_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v19) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v7_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg1) S10000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v24) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S1x64 : Shape := ⟨2, ![1, 64]⟩
abbrev S800000x1 : Shape := ⟨2, ![800000, 1]⟩

abbrev nBuf : Space → Nat
  | .hbm => 208
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S800000x64, .f32⟩
  | 44 => ⟨S1x64, .f32⟩
  | 45 => ⟨S800000x64, .f32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S50000x64, .f32⟩
  | 76 => ⟨S1x64, .f32⟩
  | 77 => ⟨S50000x64, .f32⟩
  | 78 => ⟨S50000x64, .f32⟩
  | 79 => ⟨S800000x64, .f32⟩
  | 80 => ⟨S1x64, .f32⟩
  | 81 => ⟨S800000x64, .f32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S_, .f32⟩
  | 98 => ⟨S50000x64, .f32⟩
  | 99 => ⟨S800000x1, .i32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S64, .f32⟩
  | 114 => ⟨S_, .f32⟩
  | 115 => ⟨S64, .f32⟩
  | 116 => ⟨S64, .f32⟩
  | 117 => ⟨S_, .i32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S50000x64, .f32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S_, .f32⟩
  | 1 => ⟨S_, .f32⟩
  | 2 => ⟨S_, .f32⟩
  | 3 => ⟨S64, .f32⟩
  | 4 => ⟨S64, .f32⟩
  | 5 => ⟨S64, .f32⟩
  | 6 => ⟨S_, .f32⟩
  | 7 => ⟨S_, .i1⟩
  | 8 => ⟨S_, .f32⟩
  | 9 => ⟨S_, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S64, .f32⟩
  | 20 => ⟨S64, .f32⟩
  | 21 => ⟨S64, .f32⟩
  | 22 => ⟨S1x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S800000x64, .f32⟩
  | 41 => ⟨S800000x64, .f32⟩
  | 42 => ⟨S800000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S800000x64, .f32⟩
  | 58 => ⟨S800000x64, .f32⟩
  | 59 => ⟨S1x64, .f32⟩
  | 60 => ⟨S800000x64, .f32⟩
  | 61 => ⟨S800000x64, .f32⟩
  | 62 => ⟨S_, .f32⟩
  | 63 => ⟨S64, .f32⟩
  | 64 => ⟨S64, .f32⟩
  | 65 => ⟨S64, .f32⟩
  | 66 => ⟨S1x64, .f32⟩
  | 67 => ⟨S800000x64, .f32⟩
  | 68 => ⟨S800000x64, .f32⟩
  | 69 => ⟨S1x64, .f32⟩
  | 70 => ⟨S800000x64, .f32⟩
  | 71 => ⟨S800000x64, .f32⟩
  | 72 => ⟨S_, .f32⟩
  | 73 => ⟨S50000x64, .f32⟩
  | 74 => ⟨S50000x64, .f32⟩
  | 75 => ⟨S_, .f32⟩
  | 76 => ⟨S800000x64, .f32⟩
  | 77 => ⟨S800000x64, .f32⟩
  | 78 => ⟨S50000x64, .f32⟩
  | 79 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c : Ref sig .tc := ⟨.hbm, 47, rfl⟩
abbrev main_v21 : Ref sig .tc := ⟨.hbm, 48, rfl⟩
abbrev main_v22 : Ref sig .tc := ⟨.hbm, 49, rfl⟩
abbrev main_c_1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_c_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_6 : Ref sig .tc := ⟨.hbm, 83, rfl⟩
abbrev main_v51 : Ref sig .tc := ⟨.hbm, 84, rfl⟩
abbrev main_v52 : Ref sig .tc := ⟨.hbm, 85, rfl⟩
abbrev main_c_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_8 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_c_14 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_cst_0 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_cst_1 : Ref sig .tc := ⟨.hbm, 128, rfl⟩
abbrev main_call1_v8 : Ref sig .tc := ⟨.hbm, 129, rfl⟩
abbrev main_call1_cst_2 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_cst_3 : Ref sig .tc := ⟨.hbm, 134, rfl⟩
abbrev main_call1_v12 : Ref sig .tc := ⟨.hbm, 135, rfl⟩
abbrev main_call1_cst_4 : Ref sig .tc := ⟨.hbm, 136, rfl⟩
abbrev main_call1_call0_v0 : Ref sig .tc := ⟨.hbm, 137, rfl⟩
abbrev main_call1_call0_v1 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_15 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_16 : Ref sig .tc := ⟨.hbm, 156, rfl⟩
abbrev main_v93 : Ref sig .tc := ⟨.hbm, 157, rfl⟩
abbrev main_cst_17 : Ref sig .tc := ⟨.hbm, 158, rfl⟩
abbrev main_v94 : Ref sig .tc := ⟨.hbm, 159, rfl⟩
abbrev main_v95 : Ref sig .tc := ⟨.hbm, 160, rfl⟩
abbrev main_c_18 : Ref sig .tc := ⟨.hbm, 161, rfl⟩
abbrev main_call2_cst : Ref sig .tc := ⟨.hbm, 162, rfl⟩
abbrev main_call2_v0 : Ref sig .tc := ⟨.hbm, 163, rfl⟩
abbrev main_call2_v1 : Ref sig .tc := ⟨.hbm, 164, rfl⟩
abbrev main_call2_cst_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_v6 : Ref sig .tc := ⟨.hbm, 170, rfl⟩
abbrev main_call2_v7 : Ref sig .tc := ⟨.hbm, 171, rfl⟩
abbrev main_call2_cst_1 : Ref sig .tc := ⟨.hbm, 172, rfl⟩
abbrev main_call2_v8 : Ref sig .tc := ⟨.hbm, 173, rfl⟩
abbrev main_call2_cst_2 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_cst_3 : Ref sig .tc := ⟨.hbm, 178, rfl⟩
abbrev main_call2_v12 : Ref sig .tc := ⟨.hbm, 179, rfl⟩
abbrev main_call2_cst_4 : Ref sig .tc := ⟨.hbm, 180, rfl⟩
abbrev main_call2_call0_v0 : Ref sig .tc := ⟨.hbm, 181, rfl⟩
abbrev main_call2_call0_v1 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_cst_19 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_call3_cst : Ref sig .tc := ⟨.hbm, 200, rfl⟩
abbrev main_call3_v0 : Ref sig .tc := ⟨.hbm, 201, rfl⟩
abbrev main_v112 : Ref sig .tc := ⟨.hbm, 202, rfl⟩
abbrev main_call4_cst : Ref sig .tc := ⟨.hbm, 203, rfl⟩
abbrev main_call4_v0 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S1x64 : S_.BroadcastsInDim S1x64 (![] : Fin 0 → Fin S1x64.rank)
  reducesTo_S800000x64_S64_d0 : S800000x64.ReducesTo [0] S64
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  One gated graph-convolution layer as WHOLE-ARRAY functions: N = 50000 nodes, E = 800000 edges, D = 64 features.

  Each function below is a composition of the host's array operations, stated once over literal shapes, so that
  the two programs can be compared stage by stage:
    · a node-wise linear map  x ↦ x·W + b  (the bias laid along the rows),
    · the exponent vector p = clip(P, 1, 100) and its reciprocal,
    · a row gather at the wrapped endpoint indices (and the masked form of the same gather, which answers the
      not-a-number pattern on every row whose wrapped index leaves [0, N)),
    · the edge message  Dh[src] + Eh[dst] + e·WC + bC, its logistic gate, the powers |·|^p,
    · the scatter-sums over destination nodes, the p-norm combination  Ah + (Σσh / (Σσ + ε))^(1/p),
    · batch normalisation over axis 0 (mean, biased variance), relu and the residual.
  Two predicates say when the two spellings of a stage agree: an exponent vector inside [1, 100] (a power of a
  non-negative base is then the exponential of the scaled logarithm), and endpoint indices inside [0, N) (the
  masked gather is then the plain one).
-/
import Idealize.ShloMosaic.PureOps
import Idealize.ShloMosaic.PureOps.Ideal
import Idealize.ShloMosaic.Lib.ValueIdx

noncomputable section

namespace Gnn

open Idealize.ShloMosaic

/-! ## Shapes -/

abbrev SN : Shape := ⟨2, ![50000, 64]⟩
abbrev SE : Shape := ⟨2, ![800000, 64]⟩
abbrev SI : Shape := ⟨1, ![800000]⟩
abbrev SI1 : Shape := ⟨2, ![800000, 1]⟩
abbrev SW : Shape := ⟨2, ![64, 64]⟩
abbrev SD : Shape := ⟨1, ![64]⟩
abbrev SR : Shape := ⟨2, ![1, 64]⟩
abbrev S0 : Shape := ⟨0, ![]⟩
abbrev S1 : Shape := ⟨1, ![1]⟩
abbrev S11 : Shape := ⟨2, ![1, 1]⟩

/-! ## The shape relations the operations take -/

theorem b0D : S0.BroadcastsInDim SD (![] : Fin 0 → Fin SD.rank) := by decide
theorem b0R : S0.BroadcastsInDim SR (![] : Fin 0 → Fin SR.rank) := by decide
theorem b0N : S0.BroadcastsInDim SN (![] : Fin 0 → Fin SN.rank) := by decide
theorem b0E : S0.BroadcastsInDim SE (![] : Fin 0 → Fin SE.rank) := by decide
theorem b0I : S0.BroadcastsInDim SI (![] : Fin 0 → Fin SI.rank) := by decide
theorem b0I1 : S0.BroadcastsInDim SI1 (![] : Fin 0 → Fin SI1.rank) := by decide
theorem bDR : SD.BroadcastsInDim SR (![1] : Fin 1 → Fin SR.rank) := by decide
theorem bRN : SR.BroadcastsInDim SN (![0, 1] : Fin 2 → Fin SN.rank) := by decide
theorem bRE : SR.BroadcastsInDim SE (![0, 1] : Fin 2 → Fin SE.rank) := by decide
theorem bII1 : SI.BroadcastsInDim SI1 (![0] : Fin 1 → Fin SI1.rank) := by decide
theorem b1_11 : S1.BroadcastsInDim S11 (![1] : Fin 1 → Fin S11.rank) := by decide
theorem b11I1 : S11.BroadcastsInDim SI1 (![0, 1] : Fin 2 → Fin SI1.rank) := by decide
theorem bIE : SI.BroadcastsInDim SE (![0] : Fin 1 → Fin SE.rank) := by decide
theorem redN : SN.ReducesTo [0] SD := by decide
theorem redE : SE.ReducesTo [0] SD := by decide
theorem redI : SI1.ReducesTo [1] SI := by decide
theorem h0 : 0 < S0.numel := by decide

/-- x·W over the nodes: contract the feature axis of x with the first axis of W. -/
def dotN : DotDims SN SW SN where
  lhsContracting := [1]
  rhsContracting := [0]
  lhsNonContracting := [0]
  rhsNonContracting := [1]
  lhsBatch := []
  rhsBatch := []
  wf := by decide
/-- The same contraction over the edges. -/
def dotE : DotDims SE SW SE where
  lhsContracting := [1]
  rhsContracting := [0]
  lhsNonContracting := [0]
  rhsNonContracting := [1]
  lhsBatch := []
  rhsBatch := []
  wf := by decide
/-- A row gather: one whole row of an [N, 64] table per start index. -/
def gat : GatherDims SN SI1 SE where
  offsetDims := [1]
  collapsedSliceDims := [0]
  operandBatchingDims := []
  startIndicesBatchingDims := []
  startIndexMap := [0]
  indexVectorDim := 1
  sliceSizes := ![1, 64]
  wf := by decide
/-- A row scatter: one whole row of updates per index, into an [N, 64] table. -/
def sca : ScatterDims SN SI1 SE where
  updateWindowDims := [1]
  insertedWindowDims := [0]
  scatterDimsToOperandDims := [0]
  indexVectorDim := 1
  wf := by decide

variable {F : FTy → Type} [FloatOps F]

/-! ## Broadcasts and constants -/

/-- A feature vector laid along every node row. -/
def rowN (v : FVec F SD .f32) : FVec F SN .f32 :=
  broadcastInDim SN ![0, 1] bRN (broadcastInDim SR ![1] bDR v)
/-- A feature vector laid along every edge row. -/
def rowE (v : FVec F SD .f32) : FVec F SE .f32 :=
  broadcastInDim SE ![0, 1] bRE (broadcastInDim SR ![1] bDR v)
/-- A scalar pattern everywhere on the node array / edge array / feature vector. -/
def cstN (b : BitVec 32) : FVec F SN .f32 := broadcastInDim SN ![] b0N (constant S0 .f32 b)
def cstE (b : BitVec 32) : FVec F SE .f32 := broadcastInDim SE ![] b0E (constant S0 .f32 b)
def cstD (b : BitVec 32) : FVec F SD .f32 := broadcastInDim SD ![] b0D (constant S0 .f32 b)

/-! ## The linear maps, the exponent -/

def lin (x : FVec F SN .f32) (W : FVec F SW .f32) (b : FVec F SD .f32) : FVec F SN .f32 :=
  addf (Host.dotGeneral dotN none x W) (rowN b)
def linE (x : FVec F SE .f32) (W : FVec F SW .f32) (b : FVec F SD .f32) : FVec F SE .f32 :=
  addf (Host.dotGeneral dotE none x W) (rowE b)

/-- p = min(100, max(1, P)). -/
def clipP (P : FVec F SD .f32) : FVec F SD .f32 :=
  minimumf (broadcastInDim SD ![] b0D (id (constant S0 .f32 0x42C80000#32)))
    (maximumf (broadcastInDim SD ![] b0D (id (constant S0 .f32 0x3F800000#32))) P)
/-- 1 / p. -/
def recip (p : FVec F SD .f32) : FVec F SD .f32 := Host.divf (cstD 0x3F800000#32) p

/-! ## Gathers by endpoint -/

/-- A negative endpoint index counts from the end: s + N where s < 0. -/
def wrapIdx (s : IVec SI 32) : IVec SI 32 :=
  select (cmpi .slt s (broadcastInDim SI ![] b0I (constantI S0 32 0#32)))
    (addi s (broadcastInDim SI ![] b0I (constantI S0 32 50000#32))) s
/-- The index vector as an [E, 1] column of start indices. -/
def colIdx (s : IVec SI 32) : IVec SI1 32 := broadcastInDim SI1 ![0] bII1 s
/-- Row (wrapped s[e]) of x for every edge e; an index outside the table is clamped by the gather itself. -/
def gath (x : FVec F SN .f32) (s : IVec SI 32) : FVec F SE .f32 := Host.gather gat x (colIdx (wrapIdx s))
/-- Edge by edge: is the wrapped index inside [0, N − 1]? -/
def inRange (s : IVec SI 32) : IVec SI 1 :=
  Host.reduce IntOp.andi
    (andi (cmpi .sge (colIdx (wrapIdx s)) (broadcastInDim SI1 ![] b0I1 (constantI S0 32 0#32)))
      (cmpi .sle (colIdx (wrapIdx s))
        (broadcastInDim SI1 ![0, 1] b11I1 (broadcastInDim S11 ![1] b1_11 (constantI S1 32 49999#32)))))
    (constantI S0 1 1#1) redI h0
/-- The masked gather: the gathered row where the wrapped index is inside the table, the not-a-number pattern elsewhere. -/
def takeF (x : FVec F SN .f32) (s : IVec SI 32) : FVec F SE .f32 :=
  select (broadcastInDim SE ![0] bIE (inRange s)) (gath x s) (cstE 0x7FC00000#32)

/-- Every endpoint index is a row number of the table: 0 ≤ s[e] < N, read signed. -/
def IdxOk (s : IVec SI 32) : Prop := ∀ e : SI.Idx, 0 ≤ (s e).toInt ∧ (s e).toInt < 50000

/-! ## The edge message and its gate -/

/-- Dh[src] + Eh[dst] + Ce. -/
def edgeMsg (dhs ehd ce : FVec F SE .f32) : FVec F SE .f32 := addf (addf dhs ehd) ce
/-- 1 / (1 + exp(−x)). -/
def sigm (x : FVec F SE .f32) : FVec F SE .f32 :=
  Host.divf (cstE 0x3F800000#32) (addf (cstE 0x3F800000#32) (Host.exp (Host.negf x)))
/-- |x|^p, feature by feature. -/
def powN (x : FVec F SN .f32) (p : FVec F SD .f32) : FVec F SN .f32 := Host.powf (Host.absf x) (rowN p)
def powE (x : FVec F SE .f32) (p : FVec F SD .f32) : FVec F SE .f32 := Host.powf (Host.absf x) (rowE p)

/-- The gated message: the gathered power times the gate power, entry by entry. -/
def gateMul (a b : FVec F SE .f32) : FVec F SE .f32 := mulf a b

/-! ## Aggregation to destination nodes -/

/-- Σ over the edges e with dst[e] = n of u[e, ·], into a zero table. -/
def scat (dst : IVec SI 32) (u : FVec F SE .f32) : FVec F SN .f32 :=
  Host.scatterAdd sca (cstN 0x00000000#32) (colIdx dst) u
/-- Ah + (Σσh / (Σσ + 1e-6))^(1/p). -/
def combine (ah ssh ss : FVec F SN .f32) (invp : FVec F SD .f32) : FVec F SN .f32 :=
  addf ah (Host.powf (Host.divf ssh (addf ss (cstN 0x358637BD#32))) (rowN invp))

/-! ## Batch statistics over axis 0 -/

def meanN (x : FVec F SN .f32) : FVec F SD .f32 :=
  Host.divf (Host.reduceAdd x (constant S0 .f32 0x00000000#32) redN h0) (cstD 0x47435000#32)
def meanE (x : FVec F SE .f32) : FVec F SD .f32 :=
  Host.divf (Host.reduceAdd x (constant S0 .f32 0x00000000#32) redE h0) (cstD 0x49435000#32)

/-- The count minus the degrees of freedom (here 0), as the host computes it. -/
def dofN : FVec F S0 .f32 := subf (constant S0 .f32 0x47435000#32) (sitofp .f32 (constantI S0 32 0#32))
def dofE : FVec F S0 .f32 := subf (constant S0 .f32 0x49435000#32) (sitofp .f32 (constantI S0 32 0#32))

/-- The biased variance over the nodes: Σ (x − mean)² / count, where the count is positive. -/
def varN (x : FVec F SN .f32) : FVec F SD .f32 :=
  select (broadcastInDim SD ![] b0D (cmpf .ogt (dofN (F := F)) (constant S0 .f32 0x00000000#32)))
    (Host.divf
      (Host.reduceAdd
        (mulf
          (subf x (broadcastInDim SN ![0, 1] bRN
            (Host.divf (broadcastInDim SR ![1] bDR (Host.reduceAdd x (constant S0 .f32 0x00000000#32) redN h0))
              (broadcastInDim SR ![] b0R (constant S0 .f32 0x47435000#32)))))
          (subf x (broadcastInDim SN ![0, 1] bRN
            (Host.divf (broadcastInDim SR ![1] bDR (Host.reduceAdd x (constant S0 .f32 0x00000000#32) redN h0))
              (broadcastInDim SR ![] b0R (constant S0 .f32 0x47435000#32))))))
        (constant S0 .f32 0x00000000#32) redN h0)
      (broadcastInDim SD ![] b0D (dofN (F := F))))
    (broadcastInDim SD ![] b0D (id (constant S0 .f32 0x7FC00000#32)))
/-- The biased variance over the edges. -/
def varE (x : FVec F SE .f32) : FVec F SD .f32 :=
  select (broadcastInDim SD ![] b0D (cmpf .ogt (dofE (F := F)) (constant S0 .f32 0x00000000#32)))
    (Host.divf
      (Host.reduceAdd
        (mulf
          (subf x (broadcastInDim SE ![0, 1] bRE
            (Host.divf (broadcastInDim SR ![1] bDR (Host.reduceAdd x (constant S0 .f32 0x00000000#32) redE h0))
              (broadcastInDim SR ![] b0R (constant S0 .f32 0x49435000#32)))))
          (subf x (broadcastInDim SE ![0, 1] bRE
            (Host.divf (broadcastInDim SR ![1] bDR (Host.reduceAdd x (constant S0 .f32 0x00000000#32) redE h0))
              (broadcastInDim SR ![] b0R (constant S0 .f32 0x49435000#32))))))
        (constant S0 .f32 0x00000000#32) redE h0)
      (broadcastInDim SD ![] b0D (dofE (F := F))))
    (broadcastInDim SD ![] b0D (id (constant S0 .f32 0x7FC00000#32)))

/-! ## Normalise, rectify, add the input back -/

/-- γ·(x − mean)·rsqrt(var + 1e-5) + β. -/
def bnN (x : FVec F SN .f32) (mean var gamma beta : FVec F SD .f32) : FVec F SN .f32 :=
  addf (mulf (mulf (rowN gamma) (subf x (rowN mean))) (rowN (Host.rsqrt (addf var (cstD 0x3727C5AC#32))))) (rowN beta)
def bnE (x : FVec F SE .f32) (mean var gamma beta : FVec F SD .f32) : FVec F SE .f32 :=
  addf (mulf (mulf (rowE gamma) (subf x (rowE mean))) (rowE (Host.rsqrt (addf var (cstD 0x3727C5AC#32))))) (rowE beta)
/-- x_in + max(bn(x), 0). -/
def finishN (xin x : FVec F SN .f32) (mean var gamma beta : FVec F SD .f32) : FVec F SN .f32 :=
  addf xin (maximumf (bnN x mean var gamma beta) (cstN 0x00000000#32))
def finishE (xin x : FVec F SE .f32) (mean var gamma beta : FVec F SD .f32) : FVec F SE .f32 :=
  addf xin (maximumf (bnE x mean var gamma beta) (cstE 0x00000000#32))

/-! ## The layer, from its nineteen inputs -/

section Layer

variable (h : FVec F SN .f32) (e : FVec F SE .f32) (src dst : IVec SI 32)
  (WA : FVec F SW .f32) (bA : FVec F SD .f32) (WB : FVec F SW .f32) (bB : FVec F SD .f32)
  (WC : FVec F SW .f32) (bC : FVec F SD .f32) (WD : FVec F SW .f32) (bD : FVec F SD .f32)
  (WE : FVec F SW .f32) (bE : FVec F SD .f32) (P gh bh ge be : FVec F SD .f32)

/-- The updated edge features before normalisation: Dh[src] + Eh[dst] + Ce. -/
def eMsg : FVec F SE .f32 :=
  edgeMsg (gath (lin h WD bD) src) (gath (lin h WE bE) dst) (linE e WC bC)
/-- The gate σ = sigmoid(e) raised to the exponent. -/
def sigPow : FVec F SE .f32 := powE (sigm (eMsg h e src dst WC bC WD bD WE bE)) (clipP P)
/-- The gated message |Bh|^p[src] · σ^p. -/
def gated : FVec F SE .f32 :=
  gateMul (gath (powN (lin h WB bB) (clipP P)) src) (sigPow h e src dst WC bC WD bD WE bE P)
/-- The node features before normalisation. -/
def hPre : FVec F SN .f32 :=
  combine (lin h WA bA) (scat dst (gated h e src dst WB bB WC bC WD bD WE bE P))
    (scat dst (sigPow h e src dst WC bC WD bD WE bE P)) (recip (clipP P))
/-- The layer's node output. -/
def hOut : FVec F SN .f32 :=
  finishN h (hPre h e src dst WA bA WB bB WC bC WD bD WE bE P)
    (meanN (hPre h e src dst WA bA WB bB WC bC WD bD WE bE P))
    (varN (hPre h e src dst WA bA WB bB WC bC WD bD WE bE P)) gh bh
/-- The layer's edge output. -/
def eOut : FVec F SE .f32 :=
  finishE e (eMsg h e src dst WC bC WD bD WE bE)
    (meanE (eMsg h e src dst WC bC WD bD WE bE)) (varE (eMsg h e src dst WC bC WD bD WE bE)) ge be

end Layer

/-! ## The exponent's range -/

/-- Every exponent lies in [1, 100] (so it is a positive real). -/
def PRange (p : FVec Ideal SD .f32) : Prop := ∀ j : SD.Idx, (1 : EReal) ≤ p j ∧ p j ≤ 100
/-- Every reciprocal exponent is a positive real. -/
def QRange (q : FVec Ideal SD .f32) : Prop := ∀ j : SD.Idx, (0 : EReal) < q j ∧ q j < ⊤
/-- Nothing below zero. -/
def NonNeg {s : Shape} (x : FVec Ideal s .f32) : Prop := ∀ i : s.Idx, (0 : EReal) ≤ x i

end Gnn

end
-- ==== Proof.PreDecode.lean ====
/-
  The precondition, read: its last two conjuncts say that every source and every destination endpoint is a row
  number of the node table, 0 ≤ src[e] < 50000 and 0 ≤ dst[e] < 50000 as signed words. The predicate is one chain of
  "and"s over one-bit scalars, each a reduction by "and" of an elementwise test; it is all ones exactly when every
  link is, and a reduction by "and" is one exactly when every element is.
-/
import proofs.«402615_j67370857005182_3_alg».proof.Pre_finite_inputs
import proofs.«402615_j67370857005182_3_alg».proof.Proof.Gen.Pre_finite_inputs
import proofs.«402615_j67370857005182_3_alg».proof.Proof.Spec
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- One word: the one-bit "and" of the signed tests 0 ≤ w and w < 50000 is set exactly when w, read as a signed
    integer, lies in [0, 50000). Both literals have their top bit clear, so they read as themselves. -/
theorem range_of_word (w : BitVec 32)
    (h : IntOp.andi (IntOp.cmpi .sge w 0#32) (IntOp.cmpi .slt w 50000#32) = 1#1) :
    0 ≤ w.toInt ∧ w.toInt < 50000 := by
  obtain ⟨h0, h1⟩ := IntOp.andi_eq_one.1 h
  have a : (0#32 : BitVec 32).toInt ≤ w.toInt := IntOp.cmpi_sge.1 h0
  have b : w.toInt < (50000#32 : BitVec 32).toInt := IntOp.cmpi_slt.1 h1
  have e0 : (0#32 : BitVec 32).toInt = 0 := by decide
  have e1 : (50000#32 : BitVec 32).toInt = 50000 := by decide
  rw [e0] at a
  rw [e1] at b
  exact ⟨a, b⟩

/-- One link: a reduction by "and" over all 800000 entries of the elementwise test "lo ≤ s[e] and s[e] < hi" that
    comes out 1 met a 1 at every entry; where lo is 0 everywhere and hi is 50000 everywhere, every entry of s is a
    row number of the node table. -/
theorem idxOk_of_all {axes : List (Fin S800000.rank)} (s lo hi : IVec S800000 32)
    (hlo : ∀ e, lo e = 0#32) (hhi : ∀ e, hi e = 50000#32)
    (init : IVec S_ 1) (hr : S800000.ReducesTo axes S_) (hu : 0 < S_.numel)
    (h : Host.reduce IntOp.andi (andi (cmpi .sge s lo) (cmpi .slt s hi)) init hr hu ix0 = 1#1) :
    Gnn.IdxOk s := by
  intro e
  have he : andi (cmpi .sge s lo) (cmpi .slt s hi) e = 1#1 :=
    Host.reduce_andi_all (andi (cmpi .sge s lo) (cmpi .slt s hi)) init hr hu ix0 h e
  have hw : IntOp.andi (IntOp.cmpi .sge (s e) (lo e)) (IntOp.cmpi .slt (s e) (hi e)) = 1#1 := he
  rw [hlo e, hhi e] at hw
  exact range_of_word (s e) hw

/-- Where the precondition holds, both endpoint vectors hold row numbers of the node table. -/
theorem idxOk_of_pre (a0 : FVec Ideal S50000x64 .f32) (a1 : FVec Ideal S800000x64 .f32) (a2 : IVec S800000 32) (a3 : IVec S800000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S64x64 .f32) (a13 : FVec Ideal S64 .f32) (a14 : FVec Ideal S64 .f32) (a15 : FVec Ideal S64 .f32) (a16 : FVec Ideal S64 .f32) (a17 : FVec Ideal S64 .f32) (a18 : FVec Ideal S64 .f32)
    (h : Cert.Pre_finite_inputs.fn (F := Ideal) a0 a1 a2 a3 a4 a5 a6 a7 a8 a9 a10 a11 a12 a13 a14 a15 a16 a17 a18 = fun _ => 1#1) :
    Gnn.IdxOk a2 ∧ Gnn.IdxOk a3 := by
  have e := congrFun h ix0
  dsimp only [fn, fn_part1, fn_part2, fn_part3, fn_part4, fn_part5] at e
  -- the chain ends  (… and all(src in range)) and all(dst in range)
  obtain ⟨e1, hdst⟩ := IntOp.andi_eq_one.1 e
  obtain ⟨-, hsrc⟩ := IntOp.andi_eq_one.1 e1
  exact ⟨idxOk_of_all a2 _ _ (fun i => StableHlo.Predicate.bcast_scalar _ Cert.Pre_finite_inputs.Gen.h_S_ _ i)
      (fun i => StableHlo.Predicate.bcast_scalar _ Cert.Pre_finite_inputs.Gen.h_S_ _ i) _ _ _ hsrc,
    idxOk_of_all a3 _ _ (fun i => StableHlo.Predicate.bcast_scalar _ Cert.Pre_finite_inputs.Gen.h_S_ _ i)
      (fun i => StableHlo.Predicate.bcast_scalar _ Cert.Pre_finite_inputs.Gen.h_S_ _ i) _ _ _ hdst⟩

end Cert.Pre_finite_inputs.Decode

end
-- ==== Proof.Laws.lean ====
/-
  The laws that join the two spellings of a stage, over the extended reals.

  · A power of a non-negative base (finite or +∞) with a positive real exponent is the exponential of the exponent
    times the logarithm of the base: at base 0 both sides are 0 (log 0 = −∞, a positive multiple of −∞ is −∞,
    exp(−∞) = 0); at base +∞ both are +∞; in between it is the definition of the real power.
  · The clipped exponent lies in [1, 100], its reciprocal in (0, 1].
  · Powers, gathered rows, products and scatter-sums of non-negative arrays are non-negative.
  · Where every endpoint index is a row number, the wrapped index is the index itself and passes the range test, so the
    masked gather is the plain gather.
-/
import proofs.«402615_j67370857005182_3_alg».proof.Proof.Spec
import Idealize.ShloMosaic.Lib.StableHlo.Predicate
import Idealize.ShloMosaic.Lib.ReduceAll
import Idealize.ShloMosaic.PureOps.Ideal.Laws

noncomputable section

namespace Gnn

open Idealize.ShloMosaic Idealize.ShloMosaic.ValueIdx

/-- x ^ y = exp (y · log x) for 0 ≤ x ≤ +∞ and a positive real y. -/
theorem pow_explog (x y : EReal) (hx : 0 ≤ x) (hy0 : 0 < y) (hy : y < ⊤) :
    Ideal.pow x y = Ideal.exp (y * Ideal.log x) := by
  induction y using EReal.rec with
  | bot => exact absurd hy0 (by simp)
  | top => exact absurd hy (lt_irrefl _)
  | coe s =>
    have hs : 0 < s := by exact_mod_cast hy0
    induction x using EReal.rec with
    | bot => exact absurd hx (by simp)
    | top =>
      rw [Ideal.pow_top, if_pos hy0, Ideal.log_top, EReal.coe_mul_top_of_pos hs, Ideal.exp_top]
    | coe r =>
      have hr : 0 ≤ r := by exact_mod_cast hx
      rw [Ideal.pow_coe_coe, Ideal.log_coe]
      rcases hr.eq_or_lt with h0 | hpos
      · subst h0
        rw [if_pos le_rfl, EReal.coe_mul_bot_of_pos hs, Ideal.exp_bot]
        show ((Real.rpow 0 s : ℝ) : EReal) = 0
        rw [Real.rpow_eq_pow, Real.zero_rpow hs.ne']; rfl
      · rw [if_neg (not_le.mpr hpos), ← EReal.coe_mul, Ideal.exp_coe]
        rw [Real.rpow_eq_pow, Real.rpow_def_of_pos hpos, mul_comm]

/-- The pattern 0x3F800000 denotes 1: sign 0, exponent field 127 (the bias), significand field 0. -/
theorem ofBits_one : Ideal.ofBits .f32 0x3F800000#32 = 1 := by
  simp [Ideal.ofBits, Ideal.ieee, -EReal.coe_mul]
  norm_num

/-- The pattern 0x42C80000 denotes 100 = (2²³ + 0x480000) · 2^(133 − 127 − 23) = 1.5625 · 64. -/
theorem ofBits_hundred : Ideal.ofBits .f32 0x42C80000#32 = 100 := by
  simp [Ideal.ofBits, Ideal.ieee, -EReal.coe_mul]
  norm_num
  exact EReal.coe_natCast (n := 100)

/-- 100 is a real. -/
theorem hundred_lt_top : (100 : EReal) < ⊤ := by
  rw [← show ((100 : ℝ) : EReal) = 100 from EReal.coe_natCast (n := 100)]
  exact EReal.coe_lt_top _

/-- |a| = max a (−a) is non-negative. -/
theorem abs_nonneg' (a : EReal) : (0 : EReal) ≤ max a (-a) := by
  rcases le_total 0 a with h | h
  · exact le_max_of_le_left h
  · exact le_max_of_le_right (by simpa using EReal.neg_le_neg_iff.mpr h)

/-- A power of a non-negative base with an exponent in [1, 100] is non-negative. -/
theorem pow_nonneg' (a y : EReal) (ha : 0 ≤ a) (h1 : 1 ≤ y) (h2 : y ≤ 100) : (0 : EReal) ≤ Ideal.pow a y := by
  have hy0 : (0 : EReal) < y := lt_of_lt_of_le zero_lt_one h1
  induction y using EReal.rec with
  | bot => exact absurd (lt_of_lt_of_le zero_lt_one h1) (not_lt_bot)
  | top => exact absurd h2 (not_le.mpr hundred_lt_top)
  | coe s =>
    induction a using EReal.rec with
    | bot => exact absurd ha (by simp)
    | top => rw [Ideal.pow_top, if_pos hy0]; exact le_top
    | coe r =>
      have hr : 0 ≤ r := by exact_mod_cast ha
      rw [Ideal.pow_coe_coe]
      exact_mod_cast Real.rpow_nonneg hr s

theorem clipP_range (P : FVec Ideal SD .f32) : PRange (clipP P) := by
  intro j
  show (1 : EReal) ≤ min (Ideal.ofBits .f32 0x42C80000#32) (max (Ideal.ofBits .f32 0x3F800000#32) (P j))
    ∧ min (Ideal.ofBits .f32 0x42C80000#32) (max (Ideal.ofBits .f32 0x3F800000#32) (P j)) ≤ 100
  rw [ofBits_one, ofBits_hundred]
  refine ⟨le_min ?_ (le_max_left _ _), min_le_left _ _⟩
  exact_mod_cast (by norm_num : (1 : ℝ) ≤ 100)

theorem recip_range (p : FVec Ideal SD .f32) (hp : PRange p) : QRange (recip p) := by
  intro j
  obtain ⟨h1, h2⟩ := hp j
  show (0 : EReal) < Ideal.div (Ideal.ofBits .f32 0x3F800000#32) (p j)
    ∧ Ideal.div (Ideal.ofBits .f32 0x3F800000#32) (p j) < ⊤
  rw [ofBits_one]
  generalize p j = y at h1 h2
  induction y using EReal.rec with
  | bot => exact absurd (lt_of_lt_of_le zero_lt_one h1) (not_lt_bot)
  | top => exact absurd h2 (not_le.mpr hundred_lt_top)
  | coe r =>
    have hr : (1 : ℝ) ≤ r := by exact_mod_cast h1
    have hr0 : (0 : ℝ) < r := by linarith
    rw [Ideal.div_coe hr0.ne', one_mul]
    exact ⟨by exact_mod_cast (by positivity : (0 : ℝ) < 1 / r), EReal.coe_lt_top _⟩

theorem powN_nonneg (x : FVec Ideal SN .f32) (p : FVec Ideal SD .f32) (hp : PRange p) : NonNeg (powN x p) := by
  intro i
  obtain ⟨k, hk⟩ : ∃ k : SD.Idx, rowN p i = p k := ⟨_, rfl⟩
  show (0 : EReal) ≤ Ideal.pow (max (x i) (-(x i))) (rowN p i)
  rw [hk]
  exact pow_nonneg' _ _ (abs_nonneg' _) (hp k).1 (hp k).2

theorem powE_nonneg (x : FVec Ideal SE .f32) (p : FVec Ideal SD .f32) (hp : PRange p) : NonNeg (powE x p) := by
  intro i
  obtain ⟨k, hk⟩ : ∃ k : SD.Idx, rowE p i = p k := ⟨_, rfl⟩
  show (0 : EReal) ≤ Ideal.pow (max (x i) (-(x i))) (rowE p i)
  rw [hk]
  exact pow_nonneg' _ _ (abs_nonneg' _) (hp k).1 (hp k).2

theorem gath_nonneg (x : FVec Ideal SN .f32) (s : IVec SI 32) (hx : NonNeg x) : NonNeg (gath x s) := by
  intro i
  exact hx _

theorem mulf_nonneg (a b : FVec Ideal SE .f32) (ha : NonNeg a) (hb : NonNeg b) : NonNeg (mulf a b) := by
  intro i
  show (0 : EReal) ≤ a i * b i
  exact mul_nonneg (ha i) (hb i)

/-- A scatter-sum of non-negative updates into a non-negative table is non-negative, at any shapes: each entry is
    the table's entry plus a finite sum of updates. -/
theorem hostScatterAdd_nonneg {s si su : Shape} (d : ScatterDims s si su) {w : Nat} (x : s.Idx → EReal) (idx : IVec si w)
    (upd : su.Idx → EReal) (hx : ∀ i, (0 : EReal) ≤ x i) (hu : ∀ j, (0 : EReal) ≤ upd j) (i : s.Idx) :
    (0 : EReal) ≤ Ideal.hostScatterAdd d x idx upd i := by
  unfold Ideal.hostScatterAdd
  exact add_nonneg (hx i) (Finset.sum_nonneg fun j _ => hu j)

/-- The zero table is non-negative. -/
theorem cstN_zero_nonneg (k : SN.Idx) : (0 : EReal) ≤ cstN (F := Ideal) 0x00000000#32 k := by
  show (0 : EReal) ≤ Ideal.ofBits .f32 0x00000000#32
  rw [Ideal.ofBits_zero_f32]

theorem scat_nonneg (dst : IVec SI 32) (u : FVec Ideal SE .f32) (hu : NonNeg u) : NonNeg (scat dst u) := by
  intro i
  rw [scat, Host.scatterAdd, Ideal.hostScatterAdd_def]
  exact hostScatterAdd_nonneg sca (cstN (F := Ideal) 0x00000000#32) (colIdx dst) u cstN_zero_nonneg hu i

/-- A left fold by `and` that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` of an all-ones array from the initial value 1 is 1 at every result index. -/
theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  rw [Host.reduce_eq_foldl, hinit]
  exact foldl_andi_ones x hx _

/-- A word that reads non-negative is not below zero, so the wrap leaves it alone. -/
theorem wrapIdx_of_nonneg (s : IVec SI 32) (e : SI.Idx) (h : 0 ≤ (s e).toInt) : wrapIdx s e = s e := by
  have hc : IntOp.cmpi .slt (s e) 0#32 = 0#1 := by
    unfold IntOp.cmpi
    show BitVec.ofBool ((s e).slt 0#32) = 0#1
    have : (s e).slt 0#32 = false := by
      rw [BitVec.slt]; simp only [decide_eq_false_iff_not, not_lt]
      exact h
    rw [this]; rfl
  show Scalar.select (IntOp.cmpi .slt (s e) 0#32) (IntOp.addi (s e) 50000#32) (s e) = s e
  rw [hc, select_zero]

/-- With every index a row number, every edge passes the range test. -/
theorem inRange_one (s : IVec SI 32) (hs : IdxOk s) (e : SI.Idx) : inRange s e = 1#1 := by
  unfold inRange
  refine reduce_andi_ones _ ?_ _ (fun _ => rfl) redI h0 e
  intro i
  obtain ⟨e', he'⟩ : ∃ e' : SI.Idx, colIdx (wrapIdx s) i = wrapIdx s e' := ⟨_, rfl⟩
  obtain ⟨h1, h2⟩ := hs e'
  show IntOp.andi (IntOp.cmpi .sge (colIdx (wrapIdx s) i) 0#32) (IntOp.cmpi .sle (colIdx (wrapIdx s) i) 49999#32) = 1#1
  rw [he', wrapIdx_of_nonneg s e' h1, IntOp.andi_eq_one]
  have hn : (s e').toNat < 50000 := by
    have := BitVec.toInt_eq_toNat_cond (s e')
    have hlt := (s e').isLt
    omega
  constructor
  · exact (StableHlo.Predicate.sge_iff_toNat (by omega) (by decide)).mpr (by simp)
  · exact (StableHlo.Predicate.sle_iff_toNat (by omega) (by decide)).mpr (by simp; omega)

/-- With every index a row number, the masked gather is the gather. -/
theorem takeF_eq_gath (x : FVec Ideal SN .f32) (s : IVec SI 32) (hs : IdxOk s) : takeF x s = gath x s := by
  funext j
  have hm : broadcastInDim SE ![0] bIE (inRange s) j = 1#1 := inRange_one s hs _
  rw [takeF, select_apply, hm, select_one]

end Gnn

end
-- ==== Proof.Keep.lean ====
/-
  What a stretch of host operations leaves alone: every operation writes exactly one buffer, so a buffer outside the
  list of the stretch's result buffers holds after the stretch what it held before.
-/
import proofs.«402615_j67370857005182_3_alg».proof.Proof.Gen.KernelIdeal.Launch
import Idealize.ShloMosaic.Lib.StableHlo.Run

noncomputable section

namespace Cert.KernelIdeal.Keep

open Cert.KernelIdeal Cert.KernelIdeal.Gen Idealize.ShloMosaic Idealize.ShloMosaic.TcCoe Idealize.SL.Sem

variable {F : FTy → Type} [FloatOps F]

/-- Each operation's one result buffer is in the list: the builders' write sets are singletons. -/
macro "writes_in" h:ident : tactic =>
  `(tactic| (simp only [$h:ident, List.Forall, StableHlo.nullary_writes, StableHlo.unary_writes, StableHlo.binary_writes, StableHlo.ternary_writes, StableHlo.quaternary_writes, StableHlo.reshape_writes, StableHlo.binaryIndexed_writes] <;> (repeat' apply And.intro) <;> (apply Finset.singleton_subset_iff.mpr; apply List.mem_toFinset.mpr; exact List.mem_map_of_mem (by decide))))

/-- The result buffers of hostOps0. -/
def wr0 : List (Ref sig .tc) :=
  [main_cst, main_cst_0]
theorem hW0 : (hostOps0 : List (HloOp τ sig (Elt F))).Forall fun op => op.writes ⊆ (wr0.map (Proc.devRef (τ := τ) .tc)).toFinset := by
  writes_in hostOps0
/-- A buffer outside that list is as it was. -/
theorem keep0 (V : Valuation τ sig (Elt F)) (r : Ref sig .tc) (hr : r ∉ wr0) :
    StableHlo.after hostOps0 V (Proc.devRef .tc r) = V (Proc.devRef .tc r) :=
  StableHlo.after_of_writes_sub hostOps0 V hW0 hr

/-- The result buffers of hostOps0_1. -/
def wr0_1 : List (Ref sig .tc) :=
  [main_call0_v0, main_call0_v1, main_call0_v2, main_call0_v3, main_call0_v4, main_v0]
theorem hW0_1 : (hostOps0_1 : List (HloOp τ sig (Elt F))).Forall fun op => op.writes ⊆ (wr0_1.map (Proc.devRef (τ := τ) .tc)).toFinset := by
  writes_in hostOps0_1
/-- A buffer outside that list is as it was. -/
theorem keep0_1 (V : Valuation τ sig (Elt F)) (r : Ref sig .tc) (hr : r ∉ wr0_1) :
    StableHlo.after hostOps0_1 V (Proc.devRef .tc r) = V (Proc.devRef .tc r) :=
  StableHlo.after_of_writes_sub hostOps0_1 V hW0_1 hr

/-- The result buffers of hostOps0_2. -/
def wr0_2 : List (Ref sig .tc) :=
  [main_cst_1, main_v1, main_v2]
theorem hW0_2 : (hostOps0_2 : List (HloOp τ sig (Elt F))).Forall fun op => op.writes ⊆ (wr0_2.map (Proc.devRef (τ := τ) .tc)).toFinset := by
  writes_in hostOps0_2
/-- A buffer outside that list is as it was. -/
theorem keep0_2 (V : Valuation τ sig (Elt F)) (r : Ref sig .tc) (hr : r ∉ wr0_2) :
    StableHlo.after hostOps0_2 V (Proc.devRef .tc r) = V (Proc.devRef .tc r) :=
  StableHlo.after_of_writes_sub hostOps0_2 V hW0_2 hr

/-- The result buffers of hostOps1. -/
def wr1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v4]
theorem hW1 : (hostOps1 : List (HloOp τ sig (Elt F))).Forall fun op => op.writes ⊆ (wr1.map (Proc.devRef (τ := τ) .tc)).toFinset := by
  writes_in hostOps1
/-- A buffer outside that list is as it was. -/
theorem keep1 (V : Valuation τ sig (Elt F)) (r : Ref sig .tc) (hr : r ∉ wr1) :
    StableHlo.after hostOps1 V (Proc.devRef .tc r) = V (Proc.devRef .tc r) :=
  StableHlo.after_of_writes_sub hostOps1 V hW1 hr

/-- The result buffers of hostOps1_1. -/
def wr1_1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v5]
theorem hW1_1 : (hostOps1_1 : List (HloOp τ sig (Elt F))).Forall fun op => op.writes ⊆ (wr1_1.map (Proc.devRef (τ := τ) .tc)).toFinset := by
  writes_in hostOps1_1
/-- A buffer outside that list is as it was. -/
theorem keep1_1 (V : Valuation τ sig (Elt F)) (r : Ref sig .tc) (hr : r ∉ wr1_1) :
    StableHlo.after hostOps1_1 V (Proc.devRef .tc r) = V (Proc.devRef .tc r) :=
  StableHlo.after_of_writes_sub hostOps1_1 V hW1_1 hr

/-- The result buffers of hostOps1_2. -/
def wr1_2 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v6]
theorem hW1_2 : (hostOps1_2 : List (HloOp τ sig (Elt F))).Forall fun op => op.writes ⊆ (wr1_2.map (Proc.devRef (τ := τ) .tc)).toFinset := by
  writes_in hostOps1_2
/-- A buffer outside that list is as it was. -/
theorem keep1_2 (V : Valuation τ sig (Elt F)) (r : Ref sig .tc) (hr : r ∉ wr1_2) :
    StableHlo.after hostOps1_2 V (Proc.devRef .tc r) = V (Proc.devRef .tc r) :=
  StableHlo.after_of_writes_sub hostOps1_2 V hW1_2 hr

/-- The result buffers of hostOps2. -/
def wr2 : List (Ref sig .tc) :=
  [main_cst_2, main_v8, main_v9, main_v10, main_cst_3, main_v11, main_v12, main_v13]
theorem hW2 : (hostOps2 : List (HloOp τ sig (Elt F))).Forall fun op => op.writes ⊆ (wr2.map (Proc.devRef (τ := τ) .tc)).toFinset := by
  writes_in hostOps2
/-- A buffer outside that list is as it was. -/
theorem keep2 (V : Valuation τ sig (Elt F)) (r : Ref sig .tc) (hr : r ∉ wr2) :
    StableHlo.after hostOps2 V (Proc.devRef .tc r) = V (Proc.devRef .tc r) :=
  StableHlo.after_of_writes_sub hostOps2 V hW2 hr

/-- The result buffers of hostOps3. -/
def wr3 : List (Ref sig .tc) :=
  [main_cst_4, main_v15, main_cst_5, main_v16, main_v17, main_c]
theorem hW3 : (hostOps3 : List (HloOp τ sig (Elt F))).Forall fun op => op.writes ⊆ (wr3.map (Proc.devRef (τ := τ) .tc)).toFinset := by
  writes_in hostOps3
/-- A buffer outside that list is as it was. -/
theorem keep3 (V : Valuation τ sig (Elt F)) (r : Ref sig .tc) (hr : r ∉ wr3) :
    StableHlo.after hostOps3 V (Proc.devRef .tc r) = V (Proc.devRef .tc r) :=
  StableHlo.after_of_writes_sub hostOps3 V hW3 hr

/-- The result buffers of hostOps3_1. -/
def wr3_1 : List (Ref sig .tc) :=
  [main_call4_cst, main_call4_v0, main_call4_v1, main_call4_cst_0, main_call4_v2, main_call4_v3, main_call4_v4, main_call4_v5,
   main_call4_v6, main_call4_v7, main_call4_cst_1, main_call4_v8, main_call4_cst_2, main_call4_v9, main_call4_v10, main_call4_v11,
   main_call4_cst_3, main_call4_v12, main_call4_cst_4, main_call4_call0_v0, main_call4_call0_v1, main_v18]
theorem hW3_1 : (hostOps3_1 : List (HloOp τ sig (Elt F))).Forall fun op => op.writes ⊆ (wr3_1.map (Proc.devRef (τ := τ) .tc)).toFinset := by
  writes_in hostOps3_1
/-- A buffer outside that list is as it was. -/
theorem keep3_1 (V : Valuation τ sig (Elt F)) (r : Ref sig .tc) (hr : r ∉ wr3_1) :
    StableHlo.after hostOps3_1 V (Proc.devRef .tc r) = V (Proc.devRef .tc r) :=
  StableHlo.after_of_writes_sub hostOps3_1 V hW3_1 hr

/-- The result buffers of hostOps4. -/
def wr4 : List (Ref sig .tc) :=
  [main_cst_6, main_v20, main_cst_7, main_v21, main_v22, main_c_8]
theorem hW4 : (hostOps4 : List (HloOp τ sig (Elt F))).Forall fun op => op.writes ⊆ (wr4.map (Proc.devRef (τ := τ) .tc)).toFinset := by
  writes_in hostOps4
/-- A buffer outside that list is as it was. -/
theorem keep4 (V : Valuation τ sig (Elt F)) (r : Ref sig .tc) (hr : r ∉ wr4) :
    StableHlo.after hostOps4 V (Proc.devRef .tc r) = V (Proc.devRef .tc r) :=
  StableHlo.after_of_writes_sub hostOps4 V hW4 hr

/-- The result buffers of hostOps4_1. -/
def wr4_1 : List (Ref sig .tc) :=
  [main_call5_cst, main_call5_v0, main_call5_v1, main_call5_cst_0, main_call5_v2, main_call5_v3, main_call5_v4, main_call5_v5,
   main_call5_v6, main_call5_v7, main_call5_cst_1, main_call5_v8, main_call5_cst_2, main_call5_v9, main_call5_v10, main_call5_v11,
   main_call5_cst_3, main_call5_v12, main_call5_cst_4, main_call5_call0_v0, main_call5_call0_v1, main_v23]
theorem hW4_1 : (hostOps4_1 : List (HloOp τ sig (Elt F))).Forall fun op => op.writes ⊆ (wr4_1.map (Proc.devRef (τ := τ) .tc)).toFinset := by
  writes_in hostOps4_1
/-- A buffer outside that list is as it was. -/
theorem keep4_1 (V : Valuation τ sig (Elt F)) (r : Ref sig .tc) (hr : r ∉ wr4_1) :
    StableHlo.after hostOps4_1 V (Proc.devRef .tc r) = V (Proc.devRef .tc r) :=
  StableHlo.after_of_writes_sub hostOps4_1 V hW4_1 hr

end Cert.KernelIdeal.Keep

end
-- ==== Proof.ChainHost.lean ====
/-
  The kernel program's host stretches, read: what each stretch of host operations between two pallas_calls leaves in
  its result buffers, as a function of the contents it starts from. The clip of the exponent and its reciprocal; the
  three masked row gathers; the two scatter-sums over destination nodes; the batch mean of the node array and of the
  edge array, with the zero axis count each variance takes.
-/
import proofs.«402615_j67370857005182_3_alg».proof.Proof.Gen.KernelIdeal.Launch
import proofs.«402615_j67370857005182_3_alg».proof.Proof.Spec
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo

variable (V : Valuation τ sig (Elt Ideal))

/-- The exponent after the two constants and the clip: p = min(100, max(1, P)). -/
theorem clip_read :
    (after (hostOps0_1 (F := Ideal)) (after (hostOps0 (F := Ideal)) V) (Proc.devRef .tc main_v0) : Gnn.SD.Idx → EReal)
      = Gnn.clipP (F := Ideal) (V (Proc.devRef .tc main_arg14)) := by
  after_results
  rfl

/-- The reciprocal exponent. -/
theorem recip_read :
    (after (hostOps0_2 (F := Ideal)) V (Proc.devRef .tc main_v2) : Gnn.SD.Idx → EReal)
      = Gnn.recip (F := Ideal) (V (Proc.devRef .tc main_v0)) := by
  after_results
  rfl

/-! ## The three gathers by endpoint

  jnp.take's operations, as one function of the table and the index vector: the index wrapped where negative, laid as a
  column of start indices, tested against [0, N − 1] row by row, the rows gathered, and the not-a-number pattern selected
  where the test fails. Each stretch writes that function of its two input buffers into its result buffer; moving
  contents to a literal buffer's own type and back is the identity. -/

/-- Contents moved to a buffer's own type and back are the contents. -/
theorem take_ofBuf_toBuf {T : BufTy} (x : TRef sig T) (v : T.Contents (Elt Ideal)) : x.ofBuf (x.toBuf v) = v := by
  simp only [TRef.ofBuf, TRef.toBuf, cast_cast, cast_eq]

/-- The wrapped index as a column of start indices. -/
def wrapK (s : IVec S800000 32) : IVec S800000x1 32 :=
  broadcastInDim S800000x1 ![0] bcast_S800000_S800000x1_0
    (select (cmpi CmpIPredicate.slt s (broadcastInDim S800000 ![] bcast_S_S800000 (constantI S_ 32 0#32)))
      (addi s (broadcastInDim S800000 ![] bcast_S_S800000 (constantI S_ 32 50000#32))) s)

/-- The masked row gather of table x at index vector s. -/
def takeK (x : FVec Ideal S50000x64 .f32) (s : IVec S800000 32) : FVec Ideal S800000x64 .f32 :=
  select
    (broadcastInDim S800000x64 ![0] bcast_S800000_S800000x64_0
      (Host.reduce IntOp.andi
        (andi (cmpi CmpIPredicate.sge (wrapK s) (broadcastInDim S800000x1 ![] bcast_S_S800000x1 (constantI S_ 32 0#32)))
          (cmpi CmpIPredicate.sle (wrapK s)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 x (wrapK s))
    (broadcastInDim S800000x64 ![] bcast_S_S800000x64 (constant S_ FTy.f32 2143289344#32))

theorem wrapK_eq (s : IVec S800000 32) : wrapK s = Gnn.colIdx (Gnn.wrapIdx s) := rfl

/-- It is the specification's masked gather: the same operations over the same shapes. -/
theorem takeK_eq (x : FVec Ideal S50000x64 .f32) (s : IVec S800000 32) : takeK x s = Gnn.takeF (F := Ideal) x s := by
  unfold takeK Gnn.takeF Gnn.gath Gnn.inRange Gnn.cstE
  rw [wrapK_eq]
  rfl

/-- At these literal buffers the transports are along equations that hold by computation: the identity. -/
theorem out_v4 (w : FVec Ideal S800000x64 .f32) :
    ((TRef.of main_v4 : TRef sig ⟨S800000x64, .f32⟩).toBuf (Val := Elt Ideal) w : Gnn.SE.Idx → EReal) = w := rfl
theorem out_v5 (w : FVec Ideal S800000x64 .f32) :
    ((TRef.of main_v5 : TRef sig ⟨S800000x64, .f32⟩).toBuf (Val := Elt Ideal) w : Gnn.SE.Idx → EReal) = w := rfl
theorem out_v6 (w : FVec Ideal S800000x64 .f32) :
    ((TRef.of main_v6 : TRef sig ⟨S800000x64, .f32⟩).toBuf (Val := Elt Ideal) w : Gnn.SE.Idx → EReal) = w := rfl
theorem in_src (u : (main_arg2 : Ref sig .tc).ty.Contents (Elt Ideal)) :
    ((TRef.of main_arg2 : TRef sig ⟨S800000, .i32⟩).ofBuf (Val := Elt Ideal) u : IVec S800000 32) = u := rfl
theorem in_dst (u : (main_arg3 : Ref sig .tc).ty.Contents (Elt Ideal)) :
    ((TRef.of main_arg3 : TRef sig ⟨S800000, .i32⟩).ofBuf (Val := Elt Ideal) u : IVec S800000 32) = u := rfl
theorem in_v3_1 (u : (main_v3_1 : Ref sig .tc).ty.Contents (Elt Ideal)) :
    ((TRef.of main_v3_1 : TRef sig ⟨S50000x64, .f32⟩).ofBuf (Val := Elt Ideal) u : FVec Ideal S50000x64 .f32) = u := rfl
theorem in_v3_2 (u : (main_v3_2 : Ref sig .tc).ty.Contents (Elt Ideal)) :
    ((TRef.of main_v3_2 : TRef sig ⟨S50000x64, .f32⟩).ofBuf (Val := Elt Ideal) u : FVec Ideal S50000x64 .f32) = u := rfl
theorem in_v3_3 (u : (main_v3_3 : Ref sig .tc).ty.Contents (Elt Ideal)) :
    ((TRef.of main_v3_3 : TRef sig ⟨S50000x64, .f32⟩).ofBuf (Val := Elt Ideal) u : FVec Ideal S50000x64 .f32) = u := rfl

theorem take1_read :
    (after (hostOps1 (F := Ideal)) V (Proc.devRef .tc main_v4) : Gnn.SE.Idx → EReal)
      = Gnn.takeF (F := Ideal) (V (Proc.devRef .tc main_v3_2)) (V (Proc.devRef .tc main_arg2)) := by
  after_results_simp
  simp only [take_ofBuf_toBuf]
  rw [out_v4]
  simp only [in_src, in_v3_2]
  exact takeK_eq _ _
theorem take2_read :
    (after (hostOps1_1 (F := Ideal)) V (Proc.devRef .tc main_v5) : Gnn.SE.Idx → EReal)
      = Gnn.takeF (F := Ideal) (V (Proc.devRef .tc main_v3_3)) (V (Proc.devRef .tc main_arg3)) := by
  after_results_simp
  simp only [take_ofBuf_toBuf]
  rw [out_v5]
  simp only [in_dst, in_v3_3]
  exact takeK_eq _ _
theorem take3_read :
    (after (hostOps1_2 (F := Ideal)) V (Proc.devRef .tc main_v6) : Gnn.SE.Idx → EReal)
      = Gnn.takeF (F := Ideal) (V (Proc.devRef .tc main_v3_1)) (V (Proc.devRef .tc main_arg2)) := by
  after_results_simp
  simp only [take_ofBuf_toBuf]
  rw [out_v6]
  simp only [in_src, in_v3_1]
  exact takeK_eq _ _

/-- The two scatter-sums. -/
theorem scat1_read :
    (after (hostOps2 (F := Ideal)) V (Proc.devRef .tc main_v10) : Gnn.SN.Idx → EReal)
      = Gnn.scat (F := Ideal) (V (Proc.devRef .tc main_arg3)) (V (Proc.devRef .tc main_v7_1)) := by
  after_results
  rfl
theorem scat2_read :
    (after (hostOps2 (F := Ideal)) V (Proc.devRef .tc main_v13) : Gnn.SN.Idx → EReal)
      = Gnn.scat (F := Ideal) (V (Proc.devRef .tc main_arg3)) (V (Proc.devRef .tc main_v7_2)) := by
  after_results
  rfl

/-- The node array's mean, and the zero axis count the variance takes. -/
theorem meanN_read :
    (after (hostOps3 (F := Ideal)) V (Proc.devRef .tc main_v17) : Gnn.SD.Idx → EReal)
      = Gnn.meanN (F := Ideal) (V (Proc.devRef .tc main_v14)) := by
  after_results
  rfl
theorem c_read :
    (after (hostOps3 (F := Ideal)) V (Proc.devRef .tc main_c) : IVec Gnn.S0 32) = constantI Gnn.S0 32 0#32 := by
  after_results

/-- The edge array's mean, and the zero axis count its variance takes. -/
theorem meanE_read :
    (after (hostOps4 (F := Ideal)) V (Proc.devRef .tc main_v22) : Gnn.SD.Idx → EReal)
      = Gnn.meanE (F := Ideal) (V (Proc.devRef .tc main_v7_0)) := by
  after_results
  rfl
theorem c8_read :
    (after (hostOps4 (F := Ideal)) V (Proc.devRef .tc main_c_8) : IVec Gnn.S0 32) = constantI Gnn.S0 32 0#32 := by
  after_results

end Cert.KernelIdeal.HostRead

end
-- ==== Proof.ChainHostVar.lean ====
/-
  The kernel program's two variance stretches, read: the biased variance over axis 0 of the node array and of the
  edge array, as the host computes it (the mean laid back along the rows, the squared deviations summed, the sum
  divided by the count, kept where the count is positive).
-/
import proofs.«402615_j67370857005182_3_alg».proof.Proof.Gen.KernelIdeal.Launch
import proofs.«402615_j67370857005182_3_alg».proof.Proof.Spec
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo

variable (V : Valuation τ sig (Elt Ideal))

/-- Contents moved to a buffer's own type and back are the contents: the two transports are along one equation and
    its converse. -/
theorem var_ofBuf_toBuf {T : BufTy} (x : TRef sig T) (v : T.Contents (Elt Ideal)) : x.ofBuf (x.toBuf v) = v := by
  simp only [TRef.ofBuf, TRef.toBuf, cast_cast, cast_eq]

/-- The node array's variance. Each operation's result is its function at its operands' contents; the axis count is
    the zero word; what is left is, operation for operation, the definition: the column sums over the count laid back
    along the rows, the squared deviations summed and divided by the count less zero, kept where that is positive. -/
theorem varN_read (hc : ((V (Proc.devRef .tc main_c)) : IVec Gnn.S0 32) = constantI Gnn.S0 32 0#32) :
    (after (hostOps3_1 (F := Ideal)) V (Proc.devRef .tc main_v18) : Gnn.SD.Idx → EReal)
      = Gnn.varN (F := Ideal) (V (Proc.devRef .tc main_v14)) := by
  after_results_simp
  simp only [var_ofBuf_toBuf]
  rw [hc]
  unfold Gnn.varN Gnn.dofN
  rfl

/-- The edge array's variance. -/
theorem varE_read (hc : ((V (Proc.devRef .tc main_c_8)) : IVec Gnn.S0 32) = constantI Gnn.S0 32 0#32) :
    (after (hostOps4_1 (F := Ideal)) V (Proc.devRef .tc main_v23) : Gnn.SD.Idx → EReal)
      = Gnn.varE (F := Ideal) (V (Proc.devRef .tc main_v7_0)) := by
  after_results_simp
  simp only [var_ofBuf_toBuf]
  rw [hc]
  unfold Gnn.varE Gnn.dofE
  rfl

end Cert.KernelIdeal.HostRead

end
-- ==== Proof.Region0.lean ====
/-
  The first pallas_call (ten grid points, 5000 node rows each): what its four output arrays hold once every block
  is written back. Block t of an output is a function of block t of h (rows 5000·t … 5000·t + 4999) and of the whole
  weight, bias and exponent arrays, and entry (r, c) of a block depends only on row r of h's block; so the array is
  the whole-array map: h·W + b for Ah, Dh, Eh, and |h·WB + bB|^p for the powered one, where the kernel's
  exp(p · log|·|) is the power because p lies in [1, 100].
-/
import proofs.«402615_j67370857005182_3_alg».proof.Proof.Gen.KernelIdeal.Frame
import proofs.«402615_j67370857005182_3_alg».proof.Proof.Spec
import proofs.«402615_j67370857005182_3_alg».proof.Proof.Laws
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.KernelVsHost
import Idealize.ShloMosaic.Lib.StackMember
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The two maps, entry by entry -/

/-- Entry (r, c) of x·W + b: row r of x against column c of W, plus the bias at c. -/
def linAt {n : Nat} (x : (⟨2, ![n, 64]⟩ : Shape).Idx → EReal) (W : (⟨2, ![64, 64]⟩ : Shape).Idx → EReal)
    (b : (⟨1, ![64]⟩ : Shape).Idx → EReal) (r : Fin n) (c : Fin 64) : EReal :=
  (∑ k : Fin 64, x (ix2 r k) * W (ix2 k c)) + b (ix1 c)

/-- x·W + b as a function of the array's index. -/
def linG {n : Nat} (x : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => linAt x W b ⟨(i 0).val, idx2_lt0 i⟩ ⟨(i 1).val, idx2_lt1 i⟩

theorem linG_ix2 {n : Nat} (x : (⟨2, ![n, 64]⟩ : Shape).Idx → EReal) (W : (⟨2, ![64, 64]⟩ : Shape).Idx → EReal)
    (b : (⟨1, ![64]⟩ : Shape).Idx → EReal) (r : Fin n) (c : Fin 64) : linG x W b (ix2 r c) = linAt x W b r c := rfl

/-- exp(q · log|l|): the power |l|^q as the kernel spells it. -/
def powAt (l q : EReal) : EReal := Ideal.exp (q * Ideal.log (max l (-l)))

/-- exp(p · log|x·W + b|), the exponent read at the column, as a function of the array's index. -/
def powG {n : Nat} (x : (⟨2, ![n, 64]⟩ : Shape).Idx → EReal) (W : (⟨2, ![64, 64]⟩ : Shape).Idx → EReal)
    (b p : (⟨1, ![64]⟩ : Shape).Idx → EReal) : (⟨2, ![n, 64]⟩ : Shape).Idx → EReal :=
  fun i => powAt (linG x W b i) (p (ix1 ⟨(i 1).val, idx2_lt1 i⟩))

theorem powG_ix2 {n : Nat} (x : (⟨2, ![n, 64]⟩ : Shape).Idx → EReal) (W : (⟨2, ![64, 64]⟩ : Shape).Idx → EReal)
    (b p : (⟨1, ![64]⟩ : Shape).Idx → EReal) (r : Fin n) (c : Fin 64) :
    powG x W b p (ix2 r c) = powAt (linAt x W b r c) (p (ix1 c)) := rfl

/-! ## The block's payload at an entry -/

/-- Both contractions are the plain rows-by-columns product: contract axis 1 of the left with axis 0 of the right. -/
theorem dot_eq_plain : dot_S5000x64_S64x64_S5000x64_1_0_0_1_n_n = DotDims.plain 5000 64 64 := rfl
theorem dotN_eq_plain : Gnn.dotN = DotDims.plain 50000 64 64 := rfl

/-- The block product into a zero accumulator, at (r, c): the sum over the contracted coordinate. -/
theorem mm_at (A : FVec Ideal S5000x64 .bf16) (B : FVec Ideal S64x64 .bf16) (r : Fin 5000) (c : Fin 64) :
    matmul dot_S5000x64_S64x64_S5000x64_1_0_0_1_n_n none A B (constant (F := Ideal) S5000x64 .f32 0x00000000#32) (ix2 r c)
      = ∑ k : Fin 64, A (ix2 r k) * B (ix2 k c) := by
  rw [dot_eq_plain, matmul_zero_eq_dotGeneral]
  exact StackMember.dotGeneral_plain_apply none A B r c

/-- A feature vector laid along the rows of a block, at (r, c): its entry at c. -/
theorem rowb_at (b : FVec Ideal S64 .f32) (r : Fin 5000) (c : Fin 64) :
    broadcastTo S5000x64 (shapeCast S1x64 b shapeCasts_S64_S1x64) broadcasts_S1x64_S5000x64 (ix2 r c) = b (ix1 c) :=
  (broadcastTo_1b_ab_apply _ _ r c).trans (shapeCast_a_1a_apply b _ 0 c)

/-- The linear payload at (r, c); the narrowing of the operands changes nothing over the extended reals. -/
theorem pay_lin_at (x : Vec Ideal S5000x64 .f32) (W : Vec Ideal S64x64 .f32) (b : Vec Ideal S64 .f32) (r : Fin 5000) (c : Fin 64) :
    k0_pay2 x W b (ix2 r c) = linAt x W b r c := by
  unfold k0_pay2 k0_pay1
  exact congrArg₂ (· + ·) (mm_at _ _ r c) (rowb_at b r c)

/-- The three linear payloads are one term. -/
theorem pay3_eq (x : Vec Ideal S5000x64 .f32) (W : Vec Ideal S64x64 .f32) (b : Vec Ideal S64 .f32) : k0_pay3 x W b = k0_pay2 x W b := rfl
theorem pay4_eq (x : Vec Ideal S5000x64 .f32) (W : Vec Ideal S64x64 .f32) (b : Vec Ideal S64 .f32) : k0_pay4 x W b = k0_pay2 x W b := rfl

/-- The powered payload at (r, c): exp(p_c · log|x·W + b|). -/
theorem pay_pow_at (x : Vec Ideal S5000x64 .f32) (W : Vec Ideal S64x64 .f32) (b p : Vec Ideal S64 .f32) (r : Fin 5000) (c : Fin 64) :
    k0_pay5 x W b p (ix2 r c) = powAt (linAt x W b r c) (p (ix1 c)) := by
  have e1 : k0_pay2 x W b (ix2 r c) = linAt x W b r c := pay_lin_at x W b r c
  have e2 : broadcastTo S5000x64 (shapeCast S1x64 (shapeCast S64 p shapeCasts_S64_S64) shapeCasts_S64_S1x64) broadcasts_S1x64_S5000x64 (ix2 r c)
      = p (ix1 c) := (rowb_at _ r c).trans (congrFun (shapeCast_self p _) (ix1 c))
  unfold k0_pay5 powAt
  exact congrArg Ideal.exp (congrArg₂ (· * ·) e2 (congrArg Ideal.log (congrArg (fun z => max z (-z)) e1)))

/-! ## The host's terms, entry by entry -/

/-- A feature vector laid along every node row, at (r, c): its entry at c. -/
theorem rowN_at (b : FVec Ideal Gnn.SD .f32) (r : Fin 50000) (c : Fin 64) : Gnn.rowN (F := Ideal) b (ix2 r c) = b (ix1 c) := by
  unfold Gnn.rowN
  refine (broadcastInDim_oneRow_apply Gnn.bRN _ r c).trans
    (broadcastInDim_apply ![1] Gnn.bDR b (ix2 (0 : Fin 1) c) (ix1 c) fun a => ?_)
  match a with
  | ⟨0, _⟩ => rfl

/-- The node-wise linear map of the host's array operations is x·W + b, index by index. -/
theorem lin_eq (h : FVec Ideal Gnn.SN .f32) (W : FVec Ideal Gnn.SW .f32) (b : FVec Ideal Gnn.SD .f32) :
    Gnn.lin (F := Ideal) h W b = linG h W b := by
  funext i
  obtain ⟨r, c, rfl⟩ : ∃ (r : Fin 50000) (c : Fin 64), i = ix2 r c := ⟨i 0, i 1, eq_ix2 i⟩
  unfold Gnn.lin
  rw [linG_ix2]
  refine congrArg₂ (· + ·) ?_ (rowN_at b r c)
  rw [dotN_eq_plain]; exact StackMember.dotGeneral_plain_apply none h W r c

/-- |l| is never negative. -/
theorem abs_nonneg (l : EReal) : (0 : EReal) ≤ max l (-l) := by
  rcases le_total 0 l with h | h
  · exact le_max_of_le_left h
  · exact le_max_of_le_right (EReal.neg_nonneg.mpr h)

/-- With every exponent in [1, 100], the host's power of the absolute value is exp(p · log|·|), index by index. -/
theorem powN_eq (h : FVec Ideal Gnn.SN .f32) (W : FVec Ideal Gnn.SW .f32) (b p : FVec Ideal Gnn.SD .f32) (hp : Gnn.PRange p) :
    Gnn.powN (F := Ideal) (Gnn.lin (F := Ideal) h W b) p = powG h W b p := by
  funext i
  obtain ⟨r, c, rfl⟩ : ∃ (r : Fin 50000) (c : Fin 64), i = ix2 r c := ⟨i 0, i 1, eq_ix2 i⟩
  rw [lin_eq, powG_ix2]
  unfold Gnn.powN powAt
  show Ideal.pow (max (linG h W b (ix2 r c)) (-(linG h W b (ix2 r c)))) (Gnn.rowN (F := Ideal) p (ix2 r c)) = _
  rw [rowN_at, linG_ix2]
  obtain ⟨h1, h100⟩ := hp (ix1 c)
  exact Gnn.pow_explog _ _ (abs_nonneg _) (lt_of_lt_of_le zero_lt_one h1)
    (lt_of_le_of_lt h100 (by exact_mod_cast EReal.coe_lt_top 100))

/-! ## From blocks to arrays -/

theorem hz2 : (![0, 0] : Fin 2 → Nat) = fun _ => 0 := funext fun a => by fin_cases a <;> rfl
theorem hz1 : (![0] : Fin 1 → Nat) = fun _ => 0 := funext fun a => by fin_cases a <;> rfl

/-- Block T of x·W + b is the block product of block T of x: a block of rows of x·W + b reads only the same rows of x,
    and all of W and b. -/
theorem blk_lin (A0 : FVec Ideal Gnn.SN .f32) (A1 : FVec Ideal Gnn.SW .f32) (A2 : FVec Ideal Gnn.SD .f32)
    (x : Vec Ideal S5000x64 .f32) (W : Vec Ideal S64x64 .f32) (b : Vec Ideal S64 .f32) (T : Nat)
    (hx : ∀ (r : Fin 5000) (k : Fin 64) (i : Gnn.SN.Idx), (i 0).val = T * 5000 + r.val → (i 1).val = k.val → x (ix2 r k) = A0 i)
    (hW : W = A1) (hb : b = A2)
    (j : S5000x64.Idx) (i : Gnn.SN.Idx) (h0 : (i 0).val = T * 5000 + (j 0).val) (h1 : (i 1).val = (j 1).val) :
    k0_pay2 x W b j = linG A0 A1 A2 i := by
  obtain ⟨r, c, rfl⟩ : ∃ (r : Fin 5000) (c : Fin 64), j = ix2 r c := ⟨j 0, j 1, eq_ix2 j⟩
  obtain ⟨r', c', rfl⟩ : ∃ (r' : Fin 50000) (c' : Fin 64), i = ix2 r' c' := ⟨i 0, i 1, eq_ix2 i⟩
  obtain rfl : c = c' := Fin.ext h1.symm
  subst hW hb
  rw [pay_lin_at, linG_ix2]
  unfold linAt
  refine congrArg (· + _) (Finset.sum_congr rfl fun k _ => ?_)
  rw [hx r k (ix2 r' k) h0 rfl]

/-- The same for the powered output, which reads the exponent at the column. -/
theorem blk_pow (A0 : FVec Ideal Gnn.SN .f32) (A1 : FVec Ideal Gnn.SW .f32) (A2 A3 : FVec Ideal Gnn.SD .f32)
    (x : Vec Ideal S5000x64 .f32) (W : Vec Ideal S64x64 .f32) (b p : Vec Ideal S64 .f32) (T : Nat)
    (hx : ∀ (r : Fin 5000) (k : Fin 64) (i : Gnn.SN.Idx), (i 0).val = T * 5000 + r.val → (i 1).val = k.val → x (ix2 r k) = A0 i)
    (hW : W = A1) (hb : b = A2) (hp : p = A3)
    (j : S5000x64.Idx) (i : Gnn.SN.Idx) (h0 : (i 0).val = T * 5000 + (j 0).val) (h1 : (i 1).val = (j 1).val) :
    k0_pay5 x W b p j = powG A0 A1 A2 A3 i := by
  obtain ⟨r, c, rfl⟩ : ∃ (r : Fin 5000) (c : Fin 64), j = ix2 r c := ⟨j 0, j 1, eq_ix2 j⟩
  obtain ⟨r', c', rfl⟩ : ∃ (r' : Fin 50000) (c' : Fin 64), i = ix2 r' c' := ⟨i 0, i 1, eq_ix2 i⟩
  obtain rfl : c = c' := Fin.ext h1.symm
  have e : linAt x W b r c = linAt A0 A1 A2 r' c :=
    (pay_lin_at x W b r c).symm.trans (blk_lin A0 A1 A2 x W b T hx hW hb (ix2 r c) (ix2 r' c) h0 rfl)
  subst hp
  rw [pay_pow_at, powG_ix2, e]

-- the buffer contents the region finds when it is entered
variable (V : (c : Dev nD) → (b : Ref sig .tc) → Buf (Elt Ideal) ((c : Thread nD τ).loc b))

/-- The printed index maps over the ten grid points: a row window's block index is (t, 0); a weight, bias or exponent
    window is its whole array, block index 0. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ win0_9.index t (0 : Fin 1) = 0
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Block t of h is rows 5000·t … 5000·t + 4999 of h. -/
theorem rows_h (c : Dev nD) (t : Fin cfg0.N) (r : Fin 5000) (k : Fin 64) (i : Gnn.SN.Idx)
    (h0 : (i 0).val = t.val * 5000 + r.val) (h1 : (i 1).val = k.val) :
    (iblk0 V c 0 t : Vec Ideal S5000x64 .f32) (ix2 r k) = (V c (Pipeline.arrRef spec0 0) : Gnn.SN.Idx → EReal) i := by
  obtain ⟨⟨e0, e1⟩, -⟩ := idx_facts t
  unfold iblk0
  rw [View.read_apply]
  show (V c (Pipeline.arrRef spec0 0) : Gnn.SN.Idx → EReal) (((cfg0.win 0).blk t).view.emb (ix2 r k)) = _
  refine congrArg _ (funext fun a => Fin.ext ?_)
  match a with
  | ⟨0, _⟩ => show win0_0.index t (0 : Fin 2) * 5000 + 1 * r.val = (i 0).val; rw [e0, h0]; omega
  | ⟨1, _⟩ => show win0_0.index t (1 : Fin 2) * 64 + 1 * k.val = (i 1).val; rw [e1, h1]; omega

/-- The block of a weight window is the whole weight array, at every point. -/
theorem whole_1 (c : Dev nD) (t : Fin cfg0.N) :
    (iblk0 V c 1 t : Vec Ideal S64x64 .f32) = (V c (Pipeline.arrRef spec0 1) : Gnn.SW.Idx → EReal) := by
  obtain ⟨-, ⟨e0, e1⟩, -⟩ := idx_facts t
  funext y
  unfold iblk0
  rw [View.read_apply]
  show (V c (Pipeline.arrRef spec0 1) : Gnn.SW.Idx → EReal) (((cfg0.win 1).blk t).view.emb y) = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega
theorem whole_3 (c : Dev nD) (t : Fin cfg0.N) :
    (iblk0 V c 3 t : Vec Ideal S64x64 .f32) = (V c (Pipeline.arrRef spec0 3) : Gnn.SW.Idx → EReal) := by
  obtain ⟨-, -, -, ⟨e0, e1⟩, -⟩ := idx_facts t
  funext y
  unfold iblk0
  rw [View.read_apply]
  show (V c (Pipeline.arrRef spec0 3) : Gnn.SW.Idx → EReal) (((cfg0.win 3).blk t).view.emb y) = _
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega
theorem whole_5 (c : Dev nD) (t : Fin cfg0.N) :
    (iblk0 V c 5 t : Vec Ideal S64x64 .f32) = (V c (Pipeline.arrRef spec0 5) : Gnn.SW.Idx → EReal) := by
  obtain ⟨-, -, -, -, -, ⟨e0, e1⟩, -⟩ := idx_facts t
  funext y
  unfold iblk0
  rw [View.read_apply]
  show (V c (Pipeline.arrRef spec0 5) : Gnn.SW.Idx → EReal) (((cfg0.win 5).blk t).view.emb y) = _
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega
theorem whole_7 (c : Dev nD) (t : Fin cfg0.N) :
    (iblk0 V c 7 t : Vec Ideal S64x64 .f32) = (V c (Pipeline.arrRef spec0 7) : Gnn.SW.Idx → EReal) := by
  obtain ⟨-, -, -, -, -, -, -, ⟨e0, e1⟩, -⟩ := idx_facts t
  funext y
  unfold iblk0
  rw [View.read_apply]
  show (V c (Pipeline.arrRef spec0 7) : Gnn.SW.Idx → EReal) (((cfg0.win 7).blk t).view.emb y) = _
  refine congrArg _ (funext fun a => Fin.ext ?_)
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega

/-- The block of a bias or exponent window is the whole vector, at every point. -/
theorem whole_2 (c : Dev nD) (t : Fin cfg0.N) :
    (iblk0 V c 2 t : Vec Ideal S64 .f32) = (V c (Pipeline.arrRef spec0 2) : Gnn.SD.Idx → EReal) := by
  obtain ⟨-, -, e0, -⟩ := idx_facts t
  funext y
  unfold iblk0
  rw [View.read_apply]
  show (V c (Pipeline.arrRef spec0 2) : Gnn.SD.Idx → EReal) (((cfg0.win 2).blk t).view.emb y) = _
  refine congrArg _ (funext fun a => Fin.ext ?_)
  match a with
  | ⟨0, _⟩ => show win0_2.index t (0 : Fin 1) * 64 + 1 * (y 0).val = (y 0).val; rw [e0]; omega
theorem whole_4 (c : Dev nD) (t : Fin cfg0.N) :
    (iblk0 V c 4 t : Vec Ideal S64 .f32) = (V c (Pipeline.arrRef spec0 4) : Gnn.SD.Idx → EReal) := by
  obtain ⟨-, -, -, -, e0, -⟩ := idx_facts t
  funext y
  unfold iblk0
  rw [View.read_apply]
  show (V c (Pipeline.arrRef spec0 4) : Gnn.SD.Idx → EReal) (((cfg0.win 4).blk t).view.emb y) = _
  refine congrArg _ (funext fun a => Fin.ext ?_)
  match a with
  | ⟨0, _⟩ => show win0_4.index t (0 : Fin 1) * 64 + 1 * (y 0).val = (y 0).val; rw [e0]; omega
theorem whole_6 (c : Dev nD) (t : Fin cfg0.N) :
    (iblk0 V c 6 t : Vec Ideal S64 .f32) = (V c (Pipeline.arrRef spec0 6) : Gnn.SD.Idx → EReal) := by
  obtain ⟨-, -, -, -, -, -, e0, -⟩ := idx_facts t
  funext y
  unfold iblk0
  rw [View.read_apply]
  show (V c (Pipeline.arrRef spec0 6) : Gnn.SD.Idx → EReal) (((cfg0.win 6).blk t).view.emb y) = _
  refine congrArg _ (funext fun a => Fin.ext ?_)
  match a with
  | ⟨0, _⟩ => show win0_6.index t (0 : Fin 1) * 64 + 1 * (y 0).val = (y 0).val; rw [e0]; omega
theorem whole_8 (c : Dev nD) (t : Fin cfg0.N) :
    (iblk0 V c 8 t : Vec Ideal S64 .f32) = (V c (Pipeline.arrRef spec0 8) : Gnn.SD.Idx → EReal) := by
  obtain ⟨-, -, -, -, -, -, -, -, e0, -⟩ := idx_facts t
  funext y
  unfold iblk0
  rw [View.read_apply]
  show (V c (Pipeline.arrRef spec0 8) : Gnn.SD.Idx → EReal) (((cfg0.win 8).blk t).view.emb y) = _
  refine congrArg _ (funext fun a => Fin.ext ?_)
  match a with
  | ⟨0, _⟩ => show win0_8.index t (0 : Fin 1) * 64 + 1 * (y 0).val = (y 0).val; rw [e0]; omega
theorem whole_9 (c : Dev nD) (t : Fin cfg0.N) :
    (iblk0 V c 9 t : Vec Ideal S64 .f32) = (V c (Pipeline.arrRef spec0 9) : Gnn.SD.Idx → EReal) := by
  obtain ⟨-, -, -, -, -, -, -, -, -, e0, -⟩ := idx_facts t
  funext y
  unfold iblk0
  rw [View.read_apply]
  show (V c (Pipeline.arrRef spec0 9) : Gnn.SD.Idx → EReal) (((cfg0.win 9).blk t).view.emb y) = _
  refine congrArg _ (funext fun a => Fin.ext ?_)
  match a with
  | ⟨0, _⟩ => show win0_9.index t (0 : Fin 1) * 64 + 1 * (y 0).val = (y 0).val; rw [e0]; omega

/-! ### Output window 10 -/

/-- What point t writes back is block t of the whole-array map. -/
theorem flushed_10 (c : Dev nD) (t : Fin cfg0.N) :
    (dat0 (F := Ideal) V c).flushed 10 t = ((cfg0.win 10).blk t).view.read (Elt Ideal)
      (linG (V c (Pipeline.arrRef spec0 0)) (V c (Pipeline.arrRef spec0 1)) (V c (Pipeline.arrRef spec0 2))) := by
  show (cfg0.win 10).cut (grid0.coords t) ((dat0 V c).after 10 t) = _
  rw [after0_10]
  unfold out0_10
  rw [View.canon_unit_zero hz2]
  simp only [View.ld_unit_zero (S := S5000x64) hz2, View.ld_unit_zero (S := S64x64) hz2, View.ld_unit_zero (S := S64) hz1]
  obtain ⟨-, -, -, -, -, -, -, -, -, -, ⟨e0, e1⟩, -⟩ := idx_facts t
  funext j
  refine blk_lin (V c (Pipeline.arrRef spec0 0)) (V c (Pipeline.arrRef spec0 1)) (V c (Pipeline.arrRef spec0 2))
    (iblk0 V c 0 t) (iblk0 V c 1 t) (iblk0 V c 2 t) t.val (rows_h V c t) (whole_1 V c t) (whole_2 V c t)
    ((cfg0.win 10).xinj (grid0.coords t) j) (((cfg0.win 10).blk t).view.emb j) ?_ ?_
  · show win0_10.index t (0 : Fin 2) * 5000 + 1 * (j 0).val = t.val * 5000 + (j 0).val
    rw [e0]; omega
  · show win0_10.index t (1 : Fin 2) * 64 + 1 * (j 1).val = (j 1).val
    rw [e1]; omega

/-- An index of the array is in point t's block iff each coordinate is in the block's range on its axis. -/
theorem mem_blk_10 (t : Fin cfg0.N) (i : Gnn.SN.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v3_0).slice (win0_10.rect t)).set ↔ _
  rw [View.set_slice_whole, Rect.mem_set_unit]
  exact Iff.rfl

/-- Row r lies in the block of point r / 5000: the ten blocks cover the array. -/
theorem cover_10 (i : Gnn.SN.Idx) : ∃ t : Fin cfg0.N, (cfg0.win 10).flush t = true ∧ i ∈ ((cfg0.win 10).blk t).view.set := by
  have hi0 : (i 0).val < 50000 := idx2_lt0 i
  have hi1 : (i 1).val < 64 := idx2_lt1 i
  have hN : cfg0.N = 10 := rfl
  refine ⟨⟨(i 0).val / 5000, by rw [hN]; omega⟩, flush0_10 _, ?_⟩
  rw [mem_blk_10]
  obtain ⟨-, -, -, -, -, -, -, -, -, -, ⟨e0, e1⟩, -⟩ := idx_facts ⟨(i 0).val / 5000, by rw [hN]; omega⟩
  intro a
  match a with
  | ⟨0, _⟩ =>
    show win0_10.index _ (0 : Fin 2) * 5000 ≤ (i 0).val ∧ (i 0).val < win0_10.index _ (0 : Fin 2) * 5000 + 5000
    rw [e0]; show (i 0).val / 5000 * 5000 ≤ (i 0).val ∧ (i 0).val < (i 0).val / 5000 * 5000 + 5000; omega
  | ⟨1, _⟩ =>
    show win0_10.index _ (1 : Fin 2) * 64 ≤ (i 1).val ∧ (i 1).val < win0_10.index _ (1 : Fin 2) * 64 + 64
    rw [e1]; omega

/-! ### Output window 11 -/

/-- What point t writes back is block t of the whole-array map. -/
theorem flushed_11 (c : Dev nD) (t : Fin cfg0.N) :
    (dat0 (F := Ideal) V c).flushed 11 t = ((cfg0.win 11).blk t).view.read (Elt Ideal)
      (powG (V c (Pipeline.arrRef spec0 0)) (V c (Pipeline.arrRef spec0 3)) (V c (Pipeline.arrRef spec0 4)) (V c (Pipeline.arrRef spec0 9))) := by
  show (cfg0.win 11).cut (grid0.coords t) ((dat0 V c).after 11 t) = _
  rw [after0_11]
  unfold out0_11
  rw [View.canon_unit_zero hz2]
  simp only [View.ld_unit_zero (S := S5000x64) hz2, View.ld_unit_zero (S := S64x64) hz2, View.ld_unit_zero (S := S64) hz1]
  obtain ⟨-, -, -, -, -, -, -, -, -, -, -, ⟨e0, e1⟩, -⟩ := idx_facts t
  funext j
  refine blk_pow (V c (Pipeline.arrRef spec0 0)) (V c (Pipeline.arrRef spec0 3)) (V c (Pipeline.arrRef spec0 4)) (V c (Pipeline.arrRef spec0 9))
    (iblk0 V c 0 t) (iblk0 V c 3 t) (iblk0 V c 4 t) (iblk0 V c 9 t) t.val (rows_h V c t) (whole_3 V c t) (whole_4 V c t) (whole_9 V c t)
    ((cfg0.win 11).xinj (grid0.coords t) j) (((cfg0.win 11).blk t).view.emb j) ?_ ?_
  · show win0_11.index t (0 : Fin 2) * 5000 + 1 * (j 0).val = t.val * 5000 + (j 0).val
    rw [e0]; omega
  · show win0_11.index t (1 : Fin 2) * 64 + 1 * (j 1).val = (j 1).val
    rw [e1]; omega

/-- An index of the array is in point t's block iff each coordinate is in the block's range on its axis. -/
theorem mem_blk_11 (t : Fin cfg0.N) (i : Gnn.SN.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v3_1).slice (win0_11.rect t)).set ↔ _
  rw [View.set_slice_whole, Rect.mem_set_unit]
  exact Iff.rfl

/-- Row r lies in the block of point r / 5000: the ten blocks cover the array. -/
theorem cover_11 (i : Gnn.SN.Idx) : ∃ t : Fin cfg0.N, (cfg0.win 11).flush t = true ∧ i ∈ ((cfg0.win 11).blk t).view.set := by
  have hi0 : (i 0).val < 50000 := idx2_lt0 i
  have hi1 : (i 1).val < 64 := idx2_lt1 i
  have hN : cfg0.N = 10 := rfl
  refine ⟨⟨(i 0).val / 5000, by rw [hN]; omega⟩, flush0_11 _, ?_⟩
  rw [mem_blk_11]
  obtain ⟨-, -, -, -, -, -, -, -, -, -, -, ⟨e0, e1⟩, -⟩ := idx_facts ⟨(i 0).val / 5000, by rw [hN]; omega⟩
  intro a
  match a with
  | ⟨0, _⟩ =>
    show win0_11.index _ (0 : Fin 2) * 5000 ≤ (i 0).val ∧ (i 0).val < win0_11.index _ (0 : Fin 2) * 5000 + 5000
    rw [e0]; show (i 0).val / 5000 * 5000 ≤ (i 0).val ∧ (i 0).val < (i 0).val / 5000 * 5000 + 5000; omega
  | ⟨1, _⟩ =>
    show win0_11.index _ (1 : Fin 2) * 64 ≤ (i 1).val ∧ (i 1).val < win0_11.index _ (1 : Fin 2) * 64 + 64
    rw [e1]; omega

/-! ### Output window 12 -/

/-- What point t writes back is block t of the whole-array map. -/
theorem flushed_12 (c : Dev nD) (t : Fin cfg0.N) :
    (dat0 (F := Ideal) V c).flushed 12 t = ((cfg0.win 12).blk t).view.read (Elt Ideal)
      (linG (V c (Pipeline.arrRef spec0 0)) (V c (Pipeline.arrRef spec0 5)) (V c (Pipeline.arrRef spec0 6))) := by
  show (cfg0.win 12).cut (grid0.coords t) ((dat0 V c).after 12 t) = _
  rw [after0_12]
  unfold out0_12
  rw [View.canon_unit_zero hz2]
  simp only [View.ld_unit_zero (S := S5000x64) hz2, View.ld_unit_zero (S := S64x64) hz2, View.ld_unit_zero (S := S64) hz1]
  rw [pay3_eq]
  obtain ⟨-, -, -, -, -, -, -, -, -, -, -, -, ⟨e0, e1⟩, -⟩ := idx_facts t
  funext j
  refine blk_lin (V c (Pipeline.arrRef spec0 0)) (V c (Pipeline.arrRef spec0 5)) (V c (Pipeline.arrRef spec0 6))
    (iblk0 V c 0 t) (iblk0 V c 5 t) (iblk0 V c 6 t) t.val (rows_h V c t) (whole_5 V c t) (whole_6 V c t)
    ((cfg0.win 12).xinj (grid0.coords t) j) (((cfg0.win 12).blk t).view.emb j) ?_ ?_
  · show win0_12.index t (0 : Fin 2) * 5000 + 1 * (j 0).val = t.val * 5000 + (j 0).val
    rw [e0]; omega
  · show win0_12.index t (1 : Fin 2) * 64 + 1 * (j 1).val = (j 1).val
    rw [e1]; omega

/-- An index of the array is in point t's block iff each coordinate is in the block's range on its axis. -/
theorem mem_blk_12 (t : Fin cfg0.N) (i : Gnn.SN.Idx) :
    i ∈ ((cfg0.win 12).blk t).view.set ↔ ∀ a : Fin 2, win0_12.index t a * S5000x64.size a ≤ (i a).val ∧ (i a).val < win0_12.index t a * S5000x64.size a + S5000x64.size a := by
  show i ∈ ((View.whole main_v3_2).slice (win0_12.rect t)).set ↔ _
  rw [View.set_slice_whole, Rect.mem_set_unit]
  exact Iff.rfl

/-- Row r lies in the block of point r / 5000: the ten blocks cover the array. -/
theorem cover_12 (i : Gnn.SN.Idx) : ∃ t : Fin cfg0.N, (cfg0.win 12).flush t = true ∧ i ∈ ((cfg0.win 12).blk t).view.set := by
  have hi0 : (i 0).val < 50000 := idx2_lt0 i
  have hi1 : (i 1).val < 64 := idx2_lt1 i
  have hN : cfg0.N = 10 := rfl
  refine ⟨⟨(i 0).val / 5000, by rw [hN]; omega⟩, flush0_12 _, ?_⟩
  rw [mem_blk_12]
  obtain ⟨-, -, -, -, -, -, -, -, -, -, -, -, ⟨e0, e1⟩, -⟩ := idx_facts ⟨(i 0).val / 5000, by rw [hN]; omega⟩
  intro a
  match a with
  | ⟨0, _⟩ =>
    show win0_12.index _ (0 : Fin 2) * 5000 ≤ (i 0).val ∧ (i 0).val < win0_12.index _ (0 : Fin 2) * 5000 + 5000
    rw [e0]; show (i 0).val / 5000 * 5000 ≤ (i 0).val ∧ (i 0).val < (i 0).val / 5000 * 5000 + 5000; omega
  | ⟨1, _⟩ =>
    show win0_12.index _ (1 : Fin 2) * 64 ≤ (i 1).val ∧ (i 1).val < win0_12.index _ (1 : Fin 2) * 64 + 64
    rw [e1]; omega

/-! ### Output window 13 -/

/-- What point t writes back is block t of the whole-array map. -/
theorem flushed_13 (c : Dev nD) (t : Fin cfg0.N) :
    (dat0 (F := Ideal) V c).flushed 13 t = ((cfg0.win 13).blk t).view.read (Elt Ideal)
      (linG (V c (Pipeline.arrRef spec0 0)) (V c (Pipeline.arrRef spec0 7)) (V c (Pipeline.arrRef spec0 8))) := by
  show (cfg0.win 13).cut (grid0.coords t) ((dat0 V c).after 13 t) = _
  rw [after0_13]
  unfold out0_13
  rw [View.canon_unit_zero hz2]
  simp only [View.ld_unit_zero (S := S5000x64) hz2, View.ld_unit_zero (S := S64x64) hz2, View.ld_unit_zero (S := S64) hz1]
  rw [pay4_eq]
  obtain ⟨-, -, -, -, -, -, -, -, -, -, -, -, -, ⟨e0, e1⟩⟩ := idx_facts t
  funext j
  refine blk_lin (V c (Pipeline.arrRef spec0 0)) (V c (Pipeline.arrRef spec0 7)) (V c (Pipeline.arrRef spec0 8))
    (iblk0 V c 0 t) (iblk0 V c 7 t) (iblk0 V c 8 t) t.val (rows_h V c t) (whole_7 V c t) (whole_8 V c t)
    ((cfg0.win 13).xinj (grid0.coords t) j) (((cfg0.win 13).blk t).view.emb j) ?_ ?_
  · show win0_13.index t (0 : Fin 2) * 5000 + 1 * (j 0).val = t.val * 5000 + (j 0).val
    rw [e0]; omega
  · show win0_13.index t (1 : Fin 2) * 64 + 1 * (j 1).val = (j 1).val
    rw [e1]; omega

/-- An index of the array is in point t's block iff each coordinate is in the block's range on its axis. -/
theorem mem_blk_13 (t : Fin cfg0.N) (i : Gnn.SN.Idx) :
    i ∈ ((cfg0.win 13).blk t).view.set ↔ ∀ a : Fin 2, win0_13.index t a * S5000x64.size a ≤ (i a).val ∧ (i a).val < win0_13.index t a * S5000x64.size a + S5000x64.size a := by
  show i ∈ ((View.whole main_v3_3).slice (win0_13.rect t)).set ↔ _
  rw [View.set_slice_whole, Rect.mem_set_unit]
  exact Iff.rfl

/-- Row r lies in the block of point r / 5000: the ten blocks cover the array. -/
theorem cover_13 (i : Gnn.SN.Idx) : ∃ t : Fin cfg0.N, (cfg0.win 13).flush t = true ∧ i ∈ ((cfg0.win 13).blk t).view.set := by
  have hi0 : (i 0).val < 50000 := idx2_lt0 i
  have hi1 : (i 1).val < 64 := idx2_lt1 i
  have hN : cfg0.N = 10 := rfl
  refine ⟨⟨(i 0).val / 5000, by rw [hN]; omega⟩, flush0_13 _, ?_⟩
  rw [mem_blk_13]
  obtain ⟨-, -, -, -, -, -, -, -, -, -, -, -, -, ⟨e0, e1⟩⟩ := idx_facts ⟨(i 0).val / 5000, by rw [hN]; omega⟩
  intro a
  match a with
  | ⟨0, _⟩ =>
    show win0_13.index _ (0 : Fin 2) * 5000 ≤ (i 0).val ∧ (i 0).val < win0_13.index _ (0 : Fin 2) * 5000 + 5000
    rw [e0]; show (i 0).val / 5000 * 5000 ≤ (i 0).val ∧ (i 0).val < (i 0).val / 5000 * 5000 + 5000; omega
  | ⟨1, _⟩ =>
    show win0_13.index _ (1 : Fin 2) * 64 ≤ (i 1).val ∧ (i 1).val < win0_13.index _ (1 : Fin 2) * 64 + 64
    rw [e1]; omega

/-! ## The four arrays -/

theorem arr_Ah (c : Dev nD) :
    ((dat0 (F := Ideal) V c).arrAt 10 cfg0.N : Gnn.SN.Idx → EReal)
      = Gnn.lin (F := Ideal) (V c (Pipeline.arrRef spec0 0)) (V c (Pipeline.arrRef spec0 1)) (V c (Pipeline.arrRef spec0 2)) := by
  rw [lin_eq]
  exact (dat0 V c).arrAt_eq_of_cover 10 _ (fun t _ => flushed_10 V c t) cover_10

theorem arr_Bhpow (c : Dev nD) (hp : Gnn.PRange (V c (Pipeline.arrRef spec0 9))) :
    ((dat0 (F := Ideal) V c).arrAt 11 cfg0.N : Gnn.SN.Idx → EReal)
      = Gnn.powN (F := Ideal) (Gnn.lin (F := Ideal) (V c (Pipeline.arrRef spec0 0)) (V c (Pipeline.arrRef spec0 3)) (V c (Pipeline.arrRef spec0 4))) (V c (Pipeline.arrRef spec0 9)) := by
  rw [powN_eq _ _ _ _ hp]
  exact (dat0 V c).arrAt_eq_of_cover 11 _ (fun t _ => flushed_11 V c t) cover_11

theorem arr_Dh (c : Dev nD) :
    ((dat0 (F := Ideal) V c).arrAt 12 cfg0.N : Gnn.SN.Idx → EReal)
      = Gnn.lin (F := Ideal) (V c (Pipeline.arrRef spec0 0)) (V c (Pipeline.arrRef spec0 5)) (V c (Pipeline.arrRef spec0 6)) := by
  rw [lin_eq]
  exact (dat0 V c).arrAt_eq_of_cover 12 _ (fun t _ => flushed_12 V c t) cover_12

theorem arr_Eh (c : Dev nD) :
    ((dat0 (F := Ideal) V c).arrAt 13 cfg0.N : Gnn.SN.Idx → EReal)
      = Gnn.lin (F := Ideal) (V c (Pipeline.arrRef spec0 0)) (V c (Pipeline.arrRef spec0 7)) (V c (Pipeline.arrRef spec0 8)) := by
  rw [lin_eq]
  exact (dat0 V c).arrAt_eq_of_cover 13 _ (fun t _ => flushed_13 V c t) cover_13

end Cert.KernelIdeal.Region0

end
-- ==== Proof.Region1.lean ====
/-
  The second pallas_call (160 grid points, 5000 edge rows each): the edge message Dh[src] + Eh[dst] + (e·WC + bC) from
  the three gathered arrays and e, its logistic gate raised to the exponent, and the gated message. Block t of every
  output depends on block t of the four edge-sized inputs, row by row, so each array is the whole-array map.

  The order of the argument: where each window's block sits in its array (the edge-sized windows at block (t, 0), the
  weights, the bias and the exponent whole); the block's product with the weights and the host's product e·WC as the
  same sum over the 64 features; a feature vector laid along the rows, in the body's spelling and in the host's; the
  three stored blocks entry by entry; a block of each stage as the stage of the whole arrays; the host's spelling of
  the stages (the power of the non-negative |σ| with an exponent in [1, 100] is the exponential of the exponent times
  the logarithm); the 160 blocks cover the 800000 rows, so each array after the region is its stage of the inputs.
-/
import proofs.«402615_j67370857005182_3_alg».proof.Proof.Gen.KernelIdeal.Frame
import proofs.«402615_j67370857005182_3_alg».proof.Proof.Spec
import proofs.«402615_j67370857005182_3_alg».proof.Proof.Laws
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

-- the buffer contents the region finds when it is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ win1_5.index t (0 : Fin 1) = 0
    ∧ win1_6.index t (0 : Fin 1) = 0
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

theorem blk0_apply (c : Dev nD) (t : Fin cfg1.N) (x : S5000x64.Idx) (k : S800000x64.Idx)
    (hk0 : (k 0).val = t.val * 5000 + (x 0).val) (hk1 : (k 1).val = (x 1).val) :
    (iblk1 (F := Ideal) V c 0 t : Vec Ideal S5000x64 .f32) x = (V c (Pipeline.arrRef spec1 0) : S800000x64.Idx → EReal) k := by
  obtain ⟨⟨e0, e1⟩, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

theorem blk1_apply (c : Dev nD) (t : Fin cfg1.N) (x : S5000x64.Idx) (k : S800000x64.Idx)
    (hk0 : (k 0).val = t.val * 5000 + (x 0).val) (hk1 : (k 1).val = (x 1).val) :
    (iblk1 (F := Ideal) V c 1 t : Vec Ideal S5000x64 .f32) x = (V c (Pipeline.arrRef spec1 1) : S800000x64.Idx → EReal) k := by
  obtain ⟨-, ⟨e0, e1⟩, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

theorem blk2_apply (c : Dev nD) (t : Fin cfg1.N) (x : S5000x64.Idx) (k : S800000x64.Idx)
    (hk0 : (k 0).val = t.val * 5000 + (x 0).val) (hk1 : (k 1).val = (x 1).val) :
    (iblk1 (F := Ideal) V c 2 t : Vec Ideal S5000x64 .f32) x = (V c (Pipeline.arrRef spec1 2) : S800000x64.Idx → EReal) k := by
  obtain ⟨-, -, ⟨e0, e1⟩, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 5000 + 1 * (x 0).val = (k 0).val; rw [e0, hk0]; omega
  | ⟨1, _⟩ => show win1_2.index t 1 * 64 + 1 * (x 1).val = (k 1).val; rw [e1, hk1]; omega

theorem blk3_apply (c : Dev nD) (t : Fin cfg1.N) (x : S5000x64.Idx) (k : S800000x64.Idx)
    (hk0 : (k 0).val = t.val * 5000 + (x 0).val) (hk1 : (k 1).val = (x 1).val) :
    (iblk1 (F := Ideal) V c 3 t : Vec Ideal S5000x64 .f32) x = (V c (Pipeline.arrRef spec1 3) : S800000x64.Idx → EReal) k := by
  obtain ⟨-, -, -, ⟨e0, e1⟩, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t 0 * 5000 + 1 * (x 0).val = (k 0).val; rw [e0, hk0]; omega
  | ⟨1, _⟩ => show win1_3.index t 1 * 64 + 1 * (x 1).val = (k 1).val; rw [e1, hk1]; omega

theorem blk4_eq (c : Dev nD) (t : Fin cfg1.N) :
    (iblk1 (F := Ideal) V c 4 t : Vec Ideal S64x64 .f32) = (V c (Pipeline.arrRef spec1 4) : S64x64.Idx → EReal) := by
  obtain ⟨-, -, -, -, ⟨e0, e1⟩, -⟩ := idx_facts t
  funext x
  unfold iblk1
  rw [View.read_apply]
  show V c (Pipeline.arrRef spec1 4) _ = V c (Pipeline.arrRef spec1 4) _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

theorem blk5_eq (c : Dev nD) (t : Fin cfg1.N) :
    (iblk1 (F := Ideal) V c 5 t : Vec Ideal S64 .f32) = (V c (Pipeline.arrRef spec1 5) : S64.Idx → EReal) := by
  obtain ⟨-, -, -, -, -, e0, -⟩ := idx_facts t
  funext x
  unfold iblk1
  rw [View.read_apply]
  show V c (Pipeline.arrRef spec1 5) _ = V c (Pipeline.arrRef spec1 5) _
  congr 1
  funext a
  apply Fin.ext
  match a with
  | ⟨0, _⟩ => show win1_5.index t 0 * 64 + 1 * (x 0).val = (x 0).val; rw [e0]; omega

theorem blk6_eq (c : Dev nD) (t : Fin cfg1.N) :
    (iblk1 (F := Ideal) V c 6 t : Vec Ideal S64 .f32) = (V c (Pipeline.arrRef spec1 6) : S64.Idx → EReal) := by
  obtain ⟨-, -, -, -, -, -, e0, -⟩ := idx_facts t
  funext x
  unfold iblk1
  rw [View.read_apply]
  show V c (Pipeline.arrRef spec1 6) _ = V c (Pipeline.arrRef spec1 6) _
  congr 1
  funext a
  apply Fin.ext
  match a with
  | ⟨0, _⟩ => show win1_6.index t 0 * 64 + 1 * (x 0).val = (x 0).val; rw [e0]; omega

/-! ## The kernel's product and the host's product, entry by entry -/

theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's product with the weights into a zero accumulator: row r of the block against column q of the weights. -/
theorem mm_apply (x : FVec Ideal S5000x64 .bf16) (w : FVec Ideal S64x64 .bf16) (r : Fin 5000) (q : Fin 64) :
    matmul dot_S5000x64_S64x64_S5000x64_1_0_0_1_n_n none x w (constant (F := Ideal) S5000x64 .f32 0x00000000#32) (ix2 r q)
      = ∑ k : Fin 64, x (ix2 r k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

theorem lhs_dot_0 (i : Gnn.SE.Idx) (q : Gnn.dotE.contr.Idx) : (Gnn.dotE.lhsIdx i q 0).val = (i 0).val := by
  unfold DotDims.lhsIdx
  rw [dif_neg (show ¬(0 : Fin Gnn.SE.rank) ∈ Gnn.dotE.lhsBatch by decide), dif_pos (show (0 : Fin Gnn.SE.rank) ∈ Gnn.dotE.lhsNonContracting by decide)]
  rfl
theorem lhs_dot_1 (i : Gnn.SE.Idx) (q : Gnn.dotE.contr.Idx) : (Gnn.dotE.lhsIdx i q 1).val = (q ⟨0, by decide⟩).val :=
  Gnn.dotE.lhsIdx_val_of_single rfl i q
theorem rhs_dot_0 (i : Gnn.SE.Idx) (q : Gnn.dotE.contr.Idx) : (Gnn.dotE.rhsIdx i q 0).val = (q ⟨0, by decide⟩).val :=
  Gnn.dotE.rhsIdx_val_of_single rfl i q
theorem rhs_dot_1 (i : Gnn.SE.Idx) (q : Gnn.dotE.contr.Idx) : (Gnn.dotE.rhsIdx i q 1).val = (i 1).val := by
  unfold DotDims.rhsIdx
  rw [dif_neg (show ¬(1 : Fin Gnn.SW.rank) ∈ Gnn.dotE.rhsBatch by decide), dif_pos (show (1 : Fin Gnn.SW.rank) ∈ Gnn.dotE.rhsNonContracting by decide)]
  rfl

/-- The host's product e·W at an entry: edge row r against column q of the weights. -/
theorem dot_apply (x : FVec Ideal Gnn.SE .f32) (w : FVec Ideal Gnn.SW .f32) (r : Fin 800000) (q : Fin 64) :
    Host.dotGeneral (F := Ideal) Gnn.dotE none x w (ix2 r q) = ∑ k : Fin 64, x (ix2 r k) * w (ix2 k q) := by
  simp only [Host.dotGeneral]
  rw [Ideal.dotGeneral_apply, ← Equiv.sum_comp (contrEquiv1 Gnn.dotE 64 rfl rfl).symm]
  refine Finset.sum_congr rfl fun k _ => ?_
  have hk := contrEquiv1_symm_val Gnn.dotE 64 rfl rfl k
  have el : Gnn.dotE.lhsIdx (ix2 r q) ((contrEquiv1 Gnn.dotE 64 rfl rfl).symm k) = ix2 r k := funext fun a => Fin.ext (by
    match a with
    | ⟨0, _⟩ => exact lhs_dot_0 _ _
    | ⟨1, _⟩ => exact (lhs_dot_1 _ _).trans hk)
  have er : Gnn.dotE.rhsIdx (ix2 r q) ((contrEquiv1 Gnn.dotE 64 rfl rfl).symm k) = ix2 k q := funext fun a => Fin.ext (by
    match a with
    | ⟨0, _⟩ => exact (rhs_dot_0 _ _).trans hk
    | ⟨1, _⟩ => exact rhs_dot_1 _ _)
  rw [el, er]

/-! ## A feature vector laid along the rows -/

/-- The kernel's spelling: [64] cast to [1,64], then repeated down the 5000 rows of a block. -/
theorem rowBlock_apply (v : S64.Idx → EReal) (r : Fin 5000) (q : Fin 64) :
    broadcastTo S5000x64 (shapeCast S1x64 v shapeCasts_S64_S1x64) broadcasts_S1x64_S5000x64 (ix2 r q) = v (ix1 q) :=
  (broadcastTo_1b_ab_apply _ _ r q).trans (shapeCast_a_1a_apply _ _ 0 q)

/-- The host's spelling: [64] laid into [1,64], then along every edge row. -/
theorem rowE_apply (v : FVec Ideal Gnn.SD .f32) (r : Fin 800000) (q : Fin 64) : Gnn.rowE v (ix2 r q) = v (ix1 q) := by
  unfold Gnn.rowE
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- A constant pattern over the edge array reads that pattern's value everywhere. -/
theorem cstE_apply (b : BitVec 32) (i : Gnn.SE.Idx) : Gnn.cstE (F := Ideal) b i = Ideal.ofBits .f32 b := rfl

theorem one_f32 : Ideal.ofBits .f32 0x3F800000#32 = 1 := IdealRules.sign_bit.ideal_onePat .f32

/-! ## The three stages, entry by entry -/

/-- The edge message at edge row r, feature q: Dh[src] + Eh[dst] + (e·WC + bC). -/
def msg (dh eh e : Gnn.SE.Idx → EReal) (W : Gnn.SW.Idx → EReal) (b : Gnn.SD.Idx → EReal) : Gnn.SE.Idx → EReal :=
  fun i => (dh i + eh i) + ((∑ k : Fin 64, e (ix2 (i 0) k) * W (ix2 k (i 1))) + b (ix1 (i 1)))

/-- The gate σ(m)^p as the kernel computes it: exp (p · log |σ(m)|). -/
def gate (m : Gnn.SE.Idx → EReal) (p : Gnn.SD.Idx → EReal) : Gnn.SE.Idx → EReal :=
  fun i => Ideal.exp (p (ix1 (i 1)) * Ideal.log (max (Ideal.logistic (m i)) (-(Ideal.logistic (m i)))))

theorem pay1_apply (x3 x0 x1 : Vec Ideal S5000x64 .f32) (x4 : Vec Ideal S64x64 .f32) (x5 : Vec Ideal S64 .f32) (r : Fin 5000) (q : Fin 64) :
    k1_pay1 x3 x4 x5 x0 x1 (ix2 r q)
      = (x0 (ix2 r q) + x1 (ix2 r q)) + ((∑ k : Fin 64, x3 (ix2 r k) * x4 (ix2 k q)) + x5 (ix1 q)) := by
  unfold k1_pay1
  show (shapeCast S5000x64 x0 shapeCasts_S5000x64_S5000x64 (ix2 r q) + shapeCast S5000x64 x1 shapeCasts_S5000x64_S5000x64 (ix2 r q))
      + (matmul dot_S5000x64_S64x64_S5000x64_1_0_0_1_n_n none (truncf .bf16 x3 bitsLt_bf16_f32) (truncf .bf16 x4 bitsLt_bf16_f32) (constant (F := Ideal) S5000x64 .f32 0x00000000#32) (ix2 r q)
         + broadcastTo S5000x64 (shapeCast S1x64 x5 shapeCasts_S64_S1x64) broadcasts_S1x64_S5000x64 (ix2 r q)) = _
  rw [shapeCast_self, shapeCast_self, mm_apply, rowBlock_apply]
  rfl

theorem pay2_apply (x3 x0 x1 : Vec Ideal S5000x64 .f32) (x4 : Vec Ideal S64x64 .f32) (x5 x6 : Vec Ideal S64 .f32) (r : Fin 5000) (q : Fin 64) :
    k1_pay2 x3 x4 x5 x0 x1 x6 (ix2 r q)
      = Ideal.exp (x6 (ix1 q) * Ideal.log (max (Ideal.logistic (k1_pay1 x3 x4 x5 x0 x1 (ix2 r q))) (-(Ideal.logistic (k1_pay1 x3 x4 x5 x0 x1 (ix2 r q)))))) := by
  unfold k1_pay2
  show Ideal.exp (broadcastTo S5000x64 (shapeCast S1x64 (shapeCast S64 x6 shapeCasts_S64_S64) shapeCasts_S64_S1x64) broadcasts_S1x64_S5000x64 (ix2 r q)
      * Ideal.log (max (Ideal.logistic (k1_pay1 x3 x4 x5 x0 x1 (ix2 r q))) (-(Ideal.logistic (k1_pay1 x3 x4 x5 x0 x1 (ix2 r q)))))) = _
  rw [rowBlock_apply, shapeCast_self]

theorem pay3_apply (x3 x0 x1 x2 : Vec Ideal S5000x64 .f32) (x4 : Vec Ideal S64x64 .f32) (x5 x6 : Vec Ideal S64 .f32) (r : Fin 5000) (q : Fin 64) :
    k1_pay3 x3 x4 x5 x0 x1 x6 x2 (ix2 r q) = x2 (ix2 r q) * k1_pay2 x3 x4 x5 x0 x1 x6 (ix2 r q) := by
  unfold k1_pay3
  show shapeCast S5000x64 x2 shapeCasts_S5000x64_S5000x64 (ix2 r q) * k1_pay2 x3 x4 x5 x0 x1 x6 (ix2 r q) = _
  rw [shapeCast_self]

/-! ## A block of each stage is the stage of the blocks -/

/-- Row y of block T of the message is the payload of block T of the edge-sized inputs and the whole small ones. -/
theorem msg_block (T : Nat) (dh eh e : Gnn.SE.Idx → EReal) (W : Gnn.SW.Idx → EReal) (b : Gnn.SD.Idx → EReal)
    (x3 x0 x1 : Vec Ideal S5000x64 .f32)
    (h0 : ∀ (y : S5000x64.Idx) (k : S800000x64.Idx), (k 0).val = T * 5000 + (y 0).val → (k 1).val = (y 1).val → x0 y = dh k)
    (h1 : ∀ (y : S5000x64.Idx) (k : S800000x64.Idx), (k 0).val = T * 5000 + (y 0).val → (k 1).val = (y 1).val → x1 y = eh k)
    (h3 : ∀ (y : S5000x64.Idx) (k : S800000x64.Idx), (k 0).val = T * 5000 + (y 0).val → (k 1).val = (y 1).val → x3 y = e k)
    (y : S5000x64.Idx) (k : S800000x64.Idx) (hk0 : (k 0).val = T * 5000 + (y 0).val) (hk1 : (k 1).val = (y 1).val) :
    k1_pay1 x3 W b x0 x1 y = msg dh eh e W b k := by
  obtain ⟨r, q, rfl⟩ : ∃ (r : Fin 5000) (q : Fin 64), y = ix2 r q := ⟨y 0, y 1, eq_ix2 y⟩
  obtain ⟨r', q', rfl⟩ : ∃ (r' : Fin 800000) (q' : Fin 64), k = ix2 r' q' := ⟨k 0, k 1, eq_ix2 k⟩
  have hr : r'.val = T * 5000 + r.val := hk0
  obtain rfl : q' = q := Fin.ext hk1
  rw [pay1_apply]
  show _ = (dh (ix2 r' q') + eh (ix2 r' q')) + ((∑ j : Fin 64, e (ix2 r' j) * W (ix2 j q')) + b (ix1 q'))
  rw [h0 (ix2 r q') (ix2 r' q') hr rfl, h1 (ix2 r q') (ix2 r' q') hr rfl]
  congr 2
  exact Finset.sum_congr rfl fun j _ => by rw [h3 (ix2 r j) (ix2 r' j) hr rfl]

/-- Likewise for the gate raised to the exponent … -/
theorem gate_block (T : Nat) (dh eh e : Gnn.SE.Idx → EReal) (W : Gnn.SW.Idx → EReal) (b p : Gnn.SD.Idx → EReal)
    (x3 x0 x1 : Vec Ideal S5000x64 .f32)
    (h0 : ∀ (y : S5000x64.Idx) (k : S800000x64.Idx), (k 0).val = T * 5000 + (y 0).val → (k 1).val = (y 1).val → x0 y = dh k)
    (h1 : ∀ (y : S5000x64.Idx) (k : S800000x64.Idx), (k 0).val = T * 5000 + (y 0).val → (k 1).val = (y 1).val → x1 y = eh k)
    (h3 : ∀ (y : S5000x64.Idx) (k : S800000x64.Idx), (k 0).val = T * 5000 + (y 0).val → (k 1).val = (y 1).val → x3 y = e k)
    (y : S5000x64.Idx) (k : S800000x64.Idx) (hk0 : (k 0).val = T * 5000 + (y 0).val) (hk1 : (k 1).val = (y 1).val) :
    k1_pay2 x3 W b x0 x1 p y = gate (msg dh eh e W b) p k := by
  obtain ⟨r, q, rfl⟩ : ∃ (r : Fin 5000) (q : Fin 64), y = ix2 r q := ⟨y 0, y 1, eq_ix2 y⟩
  obtain ⟨r', q', rfl⟩ : ∃ (r' : Fin 800000) (q' : Fin 64), k = ix2 r' q' := ⟨k 0, k 1, eq_ix2 k⟩
  obtain rfl : q' = q := Fin.ext hk1
  rw [pay2_apply, msg_block T dh eh e W b x3 x0 x1 h0 h1 h3 (ix2 r q') (ix2 r' q') hk0 rfl]
  rfl

/-- … and for the gated message. -/
theorem gated_block (T : Nat) (dh eh bh e : Gnn.SE.Idx → EReal) (W : Gnn.SW.Idx → EReal) (b p : Gnn.SD.Idx → EReal)
    (x3 x0 x1 x2 : Vec Ideal S5000x64 .f32)
    (h0 : ∀ (y : S5000x64.Idx) (k : S800000x64.Idx), (k 0).val = T * 5000 + (y 0).val → (k 1).val = (y 1).val → x0 y = dh k)
    (h1 : ∀ (y : S5000x64.Idx) (k : S800000x64.Idx), (k 0).val = T * 5000 + (y 0).val → (k 1).val = (y 1).val → x1 y = eh k)
    (h2 : ∀ (y : S5000x64.Idx) (k : S800000x64.Idx), (k 0).val = T * 5000 + (y 0).val → (k 1).val = (y 1).val → x2 y = bh k)
    (h3 : ∀ (y : S5000x64.Idx) (k : S800000x64.Idx), (k 0).val = T * 5000 + (y 0).val → (k 1).val = (y 1).val → x3 y = e k)
    (y : S5000x64.Idx) (k : S800000x64.Idx) (hk0 : (k 0).val = T * 5000 + (y 0).val) (hk1 : (k 1).val = (y 1).val) :
    k1_pay3 x3 W b x0 x1 p x2 y = bh k * gate (msg dh eh e W b) p k := by
  obtain ⟨r, q, rfl⟩ : ∃ (r : Fin 5000) (q : Fin 64), y = ix2 r q := ⟨y 0, y 1, eq_ix2 y⟩
  rw [pay3_apply, gate_block T dh eh e W b p x3 x0 x1 h0 h1 h3 (ix2 r q) k hk0 hk1, h2 (ix2 r q) k hk0 hk1]

/-! ## The host's spelling of the same stages -/

theorem msg_eq_gnn (dh eh e : FVec Ideal Gnn.SE .f32) (W : FVec Ideal Gnn.SW .f32) (b : FVec Ideal Gnn.SD .f32) :
    msg dh eh e W b = Gnn.edgeMsg (F := Ideal) dh eh (Gnn.linE (F := Ideal) e W b) := by
  funext i
  obtain ⟨r, q, rfl⟩ : ∃ (r : Fin 800000) (q : Fin 64), i = ix2 r q := ⟨i 0, i 1, eq_ix2 i⟩
  unfold Gnn.edgeMsg Gnn.linE
  show _ = (dh (ix2 r q) + eh (ix2 r q)) + (Host.dotGeneral (F := Ideal) Gnn.dotE none e W (ix2 r q) + Gnn.rowE b (ix2 r q))
  rw [dot_apply, rowE_apply]
  rfl

/-- The host's logistic 1 / (1 + exp (−x)) is the kernel's. -/
theorem sigm_apply (m : FVec Ideal Gnn.SE .f32) (i : Gnn.SE.Idx) : Gnn.sigm (F := Ideal) m i = Ideal.logistic (m i) := by
  unfold Gnn.sigm Ideal.logistic
  show Ideal.div (Ideal.ofBits .f32 0x3F800000#32) (Ideal.ofBits .f32 0x3F800000#32 + Ideal.exp (-(m i))) = _
  rw [one_f32]

theorem powE_apply (x : FVec Ideal Gnn.SE .f32) (p : FVec Ideal Gnn.SD .f32) (r : Fin 800000) (q : Fin 64) :
    Gnn.powE (F := Ideal) x p (ix2 r q) = Ideal.pow (max (x (ix2 r q)) (-(x (ix2 r q)))) (p (ix1 q)) := by
  unfold Gnn.powE
  show Ideal.pow (max (x (ix2 r q)) (-(x (ix2 r q)))) (Gnn.rowE p (ix2 r q)) = _
  rw [rowE_apply]

/-- With the exponent in [1, 100] the kernel's exp (p · log |σ|) is the host's |σ|^p. -/
theorem gate_eq_gnn (m : FVec Ideal Gnn.SE .f32) (p : FVec Ideal Gnn.SD .f32) (hp : Gnn.PRange p) :
    gate m p = Gnn.powE (F := Ideal) (Gnn.sigm (F := Ideal) m) p := by
  funext i
  obtain ⟨r, q, rfl⟩ : ∃ (r : Fin 800000) (q : Fin 64), i = ix2 r q := ⟨i 0, i 1, eq_ix2 i⟩
  rw [powE_apply, sigm_apply]
  obtain ⟨h1, h100⟩ := hp (ix1 q)
  refine (Gnn.pow_explog _ _ ?_ (lt_of_lt_of_le zero_lt_one h1) (lt_of_le_of_lt h100 (EReal.coe_lt_top 100))).symm
  rcases le_total 0 (Ideal.logistic (m (ix2 r q))) with h | h
  · exact le_max_of_le_left h
  · exact le_max_of_le_right (EReal.neg_nonneg.mpr h)

/-! ## From blocks to the arrays -/

/-- What grid point t writes back to the message array is block t of the message of the whole input arrays. -/
theorem flushed_msg (c : Dev nD) (t : Fin cfg1.N) :
    (dat1 (F := Ideal) V c).flushed 7 t = ((cfg1.win 7).blk t).view.read (Elt Ideal)
      (msg (V c (Pipeline.arrRef spec1 0)) (V c (Pipeline.arrRef spec1 1)) (V c (Pipeline.arrRef spec1 3))
        (V c (Pipeline.arrRef spec1 4)) (V c (Pipeline.arrRef spec1 5))) := by
  show (cfg1.win 7).cut (grid1.coords t) ((dat1 V c).after 7 t) = _
  rw [after1_7]
  unfold out1_7
  rw [View.canon_unit_zero hz2]
  simp only [View.ld_unit_zero (S := S5000x64) hz2, View.ld_unit_zero (S := S64x64) hz2, View.ld_unit_zero (S := S64) hz1]
  rw [blk4_eq, blk5_eq]
  obtain ⟨-, -, -, -, -, -, -, ⟨e0, e1⟩, -⟩ := idx_facts t
  funext j
  rw [View.read_apply]
  refine msg_block t.val (V c (Pipeline.arrRef spec1 0)) (V c (Pipeline.arrRef spec1 1)) (V c (Pipeline.arrRef spec1 3))
    (V c (Pipeline.arrRef spec1 4)) (V c (Pipeline.arrRef spec1 5)) (iblk1 V c 3 t) (iblk1 V c 0 t) (iblk1 V c 1 t)
    (blk0_apply V c t) (blk1_apply V c t) (blk3_apply V c t) _ _ ?_ ?_
  · show win1_7.index t 0 * 5000 + 1 * (j 0).val = t.val * 5000 + (j 0).val
    rw [e0]; omega
  · show win1_7.index t 1 * 64 + 1 * (j 1).val = (j 1).val
    rw [e1]; omega

/-- An edge entry lies in point t's block of the message array iff its row is among the 5000 rows of that block. -/
theorem mem_blk7 (t : Fin cfg1.N) (i : S800000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v7_0).slice (win1_7.rect t)).set ↔ _
  rw [View.set_slice_whole, Rect.mem_set_unit]
  exact Iff.rfl

/-- Every edge entry is in the block of the point numbered by its row divided by 5000. -/
theorem cover7 (i : S800000x64.Idx) : ∃ t : Fin cfg1.N, (cfg1.win 7).flush t = true ∧ i ∈ ((cfg1.win 7).blk t).view.set := by
  have hi0 : (i 0).val < 800000 := (i 0).isLt
  have hi1 : (i 1).val < 64 := (i 1).isLt
  have hN : cfg1.N = 160 := N_1
  have hlt : (i 0).val / 5000 < cfg1.N := by rw [hN]; omega
  obtain ⟨-, -, -, -, -, -, -, ⟨e0, e1⟩, -⟩ := idx_facts ⟨(i 0).val / 5000, hlt⟩
  refine ⟨⟨(i 0).val / 5000, hlt⟩, flush1_7 _, ?_⟩
  rw [mem_blk7]
  intro a
  match a with
  | ⟨0, _⟩ =>
    show win1_7.index ⟨(i 0).val / 5000, hlt⟩ 0 * 5000 ≤ (i 0).val ∧ (i 0).val < win1_7.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_7.index ⟨(i 0).val / 5000, hlt⟩ 1 * 64 ≤ (i 1).val ∧ (i 1).val < win1_7.index ⟨(i 0).val / 5000, hlt⟩ 1 * 64 + 64
    rw [e1]; omega

/-- So the message array after the region is the message of the whole input arrays. -/
theorem arr_msg (c : Dev nD) :
    ((dat1 (F := Ideal) V c).arrAt 7 cfg1.N : Gnn.SE.Idx → EReal)
      = msg (V c (Pipeline.arrRef spec1 0)) (V c (Pipeline.arrRef spec1 1)) (V c (Pipeline.arrRef spec1 3))
        (V c (Pipeline.arrRef spec1 4)) (V c (Pipeline.arrRef spec1 5)) :=
  (dat1 (F := Ideal) V c).arrAt_eq_of_cover 7 _ (fun t _ => flushed_msg V c t) cover7

set_option maxHeartbeats 800000 in
/-- What grid point t writes back to the gate array is block t of the gate of the message of the whole input arrays. -/
theorem flushed_gate (c : Dev nD) (t : Fin cfg1.N) :
    (dat1 (F := Ideal) V c).flushed 9 t = ((cfg1.win 9).blk t).view.read (Elt Ideal)
      (gate (msg (V c (Pipeline.arrRef spec1 0)) (V c (Pipeline.arrRef spec1 1)) (V c (Pipeline.arrRef spec1 3))
        (V c (Pipeline.arrRef spec1 4)) (V c (Pipeline.arrRef spec1 5))) (V c (Pipeline.arrRef spec1 6))) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S64) hz1]
  rw [blk4_eq, blk5_eq, blk6_eq]
  obtain ⟨-, -, -, -, -, -, -, -, -, ⟨e0, e1⟩⟩ := idx_facts t
  funext j
  rw [View.read_apply]
  refine gate_block t.val (V c (Pipeline.arrRef spec1 0)) (V c (Pipeline.arrRef spec1 1)) (V c (Pipeline.arrRef spec1 3))
    (V c (Pipeline.arrRef spec1 4)) (V c (Pipeline.arrRef spec1 5)) (V c (Pipeline.arrRef spec1 6)) (iblk1 V c 3 t) (iblk1 V c 0 t) (iblk1 V c 1 t)
    (blk0_apply V c t) (blk1_apply V c t) (blk3_apply V c t) _ _ ?_ ?_
  · show win1_9.index t 0 * 5000 + 1 * (j 0).val = t.val * 5000 + (j 0).val
    rw [e0]; omega
  · show win1_9.index t 1 * 64 + 1 * (j 1).val = (j 1).val
    rw [e1]; omega

theorem mem_blk9 (t : Fin cfg1.N) (i : S800000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v7_2).slice (win1_9.rect t)).set ↔ _
  rw [View.set_slice_whole, Rect.mem_set_unit]
  exact Iff.rfl

theorem cover9 (i : S800000x64.Idx) : ∃ t : Fin cfg1.N, (cfg1.win 9).flush t = true ∧ i ∈ ((cfg1.win 9).blk t).view.set := by
  have hi0 : (i 0).val < 800000 := (i 0).isLt
  have hi1 : (i 1).val < 64 := (i 1).isLt
  have hN : cfg1.N = 160 := N_1
  have hlt : (i 0).val / 5000 < cfg1.N := by rw [hN]; omega
  obtain ⟨-, -, -, -, -, -, -, -, -, ⟨e0, e1⟩⟩ := idx_facts ⟨(i 0).val / 5000, hlt⟩
  refine ⟨⟨(i 0).val / 5000, hlt⟩, flush1_9 _, ?_⟩
  rw [mem_blk9]
  intro a
  match a with
  | ⟨0, _⟩ =>
    show win1_9.index ⟨(i 0).val / 5000, hlt⟩ 0 * 5000 ≤ (i 0).val ∧ (i 0).val < win1_9.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_9.index ⟨(i 0).val / 5000, hlt⟩ 1 * 64 ≤ (i 1).val ∧ (i 1).val < win1_9.index ⟨(i 0).val / 5000, hlt⟩ 1 * 64 + 64
    rw [e1]; omega

theorem arr_gate (c : Dev nD) :
    ((dat1 (F := Ideal) V c).arrAt 9 cfg1.N : Gnn.SE.Idx → EReal)
      = gate (msg (V c (Pipeline.arrRef spec1 0)) (V c (Pipeline.arrRef spec1 1)) (V c (Pipeline.arrRef spec1 3))
        (V c (Pipeline.arrRef spec1 4)) (V c (Pipeline.arrRef spec1 5))) (V c (Pipeline.arrRef spec1 6)) :=
  (dat1 (F := Ideal) V c).arrAt_eq_of_cover 9 _ (fun t _ => flushed_gate V c t) cover9

/-- The gated message |Bh|^p[src] · σ^p, entry by entry. -/
def gatedMsg (bh m : Gnn.SE.Idx → EReal) (p : Gnn.SD.Idx → EReal) : Gnn.SE.Idx → EReal := fun i => bh i * gate m p i

set_option maxHeartbeats 800000 in
/-- What grid point t writes back to the gated-message array is block t of the gated message of the whole input arrays. -/
theorem flushed_gated (c : Dev nD) (t : Fin cfg1.N) :
    (dat1 (F := Ideal) V c).flushed 8 t = ((cfg1.win 8).blk t).view.read (Elt Ideal)
      (gatedMsg (V c (Pipeline.arrRef spec1 2)) (msg (V c (Pipeline.arrRef spec1 0)) (V c (Pipeline.arrRef spec1 1)) (V c (Pipeline.arrRef spec1 3))
        (V c (Pipeline.arrRef spec1 4)) (V c (Pipeline.arrRef spec1 5))) (V c (Pipeline.arrRef spec1 6))) := by
  show (cfg1.win 8).cut (grid1.coords t) ((dat1 V c).after 8 t) = _
  rw [after1_8]
  unfold out1_8
  rw [View.canon_unit_zero hz2]
  simp only [View.ld_unit_zero (S := S5000x64) hz2, View.ld_unit_zero (S := S64x64) hz2, View.ld_unit_zero (S := S64) hz1]
  rw [blk4_eq, blk5_eq, blk6_eq]
  obtain ⟨-, -, -, -, -, -, -, -, ⟨e0, e1⟩, -⟩ := idx_facts t
  funext j
  rw [View.read_apply]
  refine gated_block t.val (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (iblk1 V c 3 t) (iblk1 V c 0 t) (iblk1 V c 1 t) (iblk1 V c 2 t)
    (blk0_apply V c t) (blk1_apply V c t) (blk2_apply V c t) (blk3_apply V c t) _ _ ?_ ?_
  · show win1_8.index t 0 * 5000 + 1 * (j 0).val = t.val * 5000 + (j 0).val
    rw [e0]; omega
  · show win1_8.index t 1 * 64 + 1 * (j 1).val = (j 1).val
    rw [e1]; omega

theorem mem_blk8 (t : Fin cfg1.N) (i : S800000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v7_1).slice (win1_8.rect t)).set ↔ _
  rw [View.set_slice_whole, Rect.mem_set_unit]
  exact Iff.rfl

theorem cover8 (i : S800000x64.Idx) : ∃ t : Fin cfg1.N, (cfg1.win 8).flush t = true ∧ i ∈ ((cfg1.win 8).blk t).view.set := by
  have hi0 : (i 0).val < 800000 := (i 0).isLt
  have hi1 : (i 1).val < 64 := (i 1).isLt
  have hN : cfg1.N = 160 := N_1
  have hlt : (i 0).val / 5000 < cfg1.N := by rw [hN]; omega
  obtain ⟨-, -, -, -, -, -, -, -, ⟨e0, e1⟩, -⟩ := idx_facts ⟨(i 0).val / 5000, hlt⟩
  refine ⟨⟨(i 0).val / 5000, hlt⟩, flush1_8 _, ?_⟩
  rw [mem_blk8]
  intro a
  match a with
  | ⟨0, _⟩ =>
    show win1_8.index ⟨(i 0).val / 5000, hlt⟩ 0 * 5000 ≤ (i 0).val ∧ (i 0).val < win1_8.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_8.index ⟨(i 0).val / 5000, hlt⟩ 1 * 64 ≤ (i 1).val ∧ (i 1).val < win1_8.index ⟨(i 0).val / 5000, hlt⟩ 1 * 64 + 64
    rw [e1]; omega

theorem arr_gatedMsg (c : Dev nD) :
    ((dat1 (F := Ideal) V c).arrAt 8 cfg1.N : Gnn.SE.Idx → EReal)
      = gatedMsg (V c (Pipeline.arrRef spec1 2)) (msg (V c (Pipeline.arrRef spec1 0)) (V c (Pipeline.arrRef spec1 1)) (V c (Pipeline.arrRef spec1 3))
        (V c (Pipeline.arrRef spec1 4)) (V c (Pipeline.arrRef spec1 5))) (V c (Pipeline.arrRef spec1 6)) :=
  (dat1 (F := Ideal) V c).arrAt_eq_of_cover 8 _ (fun t _ => flushed_gated V c t) cover8

/-! ## The three arrays the region leaves -/

theorem arr_eout (c : Dev nD) :
    ((dat1 (F := Ideal) V c).arrAt 7 cfg1.N : Gnn.SE.Idx → EReal)
      = Gnn.edgeMsg (F := Ideal) (V c (Pipeline.arrRef spec1 0)) (V c (Pipeline.arrRef spec1 1)) (Gnn.linE (F := Ideal) (V c (Pipeline.arrRef spec1 3)) (V c (Pipeline.arrRef spec1 4)) (V c (Pipeline.arrRef spec1 5))) :=
  (arr_msg V c).trans (msg_eq_gnn _ _ _ _ _)

theorem arr_sigpow (c : Dev nD) (hp : Gnn.PRange (V c (Pipeline.arrRef spec1 6))) :
    ((dat1 (F := Ideal) V c).arrAt 9 cfg1.N : Gnn.SE.Idx → EReal)
      = Gnn.powE (F := Ideal) (Gnn.sigm (F := Ideal)
          (Gnn.edgeMsg (F := Ideal) (V c (Pipeline.arrRef spec1 0)) (V c (Pipeline.arrRef spec1 1)) (Gnn.linE (F := Ideal) (V c (Pipeline.arrRef spec1 3)) (V c (Pipeline.arrRef spec1 4)) (V c (Pipeline.arrRef spec1 5))))) (V c (Pipeline.arrRef spec1 6)) := by
  rw [arr_gate, msg_eq_gnn]
  exact gate_eq_gnn _ _ hp

theorem arr_gated (c : Dev nD) (hp : Gnn.PRange (V c (Pipeline.arrRef spec1 6))) :
    ((dat1 (F := Ideal) V c).arrAt 8 cfg1.N : Gnn.SE.Idx → EReal)
      = Gnn.gateMul (F := Ideal) (V c (Pipeline.arrRef spec1 2)) (Gnn.powE (F := Ideal) (Gnn.sigm (F := Ideal)
          (Gnn.edgeMsg (F := Ideal) (V c (Pipeline.arrRef spec1 0)) (V c (Pipeline.arrRef spec1 1)) (Gnn.linE (F := Ideal) (V c (Pipeline.arrRef spec1 3)) (V c (Pipeline.arrRef spec1 4)) (V c (Pipeline.arrRef spec1 5))))) (V c (Pipeline.arrRef spec1 6))) := by
  rw [arr_gatedMsg, msg_eq_gnn]
  unfold gatedMsg
  rw [gate_eq_gnn _ _ hp]
  rfl

end Cert.KernelIdeal.Region1

end
-- ==== Proof.Region2.lean ====
/-
  The third pallas_call (ten grid points, 5000 node rows each): Ah + (Σσh / (Σσ + ε))^(1/p), entry by entry. The kernel
  writes the power as exp((1/p) · log(ratio)); the ratio of two non-negative sums over a positive denominator is
  non-negative and 1/p is a positive real, so that is the power.

  The order of the argument: the value of one entry (row r, feature k) as a function of the four arrays; the host's
  composition is that function (the row broadcast reads the vector at k, the power law turns the power into the
  exponential); the body's stored block is that function on the block's rows; point t holds rows 5000·t … 5000·t + 4999
  of every row-blocked array and the whole reciprocal-exponent vector; the ten blocks cover the 50000 rows.
-/
import proofs.«402615_j67370857005182_3_alg».proof.Proof.Gen.KernelIdeal.Frame
import proofs.«402615_j67370857005182_3_alg».proof.Proof.Spec
import proofs.«402615_j67370857005182_3_alg».proof.Proof.Laws
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

-- the buffer contents the region finds when it is entered
variable (V : (c : Dev nD) → (b : Ref sig .tc) → Buf (Elt Ideal) ((c : Thread nD τ).loc b))

/-! ## The entry's value -/

/-- The stabiliser ε added to the denominator Σσ. -/
abbrev eps : EReal := Ideal.ofBits .f32 0x358637BD#32

/-- ε is a positive real: 8796093 · 2⁻⁴³ (just under 10⁻⁶). -/
theorem eps_real : ∃ e : ℝ, 0 < e ∧ eps = (e : EReal) := by
  refine ⟨8796093 * (2 : ℝ) ^ (-43 : ℤ), by positivity, ?_⟩
  simp [eps, Ideal.ofBits, Ideal.ieee, -EReal.coe_mul]

/-- A non-negative numerator over a non-negative sum plus ε is non-negative: the denominator is positive, so the
    quotient is the numerator times the denominator's inverse, and the inverse of a positive extended real is
    non-negative (that of +∞ is 0). -/
theorem ratio_nonneg (a b : EReal) (ha : 0 ≤ a) (hb : 0 ≤ b) : 0 ≤ Ideal.div a (b + eps) := by
  obtain ⟨e, he, hE⟩ := eps_real
  have hpos : 0 < b + eps := by
    rw [hE]; exact lt_of_lt_of_le (by exact_mod_cast he) (le_add_of_nonneg_left hb)
  unfold Ideal.div
  rw [if_neg hpos.ne']
  exact mul_nonneg ha (EReal.inv_nonneg_of_nonneg hpos.le)

/-- Entry (r, k) of Ah + (Σσh / (Σσ + ε))^(1/p), with the power spelt exp((1/p) · log(ratio)). -/
def hpreAt (ah ssh ss : Gnn.SN.Idx → EReal) (q : Gnn.SD.Idx → EReal) (r : Fin 50000) (k : Fin 64) : EReal :=
  ah (ix2 r k) + Ideal.exp (q (ix1 k) * Ideal.log (Ideal.div (ssh (ix2 r k)) (ss (ix2 r k) + eps)))

/-- The whole [50000, 64] array of those entries. -/
def hpre (ah ssh ss : Gnn.SN.Idx → EReal) (q : Gnn.SD.Idx → EReal) : Gnn.SN.Idx → EReal :=
  fun i => hpreAt ah ssh ss q (i 0) (i 1)

/-! ## The host's composition is that array -/

/-- A feature vector laid along every node row reads, at (r, k), the vector at k. -/
theorem rowN_apply (v : FVec Ideal Gnn.SD .f32) (r : Fin 50000) (k : Fin 64) : Gnn.rowN v (ix2 r k) = v (ix1 k) := by
  unfold Gnn.rowN
  refine (broadcastInDim_apply _ Gnn.bRN _ (ix2 r k) (ix2 (0 : Fin 1) k) fun a => ?_).trans
    (broadcastInDim_apply _ Gnn.bDR v (ix2 (0 : Fin 1) k) (ix1 k) fun a => ?_)
  · match a with
    | ⟨0, _⟩ => rfl
    | ⟨1, _⟩ => rfl
  · match a with
    | ⟨0, _⟩ => rfl

/-- With both sums non-negative and 1/p a positive real, the power of the ratio is the exponential of 1/p times the
    ratio's logarithm, entry by entry. -/
theorem combine_eq (ah ssh ss : FVec Ideal Gnn.SN .f32) (q : FVec Ideal Gnn.SD .f32) (hq : Gnn.QRange q)
    (h1 : Gnn.NonNeg (s := Gnn.SN) ssh) (h2 : Gnn.NonNeg (s := Gnn.SN) ss) :
    Gnn.combine (F := Ideal) ah ssh ss q = hpre ah ssh ss q := by
  funext i
  obtain ⟨r, k, rfl⟩ : ∃ (r : Fin 50000) (k : Fin 64), i = ix2 r k := ⟨i 0, i 1, eq_ix2 i⟩
  show ah (ix2 r k) + Ideal.pow (Ideal.div (ssh (ix2 r k)) (ss (ix2 r k) + eps)) (Gnn.rowN q (ix2 r k)) = hpreAt ah ssh ss q r k
  rw [rowN_apply, Gnn.pow_explog _ _ (ratio_nonneg _ _ (h1 _) (h2 _)) (hq (ix1 k)).1 (hq (ix1 k)).2]
  rfl

/-! ## The body's block -/

/-- What the body stores at row r, feature k of its block: the [64] vector is read at k (cast to one row, the row
    repeated down the block), everything else is entry by entry. -/
theorem pay_apply (x1 x2 : Vec Ideal S5000x64 .f32) (x3 : Vec Ideal S64 .f32) (x0 : Vec Ideal S5000x64 .f32)
    (r : Fin 5000) (k : Fin 64) :
    k2_pay1 (F := Ideal) x1 x2 x3 x0 (ix2 r k)
      = x0 (ix2 r k) + Ideal.exp (x3 (ix1 k) * Ideal.log (Ideal.div (x1 (ix2 r k)) (x2 (ix2 r k) + eps))) := by
  unfold k2_pay1
  simp only [shapeCast_self]
  show x0 (ix2 r k) + Ideal.exp (broadcastTo S5000x64 (shapeCast S1x64 x3 shapeCasts_S64_S1x64) broadcasts_S1x64_S5000x64 (ix2 r k)
      * Ideal.log (Ideal.div (x1 (ix2 r k)) (x2 (ix2 r k) + eps))) = _
  rw [broadcastTo_1b_ab_apply, shapeCast_a_1a_apply]

/-- If the three [5000, 64] blocks are rows 5000·b … of three arrays and the [64] block is the whole vector, the
    stored block is the same rows of the array of entries. -/
theorem block_value (a0 a1 a2 : Gnn.SN.Idx → EReal) (a3 : Gnn.SD.Idx → EReal)
    (x0 x1 x2 : Vec Ideal S5000x64 .f32) (x3 : Vec Ideal S64 .f32) (b : Nat)
    (h0 : ∀ (y : S5000x64.Idx) (i : Gnn.SN.Idx), (i 0).val = b * 5000 + (y 0).val → (i 1).val = (y 1).val → x0 y = a0 i)
    (h1 : ∀ (y : S5000x64.Idx) (i : Gnn.SN.Idx), (i 0).val = b * 5000 + (y 0).val → (i 1).val = (y 1).val → x1 y = a1 i)
    (h2 : ∀ (y : S5000x64.Idx) (i : Gnn.SN.Idx), (i 0).val = b * 5000 + (y 0).val → (i 1).val = (y 1).val → x2 y = a2 i)
    (h3 : ∀ (y : S64.Idx) (i : Gnn.SD.Idx), (i 0).val = (y 0).val → x3 y = a3 i)
    (y : S5000x64.Idx) (i : Gnn.SN.Idx) (hi0 : (i 0).val = b * 5000 + (y 0).val) (hi1 : (i 1).val = (y 1).val) :
    k2_pay1 (F := Ideal) x1 x2 x3 x0 y = hpre a0 a1 a2 a3 i := by
  obtain ⟨r, k, rfl⟩ : ∃ (r : Fin 5000) (k : Fin 64), y = ix2 r k := ⟨y 0, y 1, eq_ix2 y⟩
  obtain ⟨p, q, rfl⟩ : ∃ (p : Fin 50000) (q : Fin 64), i = ix2 p q := ⟨i 0, i 1, eq_ix2 i⟩
  rw [pay_apply, h0 _ _ hi0 hi1, h1 _ _ hi0 hi1, h2 _ _ hi0 hi1, h3 (ix1 k) (ix1 q) hi1]
  rfl

/-! ## Where each block sits in its array -/

theorem zero2 : (![0, 0] : Fin 2 → Nat) = fun _ => 0 := funext fun a => by fin_cases a <;> rfl
theorem zero1 : (![0] : Fin 1 → Nat) = fun _ => 0 := funext fun a => by fin_cases a <;> rfl

/-- The index maps over the ten grid points: the three row-blocked inputs and the output sit at block (t, 0), the
    reciprocal exponent at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Ah's block at point t is rows 5000·t … 5000·t + 4999 of its array, all 64 columns. -/
theorem blk0_apply (c : Dev nD) (t : Fin cfg2.N) (y : S5000x64.Idx) (i : Gnn.SN.Idx)
    (hi0 : (i 0).val = t.val * 5000 + (y 0).val) (hi1 : (i 1).val = (y 1).val) :
    (iblk2 V c 0 t : Vec Ideal S5000x64 .f32) y = (V c (Pipeline.arrRef spec2 0) : Gnn.SN.Idx → EReal) i := by
  obtain ⟨e0, e1, -⟩ := idx_facts t
  unfold iblk2
  rw [View.read_apply]
  refine congrArg (V c (Pipeline.arrRef spec2 0) : Gnn.SN.Idx → EReal) (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 64 + 1 * (y 1).val = (i 1).val; rw [e1, hi1]; omega

/-- Σσh's block at point t is rows 5000·t … 5000·t + 4999 of its array, all 64 columns. -/
theorem blk1_apply (c : Dev nD) (t : Fin cfg2.N) (y : S5000x64.Idx) (i : Gnn.SN.Idx)
    (hi0 : (i 0).val = t.val * 5000 + (y 0).val) (hi1 : (i 1).val = (y 1).val) :
    (iblk2 V c 1 t : Vec Ideal S5000x64 .f32) y = (V c (Pipeline.arrRef spec2 1) : Gnn.SN.Idx → EReal) i := by
  obtain ⟨-, -, e0, e1, -⟩ := idx_facts t
  unfold iblk2
  rw [View.read_apply]
  refine congrArg (V c (Pipeline.arrRef spec2 1) : Gnn.SN.Idx → EReal) (funext fun a => Fin.ext ?_)
  match a with
  | ⟨0, _⟩ => show win2_1.index t (0 : Fin 2) * 5000 + 1 * (y 0).val = (i 0).val; rw [e0, hi0]; omega
  | ⟨1, _⟩ => show win2_1.index t (1 : Fin 2) * 64 + 1 * (y 1).val = (i 1).val; rw [e1, hi1]; omega

/-- Σσ's block at point t is rows 5000·t … 5000·t + 4999 of its array, all 64 columns. -/
theorem blk2_apply (c : Dev nD) (t : Fin cfg2.N) (y : S5000x64.Idx) (i : Gnn.SN.Idx)
    (hi0 : (i 0).val = t.val * 5000 + (y 0).val) (hi1 : (i 1).val = (y 1).val) :
    (iblk2 V c 2 t : Vec Ideal S5000x64 .f32) y = (V c (Pipeline.arrRef spec2 2) : Gnn.SN.Idx → EReal) i := by
  obtain ⟨-, -, -, -, e0, e1, -⟩ := idx_facts t
  unfold iblk2
  rw [View.read_apply]
  refine congrArg (V c (Pipeline.arrRef spec2 2) : Gnn.SN.Idx → EReal) (funext fun a => Fin.ext ?_)
  match a with
  | ⟨0, _⟩ => show win2_2.index t (0 : Fin 2) * 5000 + 1 * (y 0).val = (i 0).val; rw [e0, hi0]; omega
  | ⟨1, _⟩ => show win2_2.index t (1 : Fin 2) * 64 + 1 * (y 1).val = (i 1).val; rw [e1, hi1]; omega

/-- The reciprocal exponent's block at every point is the whole vector. -/
theorem blk3_apply (c : Dev nD) (t : Fin cfg2.N) (y : S64.Idx) (i : Gnn.SD.Idx) (hi0 : (i 0).val = (y 0).val) :
    (iblk2 V c 3 t : Vec Ideal S64 .f32) y = (V c (Pipeline.arrRef spec2 3) : Gnn.SD.Idx → EReal) i := by
  obtain ⟨-, -, -, -, -, -, e0, -⟩ := idx_facts t
  unfold iblk2
  rw [View.read_apply]
  refine congrArg (V c (Pipeline.arrRef spec2 3) : Gnn.SD.Idx → EReal) (funext fun a => Fin.ext ?_)
  match a with
  | ⟨0, _⟩ => show win2_3.index t (0 : Fin 1) * 64 + 1 * (y 0).val = (i 0).val; rw [e0, hi0]; omega

/-! ## From the blocks to the array -/

/-- What point t writes back is block t of the array of entries: the body's one store covers its whole buffer, its
    loads read the whole input blocks, and each input block holds the rows the output block names. -/
theorem flushed_eq (c : Dev nD) (t : Fin cfg2.N) :
    (dat2 (F := Ideal) V c).flushed 4 t = ((cfg2.win 4).blk t).view.read (Elt Ideal)
      (hpre (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero2]
  simp only [View.ld_unit_zero (S := S5000x64) zero2, View.ld_unit_zero (S := S64) zero1]
  obtain ⟨-, -, -, -, -, -, -, e0, e1⟩ := idx_facts t
  funext j
  show k2_pay1 (iblk2 V c 1 t) (iblk2 V c 2 t) (iblk2 V c 3 t) (iblk2 V c 0 t) j
    = hpre (V c (Pipeline.arrRef spec2 0)) (V c (Pipeline.arrRef spec2 1)) (V c (Pipeline.arrRef spec2 2))
        (V c (Pipeline.arrRef spec2 3)) (((cfg2.win 4).blk t).view.emb j)
  refine block_value (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t) t.val
    (blk0_apply V c t) (blk1_apply V c t) (blk2_apply V c t) (blk3_apply V c t) j (((cfg2.win 4).blk t).view.emb j) ?_ ?_
  · show win2_4.index t (0 : Fin 2) * 5000 + 1 * (j 0).val = t.val * 5000 + (j 0).val
    rw [e0]; omega
  · show win2_4.index t (1 : Fin 2) * 64 + 1 * (j 1).val = (j 1).val
    rw [e1]; omega

/-- An index of the array is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v14).slice (win2_4.rect t)).set ↔ _
  rw [View.set_slice_whole, Rect.mem_set_unit]
  exact Iff.rfl

/-- Row r lies in the block of point r / 5000, so the ten blocks cover the array. -/
theorem rows_covered (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have ht : (i 0).val / 5000 < cfg2.N := by rw [show cfg2.N = 10 from N_2]; omega
  refine ⟨⟨(i 0).val / 5000, ht⟩, flush2_4 _, ?_⟩
  rw [mem_blk]
  obtain ⟨-, -, -, -, -, -, -, e0, e1⟩ := idx_facts ⟨(i 0).val / 5000, ht⟩
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e1]; omega

/-- The output array after the ten write-backs is the array of entries. -/
theorem arr_eq_hpre (c : Dev nD) : (dat2 (F := Ideal) V c).arrAt 4 cfg2.N
    = hpre (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) rows_covered

theorem arr_hpre (c : Dev nD) (hq : Gnn.QRange (V c (Pipeline.arrRef spec2 3))) (h1 : Gnn.NonNeg (s := Gnn.SN) (V c (Pipeline.arrRef spec2 1)))
    (h2 : Gnn.NonNeg (s := Gnn.SN) (V c (Pipeline.arrRef spec2 2))) :
    ((dat2 (F := Ideal) V c).arrAt 4 cfg2.N : Gnn.SN.Idx → EReal)
      = Gnn.combine (F := Ideal) (V c (Pipeline.arrRef spec2 0)) (V c (Pipeline.arrRef spec2 1)) (V c (Pipeline.arrRef spec2 2)) (V c (Pipeline.arrRef spec2 3)) :=
  (arr_eq_hpre V c).trans (combine_eq _ _ _ _ hq h1 h2).symm

end Cert.KernelIdeal.Region2

end
-- ==== Proof.Region3.lean ====
/-
  The fourth pallas_call (ten grid points, 5000 node rows each): batch normalisation with the given mean and
  variance vectors, relu, and the residual, entry by entry; every feature vector is laid along the rows.

  The road: one entry of the result is a function of six numbers (the residual input, the input, and the four
  feature-vector entries of its column). Point t of the grid computes exactly that function on rows
  5000·t … 5000·t + 4999, the ten row blocks tile the fifty thousand rows, so the array after all write-backs is
  that function at every entry; and the same function, read index by index, is the composition of host operations
  `Gnn.finishN`.
-/
import proofs.«402615_j67370857005182_3_alg».proof.Proof.Gen.KernelIdeal.Frame
import proofs.«402615_j67370857005182_3_alg».proof.Proof.Spec
import proofs.«402615_j67370857005182_3_alg».proof.Proof.Laws
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

/-! ## One entry -/

/-- One entry: the residual plus the rectified normalised value,
    x_in + max(γ·(x − mean)·rsqrt(var + 1e-5) + β, 0). -/
def entry (xin x mean var gamma beta : EReal) : EReal :=
  xin + max (gamma * (x - mean) * Ideal.rsqrt (var + Ideal.ofBits .f32 0x3727C5AC#32) + beta) (Ideal.ofBits .f32 0x00000000#32)

/-- The whole array, entry by entry: the four feature vectors are read at the entry's column. -/
def G (xin x : Gnn.SN.Idx → EReal) (mean var gamma beta : Gnn.SD.Idx → EReal) : Gnn.SN.Idx → EReal :=
  fun i => entry (xin i) (x i) (mean (ix1 (n := 64) (i 1))) (var (ix1 (n := 64) (i 1))) (gamma (ix1 (n := 64) (i 1))) (beta (ix1 (n := 64) (i 1)))

/-! ## The body's arithmetic at an index -/

theorem hz2 : (![0, 0] : Fin 2 → Nat) = fun _ => 0 := funext fun a => by fin_cases a <;> rfl
theorem hz1 : (![0] : Fin 1 → Nat) = fun _ => 0 := funext fun a => by fin_cases a <;> rfl

/-- A feature vector viewed as one row and repeated down the 5000 rows of a block reads, at (r, q), the vector at q. -/
theorem row_apply (v : Vec Ideal S64 .f32) (h1 : S64.ShapeCasts S1x64) (h2 : S1x64.Broadcasts S5000x64) (r : Fin 5000) (q : Fin 64) :
    broadcastTo S5000x64 (shapeCast S1x64 v h1) h2 (ix2 r q) = v (ix1 q) := by
  refine (broadcastTo_apply _ h2 (ix2 r q) (ix2 (0 : Fin 1) q) ?_).trans ?_
  · intro a
    match a with
    | ⟨0, _⟩ => rfl
    | ⟨1, _⟩ => rfl
  · refine (shapeCast_addUnit_apply ![64] v h1 (ix2 (0 : Fin 1) q)).trans ?_
    congr 1
    funext d
    match d with
    | ⟨0, _⟩ => rfl

/-- The stored value at row r, column q of a block is `entry` of the loaded blocks' values there: every operation
    of the body is pointwise, and the four vectors enter through the row view. -/
theorem pay_apply (x0 x5 : Vec Ideal S5000x64 .f32) (g mu v b : Vec Ideal S64 .f32) (r : Fin 5000) (q : Fin 64) :
    k3_pay1 x0 g mu v b x5 (ix2 r q) = entry (x5 (ix2 r q)) (x0 (ix2 r q)) (mu (ix1 q)) (v (ix1 q)) (g (ix1 q)) (b (ix1 q)) := by
  unfold k3_pay1 entry
  simp only [addf_apply, maximumf_apply, mulf_apply, subf_apply, shapeCast_self, broadcast_apply]
  rw [row_apply g, row_apply mu, row_apply b, row_apply]
  rfl

/-! ## The windows' blocks as parts of their arrays -/

/-- Where each window's block sits at point t: the three [50000,64] windows move down the rows with the point,
    the four feature-vector windows stay on the whole vector (decided over the ten points). -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

-- the buffer contents the region finds when it is entered
variable (V : (c : Dev nD) → (b : Ref sig .tc) → Buf (Elt Ideal) ((c : Thread nD τ).loc b))

/-- Row y of block t of the input x is row 5000·t + y of its array. -/
theorem rows0 (c : Dev nD) (t : Fin cfg3.N) (y : S5000x64.Idx) (k : Gnn.SN.Idx)
    (hk0 : (k 0).val = 5000 * t.val + (y 0).val) (hk1 : (k 1).val = (y 1).val) :
    (iblk3 V c 0 t : Vec Ideal S5000x64 .f32) y = (V c (Pipeline.arrRef spec3 0) : Gnn.SN.Idx → EReal) k := by
  obtain ⟨e0, e1, -⟩ := idx_facts t
  unfold iblk3
  rw [View.read_apply]
  refine congrArg (V c (Pipeline.arrRef spec3 0)) ?_
  funext a
  apply Fin.ext
  match a with
  | ⟨0, _⟩ => show win3_0.index t 0 * 5000 + 1 * (y 0).val = (k 0).val; rw [e0, hk0]; omega
  | ⟨1, _⟩ => show win3_0.index t 1 * 64 + 1 * (y 1).val = (k 1).val; rw [e1, hk1]; omega

/-- The same for the residual input x_in. -/
theorem rows5 (c : Dev nD) (t : Fin cfg3.N) (y : S5000x64.Idx) (k : Gnn.SN.Idx)
    (hk0 : (k 0).val = 5000 * t.val + (y 0).val) (hk1 : (k 1).val = (y 1).val) :
    (iblk3 V c 5 t : Vec Ideal S5000x64 .f32) y = (V c (Pipeline.arrRef spec3 5) : Gnn.SN.Idx → EReal) k := by
  obtain ⟨-, -, e0, e1, -⟩ := idx_facts t
  unfold iblk3
  rw [View.read_apply]
  refine congrArg (V c (Pipeline.arrRef spec3 5)) ?_
  funext a
  apply Fin.ext
  match a with
  | ⟨0, _⟩ => show win3_5.index t 0 * 5000 + 1 * (y 0).val = (k 0).val; rw [e0, hk0]; omega
  | ⟨1, _⟩ => show win3_5.index t 1 * 64 + 1 * (y 1).val = (k 1).val; rw [e1, hk1]; omega

/-- The mean's block is the whole vector at every point. -/
theorem vec1 (c : Dev nD) (t : Fin cfg3.N) (y : S64.Idx) (k : Gnn.SD.Idx) (hk : (k 0).val = (y 0).val) :
    (iblk3 V c 1 t : Vec Ideal S64 .f32) y = (V c (Pipeline.arrRef spec3 1) : Gnn.SD.Idx → EReal) k := by
  obtain ⟨-, -, -, -, -, -, e, -⟩ := idx_facts t
  unfold iblk3
  rw [View.read_apply]
  refine congrArg (V c (Pipeline.arrRef spec3 1)) ?_
  funext a
  apply Fin.ext
  match a with
  | ⟨0, _⟩ => show win3_1.index t 0 * 64 + 1 * (y 0).val = (k 0).val; rw [e, hk]; omega

/-- So is the variance's, -/
theorem vec2 (c : Dev nD) (t : Fin cfg3.N) (y : S64.Idx) (k : Gnn.SD.Idx) (hk : (k 0).val = (y 0).val) :
    (iblk3 V c 2 t : Vec Ideal S64 .f32) y = (V c (Pipeline.arrRef spec3 2) : Gnn.SD.Idx → EReal) k := by
  obtain ⟨-, -, -, -, -, -, -, e, -⟩ := idx_facts t
  unfold iblk3
  rw [View.read_apply]
  refine congrArg (V c (Pipeline.arrRef spec3 2)) ?_
  funext a
  apply Fin.ext
  match a with
  | ⟨0, _⟩ => show win3_2.index t 0 * 64 + 1 * (y 0).val = (k 0).val; rw [e, hk]; omega

/-- the scale's, -/
theorem vec3 (c : Dev nD) (t : Fin cfg3.N) (y : S64.Idx) (k : Gnn.SD.Idx) (hk : (k 0).val = (y 0).val) :
    (iblk3 V c 3 t : Vec Ideal S64 .f32) y = (V c (Pipeline.arrRef spec3 3) : Gnn.SD.Idx → EReal) k := by
  obtain ⟨-, -, -, -, -, -, -, -, e, -⟩ := idx_facts t
  unfold iblk3
  rw [View.read_apply]
  refine congrArg (V c (Pipeline.arrRef spec3 3)) ?_
  funext a
  apply Fin.ext
  match a with
  | ⟨0, _⟩ => show win3_3.index t 0 * 64 + 1 * (y 0).val = (k 0).val; rw [e, hk]; omega

/-- and the shift's. -/
theorem vec4 (c : Dev nD) (t : Fin cfg3.N) (y : S64.Idx) (k : Gnn.SD.Idx) (hk : (k 0).val = (y 0).val) :
    (iblk3 V c 4 t : Vec Ideal S64 .f32) y = (V c (Pipeline.arrRef spec3 4) : Gnn.SD.Idx → EReal) k := by
  obtain ⟨-, -, -, -, -, -, -, -, -, e⟩ := idx_facts t
  unfold iblk3
  rw [View.read_apply]
  refine congrArg (V c (Pipeline.arrRef spec3 4)) ?_
  funext a
  apply Fin.ext
  match a with
  | ⟨0, _⟩ => show win3_4.index t 0 * 64 + 1 * (y 0).val = (k 0).val; rw [e, hk]; omega

/-! ## From the blocks to the array -/

/-- What point t computes at row r and column q of its block is the entry of row 5000·t + r of the array. -/
theorem blk_entry (c : Dev nD) (t : Fin cfg3.N) (r : Fin 5000) (q : Fin 64) (k : Gnn.SN.Idx)
    (hk0 : (k 0).val = 5000 * t.val + r.val) (hk1 : (k 1).val = q.val) :
    k3_pay1 (iblk3 V c 0 t) (iblk3 V c 3 t) (iblk3 V c 1 t) (iblk3 V c 2 t) (iblk3 V c 4 t) (iblk3 V c 5 t) (ix2 r q)
      = G (V c (Pipeline.arrRef spec3 5)) (V c (Pipeline.arrRef spec3 0)) (V c (Pipeline.arrRef spec3 1)) (V c (Pipeline.arrRef spec3 2)) (V c (Pipeline.arrRef spec3 3)) (V c (Pipeline.arrRef spec3 4)) k := by
  refine (pay_apply (iblk3 V c 0 t) (iblk3 V c 5 t) (iblk3 V c 3 t) (iblk3 V c 1 t) (iblk3 V c 2 t) (iblk3 V c 4 t) r q).trans ?_
  unfold G
  rw [rows0 V c t (ix2 r q) k hk0 hk1, rows5 V c t (ix2 r q) k hk0 hk1,
    vec1 V c t (ix1 q) (ix1 (n := 64) (k 1)) hk1, vec2 V c t (ix1 q) (ix1 (n := 64) (k 1)) hk1,
    vec3 V c t (ix1 q) (ix1 (n := 64) (k 1)) hk1, vec4 V c t (ix1 q) (ix1 (n := 64) (k 1)) hk1]

/-- What point t writes back is block t of G of the arrays the region found: the body's one whole-block store,
    over whole-block loads, read where the output's block sits. -/
theorem flushed_eq (c : Dev nD) (t : Fin cfg3.N) :
    (dat3 (F := Ideal) V c).flushed 6 t = ((cfg3.win 6).blk t).view.read (Elt Ideal)
      (G (V c (Pipeline.arrRef spec3 5)) (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 V c).after 6 t) = _
  rw [after3_6]
  unfold out3_6
  rw [View.canon_unit_zero hz2]
  simp only [View.ld_unit_zero (S := S5000x64) hz2, View.ld_unit_zero (S := S64) hz1]
  obtain ⟨-, -, -, -, e0, e1, -⟩ := idx_facts t
  funext j
  obtain ⟨r, q, rfl⟩ : ∃ (r : Fin 5000) (q : Fin 64), j = ix2 r q := ⟨j 0, j 1, eq_ix2 j⟩
  refine (blk_entry V c t r q (((cfg3.win 6).blk t).view.emb (ix2 r q)) ?_ ?_)
  · show win3_6.index t 0 * 5000 + 1 * r.val = 5000 * t.val + r.val; rw [e0]; omega
  · show win3_6.index t 1 * 64 + 1 * q.val = q.val; rw [e1]; omega

/-- An index of the array is in point t's block iff each coordinate is in the block's range on its axis. -/
theorem mem_blk (t : Fin cfg3.N) (i : Gnn.SN.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v19).slice (win3_6.rect t)).set ↔ _
  rw [View.set_slice_whole, Rect.mem_set_unit]
  exact Iff.rfl

/-- Row n lies in the block of point n / 5000: the ten blocks tile the fifty thousand rows. -/
theorem cover (i : Gnn.SN.Idx) : ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  have hlt : (i 0).val / 5000 < cfg3.N := by rw [hN]; omega
  obtain ⟨-, -, -, -, e0, e1, -⟩ := idx_facts ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ 0 * 5000 ≤ (i 0).val ∧ (i 0).val < win3_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win3_6.index ⟨(i 0).val / 5000, hlt⟩ 1 * 64 ≤ (i 1).val ∧ (i 1).val < win3_6.index ⟨(i 0).val / 5000, hlt⟩ 1 * 64 + 64
    rw [e1]; omega

/-- After all write-backs the output array is G of the arrays the region found. -/
theorem arr_G (c : Dev nD) :
    (dat3 (F := Ideal) V c).arrAt 6 cfg3.N
      = G (V c (Pipeline.arrRef spec3 5)) (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 6 _ (fun t _ => flushed_eq V c t) cover

/-! ## The same function as host operations -/

/-- A feature vector laid along every node row reads, at (r, q), the vector at q. -/
theorem rowN_apply (v : FVec Ideal Gnn.SD .f32) (r : Fin 50000) (q : Fin 64) : Gnn.rowN v (ix2 r q) = v (ix1 q) := by
  unfold Gnn.rowN
  refine (broadcastInDim_apply ![0, 1] Gnn.bRN _ (ix2 r q) (ix2 (0 : Fin 1) q) ?_).trans ?_
  · intro a
    match a with
    | ⟨0, _⟩ => rfl
    | ⟨1, _⟩ => rfl
  · refine broadcastInDim_apply ![1] Gnn.bDR v (ix2 (0 : Fin 1) q) (ix1 q) ?_
    intro a
    match a with
    | ⟨0, _⟩ => rfl

/-- A scalar pattern everywhere on the node array is that scalar at every entry, -/
theorem cstN_apply (b : BitVec 32) (i : Gnn.SN.Idx) : Gnn.cstN (F := Ideal) b i = Ideal.ofBits .f32 b := by
  unfold Gnn.cstN
  exact (broadcastInDim_apply ![] Gnn.b0N _ i ix0 (fun a => a.elim0)).trans rfl

/-- and on a feature vector. -/
theorem cstD_apply (b : BitVec 32) (j : Gnn.SD.Idx) : Gnn.cstD (F := Ideal) b j = Ideal.ofBits .f32 b := by
  unfold Gnn.cstD
  exact (broadcastInDim_apply ![] Gnn.b0D _ j ix0 (fun a => a.elim0)).trans rfl

/-- G is the host composition, index by index: the same additions, products and maximum, the reciprocal square
    root taken on the feature vector before it is laid along the rows. -/
theorem G_eq (xin x : FVec Ideal Gnn.SN .f32) (mean var gamma beta : FVec Ideal Gnn.SD .f32) :
    G xin x mean var gamma beta = Gnn.finishN (F := Ideal) xin x mean var gamma beta := by
  funext i
  obtain ⟨r, q, rfl⟩ : ∃ (r : Fin 50000) (q : Fin 64), i = ix2 r q := ⟨i 0, i 1, eq_ix2 i⟩
  unfold G entry Gnn.finishN Gnn.bnN
  simp only [addf_apply, maximumf_apply, mulf_apply, subf_apply]
  rw [rowN_apply gamma, rowN_apply mean, rowN_apply beta, rowN_apply, cstN_apply]
  show _ = xin (ix2 r q) + max (gamma (ix1 q) * (x (ix2 r q) - mean (ix1 q)) * Ideal.rsqrt (var (ix1 q) + Gnn.cstD (F := Ideal) 0x3727C5AC#32 (ix1 q)) + beta (ix1 q)) _
  rw [cstD_apply]

/-! ## The region's value -/

theorem arr_hout (c : Dev nD) :
    ((dat3 (F := Ideal) V c).arrAt 6 cfg3.N : Gnn.SN.Idx → EReal)
      = Gnn.finishN (F := Ideal) (V c (Pipeline.arrRef spec3 5)) (V c (Pipeline.arrRef spec3 0)) (V c (Pipeline.arrRef spec3 1)) (V c (Pipeline.arrRef spec3 2)) (V c (Pipeline.arrRef spec3 3)) (V c (Pipeline.arrRef spec3 4)) :=
  (arr_G V c).trans (G_eq _ _ _ _ _ _)

end Cert.KernelIdeal.Region3

end
-- ==== Proof.Region4.lean ====
/-
  The fifth pallas_call (80 grid points, 10000 edge rows each): the same normalisation, relu and residual over the
  edge array.

  The road: one entry of the result is a function of six numbers (the residual input, the input, and the four
  feature-vector entries of its column). Point t of the grid computes exactly that function on rows
  10000·t … 10000·t + 9999, the eighty row blocks tile the eight hundred thousand rows, so the array after all
  write-backs is that function at every entry; and the same function, read index by index, is the composition of
  host operations `Gnn.finishE`.
-/
import proofs.«402615_j67370857005182_3_alg».proof.Proof.Gen.KernelIdeal.Frame
import proofs.«402615_j67370857005182_3_alg».proof.Proof.Spec
import proofs.«402615_j67370857005182_3_alg».proof.Proof.Laws
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-! ## One entry -/

/-- One entry: the residual plus the rectified normalised value,
    e_in + max(γ·(e − mean)·rsqrt(var + 1e-5) + β, 0). -/
def entry (ein e mean var gamma beta : EReal) : EReal :=
  ein + max (gamma * (e - mean) * Ideal.rsqrt (var + Ideal.ofBits .f32 0x3727C5AC#32) + beta) (Ideal.ofBits .f32 0x00000000#32)

/-- The whole edge array, entry by entry: the four feature vectors are read at the entry's column. -/
def G (ein e : Gnn.SE.Idx → EReal) (mean var gamma beta : Gnn.SD.Idx → EReal) : Gnn.SE.Idx → EReal :=
  fun i => entry (ein i) (e i) (mean (ix1 (n := 64) (i 1))) (var (ix1 (n := 64) (i 1))) (gamma (ix1 (n := 64) (i 1))) (beta (ix1 (n := 64) (i 1)))

/-! ## The body's arithmetic at an index -/

theorem hz2 : (![0, 0] : Fin 2 → Nat) = fun _ => 0 := funext fun a => by fin_cases a <;> rfl
theorem hz1 : (![0] : Fin 1 → Nat) = fun _ => 0 := funext fun a => by fin_cases a <;> rfl

/-- A feature vector viewed as one row and repeated down the 10000 rows of a block reads, at (r, q), the vector at q. -/
theorem row_apply (v : Vec Ideal S64 .f32) (h1 : S64.ShapeCasts S1x64) (h2 : S1x64.Broadcasts S10000x64) (r : Fin 10000) (q : Fin 64) :
    broadcastTo S10000x64 (shapeCast S1x64 v h1) h2 (ix2 r q) = v (ix1 q) := by
  refine (broadcastTo_apply _ h2 (ix2 r q) (ix2 (0 : Fin 1) q) ?_).trans ?_
  · intro a
    match a with
    | ⟨0, _⟩ => rfl
    | ⟨1, _⟩ => rfl
  · refine (shapeCast_addUnit_apply ![64] v h1 (ix2 (0 : Fin 1) q)).trans ?_
    congr 1
    funext d
    match d with
    | ⟨0, _⟩ => rfl

/-- The stored value at row r, column q of a block is `entry` of the loaded blocks' values there: every operation
    of the body is pointwise, and the four vectors enter through the row view. -/
theorem pay_apply (x0 x5 : Vec Ideal S10000x64 .f32) (g mu v b : Vec Ideal S64 .f32) (r : Fin 10000) (q : Fin 64) :
    k4_pay1 x0 g mu v b x5 (ix2 r q) = entry (x5 (ix2 r q)) (x0 (ix2 r q)) (mu (ix1 q)) (v (ix1 q)) (g (ix1 q)) (b (ix1 q)) := by
  unfold k4_pay1 entry
  simp only [addf_apply, maximumf_apply, mulf_apply, subf_apply, shapeCast_self, broadcast_apply]
  rw [row_apply g, row_apply mu, row_apply b, row_apply]
  rfl

/-! ## The windows' blocks as parts of their arrays -/

/-- Where each window's block sits at point t: the three [800000,64] windows move down the rows with the point,
    the four feature-vector windows stay on the whole vector (decided over the eighty points). -/
theorem idx_facts : ∀ t : Fin cfg4.N,
    win4_0.index t (0 : Fin 2) = t.val ∧ win4_0.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_1.index t (0 : Fin 1) = 0 ∧ win4_2.index t (0 : Fin 1) = 0
    ∧ win4_3.index t (0 : Fin 1) = 0 ∧ win4_4.index t (0 : Fin 1) = 0 :=
  (by decide +kernel : ∀ t : Fin grid4.N, _)

-- the buffer contents the region finds when it is entered
variable (V : (c : Dev nD) → (b : Ref sig .tc) → Buf (Elt Ideal) ((c : Thread nD τ).loc b))

/-- Row y of block t of the input e is row 10000·t + y of its array. -/
theorem rows0 (c : Dev nD) (t : Fin cfg4.N) (y : S10000x64.Idx) (k : Gnn.SE.Idx)
    (hk0 : (k 0).val = 10000 * t.val + (y 0).val) (hk1 : (k 1).val = (y 1).val) :
    (iblk4 V c 0 t : Vec Ideal S10000x64 .f32) y = (V c (Pipeline.arrRef spec4 0) : Gnn.SE.Idx → EReal) k := by
  obtain ⟨e0, e1, -⟩ := idx_facts t
  unfold iblk4
  rw [View.read_apply]
  refine congrArg (V c (Pipeline.arrRef spec4 0)) ?_
  funext a
  apply Fin.ext
  match a with
  | ⟨0, _⟩ => show win4_0.index t 0 * 10000 + 1 * (y 0).val = (k 0).val; rw [e0, hk0]; omega
  | ⟨1, _⟩ => show win4_0.index t 1 * 64 + 1 * (y 1).val = (k 1).val; rw [e1, hk1]; omega

/-- The same for the residual input e_in. -/
theorem rows5 (c : Dev nD) (t : Fin cfg4.N) (y : S10000x64.Idx) (k : Gnn.SE.Idx)
    (hk0 : (k 0).val = 10000 * t.val + (y 0).val) (hk1 : (k 1).val = (y 1).val) :
    (iblk4 V c 5 t : Vec Ideal S10000x64 .f32) y = (V c (Pipeline.arrRef spec4 5) : Gnn.SE.Idx → EReal) k := by
  obtain ⟨-, -, e0, e1, -⟩ := idx_facts t
  unfold iblk4
  rw [View.read_apply]
  refine congrArg (V c (Pipeline.arrRef spec4 5)) ?_
  funext a
  apply Fin.ext
  match a with
  | ⟨0, _⟩ => show win4_5.index t 0 * 10000 + 1 * (y 0).val = (k 0).val; rw [e0, hk0]; omega
  | ⟨1, _⟩ => show win4_5.index t 1 * 64 + 1 * (y 1).val = (k 1).val; rw [e1, hk1]; omega

/-- The mean's block is the whole vector at every point. -/
theorem vec1 (c : Dev nD) (t : Fin cfg4.N) (y : S64.Idx) (k : Gnn.SD.Idx) (hk : (k 0).val = (y 0).val) :
    (iblk4 V c 1 t : Vec Ideal S64 .f32) y = (V c (Pipeline.arrRef spec4 1) : Gnn.SD.Idx → EReal) k := by
  obtain ⟨-, -, -, -, -, -, e, -⟩ := idx_facts t
  unfold iblk4
  rw [View.read_apply]
  refine congrArg (V c (Pipeline.arrRef spec4 1)) ?_
  funext a
  apply Fin.ext
  match a with
  | ⟨0, _⟩ => show win4_1.index t 0 * 64 + 1 * (y 0).val = (k 0).val; rw [e, hk]; omega

/-- So is the variance's, -/
theorem vec2 (c : Dev nD) (t : Fin cfg4.N) (y : S64.Idx) (k : Gnn.SD.Idx) (hk : (k 0).val = (y 0).val) :
    (iblk4 V c 2 t : Vec Ideal S64 .f32) y = (V c (Pipeline.arrRef spec4 2) : Gnn.SD.Idx → EReal) k := by
  obtain ⟨-, -, -, -, -, -, -, e, -⟩ := idx_facts t
  unfold iblk4
  rw [View.read_apply]
  refine congrArg (V c (Pipeline.arrRef spec4 2)) ?_
  funext a
  apply Fin.ext
  match a with
  | ⟨0, _⟩ => show win4_2.index t 0 * 64 + 1 * (y 0).val = (k 0).val; rw [e, hk]; omega

/-- the scale's, -/
theorem vec3 (c : Dev nD) (t : Fin cfg4.N) (y : S64.Idx) (k : Gnn.SD.Idx) (hk : (k 0).val = (y 0).val) :
    (iblk4 V c 3 t : Vec Ideal S64 .f32) y = (V c (Pipeline.arrRef spec4 3) : Gnn.SD.Idx → EReal) k := by
  obtain ⟨-, -, -, -, -, -, -, -, e, -⟩ := idx_facts t
  unfold iblk4
  rw [View.read_apply]
  refine congrArg (V c (Pipeline.arrRef spec4 3)) ?_
  funext a
  apply Fin.ext
  match a with
  | ⟨0, _⟩ => show win4_3.index t 0 * 64 + 1 * (y 0).val = (k 0).val; rw [e, hk]; omega

/-- and the shift's. -/
theorem vec4 (c : Dev nD) (t : Fin cfg4.N) (y : S64.Idx) (k : Gnn.SD.Idx) (hk : (k 0).val = (y 0).val) :
    (iblk4 V c 4 t : Vec Ideal S64 .f32) y = (V c (Pipeline.arrRef spec4 4) : Gnn.SD.Idx → EReal) k := by
  obtain ⟨-, -, -, -, -, -, -, -, -, e⟩ := idx_facts t
  unfold iblk4
  rw [View.read_apply]
  refine congrArg (V c (Pipeline.arrRef spec4 4)) ?_
  funext a
  apply Fin.ext
  match a with
  | ⟨0, _⟩ => show win4_4.index t 0 * 64 + 1 * (y 0).val = (k 0).val; rw [e, hk]; omega

/-! ## From the blocks to the array -/

/-- What point t computes at row r and column q of its block is the entry of row 10000·t + r of the array. -/
theorem blk_entry (c : Dev nD) (t : Fin cfg4.N) (r : Fin 10000) (q : Fin 64) (k : Gnn.SE.Idx)
    (hk0 : (k 0).val = 10000 * t.val + r.val) (hk1 : (k 1).val = q.val) :
    k4_pay1 (iblk4 V c 0 t) (iblk4 V c 3 t) (iblk4 V c 1 t) (iblk4 V c 2 t) (iblk4 V c 4 t) (iblk4 V c 5 t) (ix2 r q)
      = G (V c (Pipeline.arrRef spec4 5)) (V c (Pipeline.arrRef spec4 0)) (V c (Pipeline.arrRef spec4 1)) (V c (Pipeline.arrRef spec4 2)) (V c (Pipeline.arrRef spec4 3)) (V c (Pipeline.arrRef spec4 4)) k := by
  refine (pay_apply (iblk4 V c 0 t) (iblk4 V c 5 t) (iblk4 V c 3 t) (iblk4 V c 1 t) (iblk4 V c 2 t) (iblk4 V c 4 t) r q).trans ?_
  unfold G
  rw [rows0 V c t (ix2 r q) k hk0 hk1, rows5 V c t (ix2 r q) k hk0 hk1,
    vec1 V c t (ix1 q) (ix1 (n := 64) (k 1)) hk1, vec2 V c t (ix1 q) (ix1 (n := 64) (k 1)) hk1,
    vec3 V c t (ix1 q) (ix1 (n := 64) (k 1)) hk1, vec4 V c t (ix1 q) (ix1 (n := 64) (k 1)) hk1]

/-- What point t writes back is block t of G of the arrays the region found: the body's one whole-block store,
    over whole-block loads, read where the output's block sits. -/
theorem flushed_eq (c : Dev nD) (t : Fin cfg4.N) :
    (dat4 (F := Ideal) V c).flushed 6 t = ((cfg4.win 6).blk t).view.read (Elt Ideal)
      (G (V c (Pipeline.arrRef spec4 5)) (V c (Pipeline.arrRef spec4 0)) (V c (Pipeline.arrRef spec4 1)) (V c (Pipeline.arrRef spec4 2)) (V c (Pipeline.arrRef spec4 3)) (V c (Pipeline.arrRef spec4 4))) := by
  show (cfg4.win 6).cut (grid4.coords t) ((dat4 V c).after 6 t) = _
  rw [after4_6]
  unfold out4_6
  rw [View.canon_unit_zero hz2]
  simp only [View.ld_unit_zero (S := S10000x64) hz2, View.ld_unit_zero (S := S64) hz1]
  obtain ⟨-, -, -, -, e0, e1, -⟩ := idx_facts t
  funext j
  obtain ⟨r, q, rfl⟩ : ∃ (r : Fin 10000) (q : Fin 64), j = ix2 r q := ⟨j 0, j 1, eq_ix2 j⟩
  refine (blk_entry V c t r q (((cfg4.win 6).blk t).view.emb (ix2 r q)) ?_ ?_)
  · show win4_6.index t 0 * 10000 + 1 * r.val = 10000 * t.val + r.val; rw [e0]; omega
  · show win4_6.index t 1 * 64 + 1 * q.val = q.val; rw [e1]; omega

/-- An index of the array is in point t's block iff each coordinate is in the block's range on its axis. -/
theorem mem_blk (t : Fin cfg4.N) (i : Gnn.SE.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v24).slice (win4_6.rect t)).set ↔ _
  rw [View.set_slice_whole, Rect.mem_set_unit]
  exact Iff.rfl

/-- Row n lies in the block of point n / 10000: the eighty blocks tile the eight hundred thousand rows. -/
theorem cover (i : Gnn.SE.Idx) : ∃ t : Fin cfg4.N, (cfg4.win 6).flush t = true ∧ i ∈ ((cfg4.win 6).blk t).view.set := by
  have hi0 : (i 0).val < 800000 := (i 0).isLt
  have hi1 : (i 1).val < 64 := (i 1).isLt
  have hN : cfg4.N = 80 := N_4
  have hlt : (i 0).val / 10000 < cfg4.N := by rw [hN]; omega
  obtain ⟨-, -, -, -, e0, e1, -⟩ := idx_facts ⟨(i 0).val / 10000, hlt⟩
  refine ⟨⟨(i 0).val / 10000, hlt⟩, flush4_6 _, ?_⟩
  rw [mem_blk]
  intro a
  match a with
  | ⟨0, _⟩ =>
    show win4_6.index ⟨(i 0).val / 10000, hlt⟩ 0 * 10000 ≤ (i 0).val ∧ (i 0).val < win4_6.index ⟨(i 0).val / 10000, hlt⟩ 0 * 10000 + 10000
    rw [e0]; show (i 0).val / 10000 * 10000 ≤ (i 0).val ∧ (i 0).val < (i 0).val / 10000 * 10000 + 10000; omega
  | ⟨1, _⟩ =>
    show win4_6.index ⟨(i 0).val / 10000, hlt⟩ 1 * 64 ≤ (i 1).val ∧ (i 1).val < win4_6.index ⟨(i 0).val / 10000, hlt⟩ 1 * 64 + 64
    rw [e1]; omega

/-- After all write-backs the output array is G of the arrays the region found. -/
theorem arr_G (c : Dev nD) :
    (dat4 (F := Ideal) V c).arrAt 6 cfg4.N
      = G (V c (Pipeline.arrRef spec4 5)) (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 6 _ (fun t _ => flushed_eq V c t) cover

/-! ## The same function as host operations -/

/-- A feature vector laid along every edge row reads, at (r, q), the vector at q. -/
theorem rowE_apply (v : FVec Ideal Gnn.SD .f32) (r : Fin 800000) (q : Fin 64) : Gnn.rowE v (ix2 r q) = v (ix1 q) := by
  unfold Gnn.rowE
  refine (broadcastInDim_apply ![0, 1] Gnn.bRE _ (ix2 r q) (ix2 (0 : Fin 1) q) ?_).trans ?_
  · intro a
    match a with
    | ⟨0, _⟩ => rfl
    | ⟨1, _⟩ => rfl
  · refine broadcastInDim_apply ![1] Gnn.bDR v (ix2 (0 : Fin 1) q) (ix1 q) ?_
    intro a
    match a with
    | ⟨0, _⟩ => rfl

/-- A scalar pattern everywhere on the edge array is that scalar at every entry, -/
theorem cstE_apply (b : BitVec 32) (i : Gnn.SE.Idx) : Gnn.cstE (F := Ideal) b i = Ideal.ofBits .f32 b := by
  unfold Gnn.cstE
  exact (broadcastInDim_apply ![] Gnn.b0E _ i ix0 (fun a => a.elim0)).trans rfl

/-- and on a feature vector. -/
theorem cstD_apply (b : BitVec 32) (j : Gnn.SD.Idx) : Gnn.cstD (F := Ideal) b j = Ideal.ofBits .f32 b := by
  unfold Gnn.cstD
  exact (broadcastInDim_apply ![] Gnn.b0D _ j ix0 (fun a => a.elim0)).trans rfl

/-- G is the host composition, index by index: the same additions, products and maximum, the reciprocal square
    root taken on the feature vector before it is laid along the rows. -/
theorem G_eq (ein e : FVec Ideal Gnn.SE .f32) (mean var gamma beta : FVec Ideal Gnn.SD .f32) :
    G ein e mean var gamma beta = Gnn.finishE (F := Ideal) ein e mean var gamma beta := by
  funext i
  obtain ⟨r, q, rfl⟩ : ∃ (r : Fin 800000) (q : Fin 64), i = ix2 r q := ⟨i 0, i 1, eq_ix2 i⟩
  unfold G entry Gnn.finishE Gnn.bnE
  simp only [addf_apply, maximumf_apply, mulf_apply, subf_apply]
  rw [rowE_apply gamma, rowE_apply mean, rowE_apply beta, rowE_apply, cstE_apply]
  show _ = ein (ix2 r q) + max (gamma (ix1 q) * (e (ix2 r q) - mean (ix1 q)) * Ideal.rsqrt (var (ix1 q) + Gnn.cstD (F := Ideal) 0x3727C5AC#32 (ix1 q)) + beta (ix1 q)) _
  rw [cstD_apply]

/-! ## The region's value -/

theorem arr_eout (c : Dev nD) :
    ((dat4 (F := Ideal) V c).arrAt 6 cfg4.N : Gnn.SE.Idx → EReal)
      = Gnn.finishE (F := Ideal) (V c (Pipeline.arrRef spec4 5)) (V c (Pipeline.arrRef spec4 0)) (V c (Pipeline.arrRef spec4 1)) (V c (Pipeline.arrRef spec4 2)) (V c (Pipeline.arrRef spec4 3)) (V c (Pipeline.arrRef spec4 4)) :=
  (arr_G V c).trans (G_eq _ _ _ _ _ _)

end Cert.KernelIdeal.Region4

end
-- ==== Proof.KernelChain.lean ====
/-
  The kernel program's value: the contents of every buffer at every boundary between @main's segments is a fold from
  the launch memory; read at the two result buffers, that fold is the layer's node output and edge output.

  Stage by stage, in @main's order: the exponent p and its reciprocal; the first pallas_call's four node arrays
  (h·W + b three times, |h·WB + bB|^p once); the three gathers by endpoint, which are plain gathers because every
  endpoint index is a row number; the second pallas_call's edge message, gate power and gated message; the two
  scatter-sums, which are non-negative because their terms are; the third pallas_call's combination, whose power is
  the exponential of a scaled logarithm of a non-negative ratio; the node statistics and the fourth pallas_call; the
  edge statistics and the fifth. Between the stages each buffer is carried unchanged across the stretches and regions
  that do not write it.
-/
import proofs.«402615_j67370857005182_3_alg».proof.Proof.Gen.KernelIdeal.Frame
import proofs.«402615_j67370857005182_3_alg».proof.Proof.Spec
import proofs.«402615_j67370857005182_3_alg».proof.Proof.Laws
import proofs.«402615_j67370857005182_3_alg».proof.Proof.Keep
import proofs.«402615_j67370857005182_3_alg».proof.Proof.ChainHost
import proofs.«402615_j67370857005182_3_alg».proof.Proof.ChainHostVar
import proofs.«402615_j67370857005182_3_alg».proof.Proof.Region0
import proofs.«402615_j67370857005182_3_alg».proof.Proof.Region1
import proofs.«402615_j67370857005182_3_alg».proof.Proof.Region2
import proofs.«402615_j67370857005182_3_alg».proof.Proof.Region3
import proofs.«402615_j67370857005182_3_alg».proof.Proof.Region4

set_option maxRecDepth 16384

noncomputable section

namespace Cert.KernelIdeal.Chain

open Cert.KernelIdeal Cert.KernelIdeal.Gen Cert.KernelIdeal.Keep Cert.KernelIdeal.HostRead
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

/-! ## The named stage values -/

abbrev pV : Gnn.SD.Idx → EReal := Gnn.clipP (F := Ideal) (arg m c main_arg14)
abbrev qV : Gnn.SD.Idx → EReal := Gnn.recip (F := Ideal) (pV m c)
abbrev AhV : Gnn.SN.Idx → EReal := Gnn.lin (F := Ideal) (arg m c main_arg0) (arg m c main_arg4) (arg m c main_arg5)
abbrev BhV : Gnn.SN.Idx → EReal := Gnn.lin (F := Ideal) (arg m c main_arg0) (arg m c main_arg6) (arg m c main_arg7)
abbrev DhV : Gnn.SN.Idx → EReal := Gnn.lin (F := Ideal) (arg m c main_arg0) (arg m c main_arg10) (arg m c main_arg11)
abbrev EhV : Gnn.SN.Idx → EReal := Gnn.lin (F := Ideal) (arg m c main_arg0) (arg m c main_arg12) (arg m c main_arg13)
abbrev BpV : Gnn.SN.Idx → EReal := Gnn.powN (F := Ideal) (BhV m c) (pV m c)
abbrev eMsgV : Gnn.SE.Idx → EReal :=
  Gnn.edgeMsg (F := Ideal) (Gnn.gath (F := Ideal) (DhV m c) (arg m c main_arg2)) (Gnn.gath (F := Ideal) (EhV m c) (arg m c main_arg3))
    (Gnn.linE (F := Ideal) (arg m c main_arg1) (arg m c main_arg8) (arg m c main_arg9))
abbrev sigPowV : Gnn.SE.Idx → EReal := Gnn.powE (F := Ideal) (Gnn.sigm (F := Ideal) (eMsgV m c)) (pV m c)
abbrev gatedV : Gnn.SE.Idx → EReal :=
  Gnn.gateMul (F := Ideal) (Gnn.gath (F := Ideal) (BpV m c) (arg m c main_arg2)) (sigPowV m c)
abbrev sshV : Gnn.SN.Idx → EReal := Gnn.scat (F := Ideal) (arg m c main_arg3) (gatedV m c)
abbrev ssV : Gnn.SN.Idx → EReal := Gnn.scat (F := Ideal) (arg m c main_arg3) (sigPowV m c)
abbrev hPreV : Gnn.SN.Idx → EReal := Gnn.combine (F := Ideal) (AhV m c) (sshV m c) (ssV m c) (qV m c)

/-! ## Region 0's entry (boundary 3): the arguments, the exponent, its reciprocal -/

theorem W0_arg (r : Ref sig .tc) : W0 m ρ c (Proc.devRef .tc r) = arg m c r := rfl

/-- An argument no host stretch writes is as launched at region 0's entry. -/
theorem W3_arg (r : Ref sig .tc) (h0 : r ∉ wr0) (h1 : r ∉ wr0_1) (h2 : r ∉ wr0_2) :
    W3 m ρ c (Proc.devRef .tc r) = arg m c r :=
  (keep0_2 _ r h2).trans ((keep0_1 _ r h1).trans ((keep0 _ r h0).trans (W0_arg m ρ c r)))

theorem W2_p : (W2 m ρ c (Proc.devRef .tc main_v0) : Gnn.SD.Idx → EReal) = pV m c :=
  clip_read (W0 m ρ c)

theorem W3_p : (W3 m ρ c (Proc.devRef .tc main_v0) : Gnn.SD.Idx → EReal) = pV m c :=
  (keep0_2 _ main_v0 (by decide)).trans (W2_p m ρ c)

theorem W3_q : (W3 m ρ c (Proc.devRef .tc main_v2) : Gnn.SD.Idx → EReal) = qV m c := by
  refine (recip_read (W2 m ρ c)).trans ?_
  rw [W2_p]

/-! ## Carrying a buffer across a region or a group of stretches that does not write it -/

theorem carryR0 (r : Ref sig .tc) (h : ∀ w, Pipeline.arrRef spec0 w ≠ r) :
    W4 m ρ c (Proc.devRef .tc r) = W3 m ρ c (Proc.devRef .tc r) := W4_of_ne m ρ c r h
theorem carry1 (r : Ref sig .tc) (h1 : r ∉ wr1) (h2 : r ∉ wr1_1) (h3 : r ∉ wr1_2) :
    W7 m ρ c (Proc.devRef .tc r) = W4 m ρ c (Proc.devRef .tc r) :=
  (keep1_2 _ r h3).trans ((keep1_1 _ r h2).trans (keep1 _ r h1))
theorem carryR1 (r : Ref sig .tc) (h : ∀ w, Pipeline.arrRef spec1 w ≠ r) :
    W8 m ρ c (Proc.devRef .tc r) = W7 m ρ c (Proc.devRef .tc r) := W8_of_ne m ρ c r h
theorem carry2 (r : Ref sig .tc) (h : r ∉ wr2) :
    W9 m ρ c (Proc.devRef .tc r) = W8 m ρ c (Proc.devRef .tc r) := keep2 _ r h
theorem carryR2 (r : Ref sig .tc) (h : ∀ w, Pipeline.arrRef spec2 w ≠ r) :
    W10 m ρ c (Proc.devRef .tc r) = W9 m ρ c (Proc.devRef .tc r) := W10_of_ne m ρ c r h
theorem carry3 (r : Ref sig .tc) (h1 : r ∉ wr3) (h2 : r ∉ wr3_1) :
    W12 m ρ c (Proc.devRef .tc r) = W10 m ρ c (Proc.devRef .tc r) :=
  (keep3_1 _ r h2).trans (keep3 _ r h1)
theorem carryR3 (r : Ref sig .tc) (h : ∀ w, Pipeline.arrRef spec3 w ≠ r) :
    W13 m ρ c (Proc.devRef .tc r) = W12 m ρ c (Proc.devRef .tc r) := W13_of_ne m ρ c r h
theorem carry4 (r : Ref sig .tc) (h1 : r ∉ wr4) (h2 : r ∉ wr4_1) :
    W15 m ρ c (Proc.devRef .tc r) = W13 m ρ c (Proc.devRef .tc r) :=
  (keep4_1 _ r h2).trans (keep4 _ r h1)
theorem carryR4 (r : Ref sig .tc) (h : ∀ w, Pipeline.arrRef spec4 w ≠ r) :
    W16 m ρ c (Proc.devRef .tc r) = W15 m ρ c (Proc.devRef .tc r) := W16_of_ne m ρ c r h

/-! ## Region 0's exit (boundary 4): the four node arrays -/

theorem V3_arg0 : V3 m ρ c (Pipeline.arrRef spec0 0) = arg m c main_arg0 := W3_arg m ρ c main_arg0 (by decide) (by decide) (by decide)

theorem W4_Ah : (W4 m ρ c (Proc.devRef .tc main_v3_0) : Gnn.SN.Idx → EReal) = AhV m c := by
  refine (W4_arr m ρ c 10).trans ((Region0.arr_Ah (V3 m ρ) c).trans ?_)
  rw [V3_arg0 m ρ c,
    show V3 m ρ c (Pipeline.arrRef spec0 1) = arg m c main_arg4 from W3_arg m ρ c main_arg4 (by decide) (by decide) (by decide),
    show V3 m ρ c (Pipeline.arrRef spec0 2) = arg m c main_arg5 from W3_arg m ρ c main_arg5 (by decide) (by decide) (by decide)]

theorem W4_Dh : (W4 m ρ c (Proc.devRef .tc main_v3_2) : Gnn.SN.Idx → EReal) = DhV m c := by
  refine (W4_arr m ρ c 12).trans ((Region0.arr_Dh (V3 m ρ) c).trans ?_)
  rw [V3_arg0 m ρ c,
    show V3 m ρ c (Pipeline.arrRef spec0 5) = arg m c main_arg10 from W3_arg m ρ c main_arg10 (by decide) (by decide) (by decide),
    show V3 m ρ c (Pipeline.arrRef spec0 6) = arg m c main_arg11 from W3_arg m ρ c main_arg11 (by decide) (by decide) (by decide)]

theorem W4_Eh : (W4 m ρ c (Proc.devRef .tc main_v3_3) : Gnn.SN.Idx → EReal) = EhV m c := by
  refine (W4_arr m ρ c 13).trans ((Region0.arr_Eh (V3 m ρ) c).trans ?_)
  rw [V3_arg0 m ρ c,
    show V3 m ρ c (Pipeline.arrRef spec0 7) = arg m c main_arg12 from W3_arg m ρ c main_arg12 (by decide) (by decide) (by decide),
    show V3 m ρ c (Pipeline.arrRef spec0 8) = arg m c main_arg13 from W3_arg m ρ c main_arg13 (by decide) (by decide) (by decide)]

theorem V3_p : V3 m ρ c (Pipeline.arrRef spec0 9) = pV m c := W3_p m ρ c

theorem pV_range : Gnn.PRange (pV m c) := Gnn.clipP_range _

theorem W4_Bp : (W4 m ρ c (Proc.devRef .tc main_v3_1) : Gnn.SN.Idx → EReal) = BpV m c := by
  have hp : Gnn.PRange (V3 m ρ c (Pipeline.arrRef spec0 9)) := by rw [V3_p m ρ c]; exact pV_range m c
  refine (W4_arr m ρ c 11).trans ((Region0.arr_Bhpow (V3 m ρ) c hp).trans ?_)
  rw [V3_arg0 m ρ c, V3_p m ρ c,
    show V3 m ρ c (Pipeline.arrRef spec0 3) = arg m c main_arg6 from W3_arg m ρ c main_arg6 (by decide) (by decide) (by decide),
    show V3 m ρ c (Pipeline.arrRef spec0 4) = arg m c main_arg7 from W3_arg m ρ c main_arg7 (by decide) (by decide) (by decide)]

/-- The exponent is an input window of region 0: it leaves the region as it entered. -/
theorem W4_p : (W4 m ρ c (Proc.devRef .tc main_v0) : Gnn.SD.Idx → EReal) = pV m c :=
  ((W4_arr m ρ c 9).trans (((dat0 (V3 m ρ) c).arrAt_in 9 rfl _).trans (A_eq0 (V3 m ρ) c 9))).trans (V3_p m ρ c)

/-- An argument region 0 does not stage is as launched at its exit. -/
theorem W4_arg (r : Ref sig .tc) (h0 : r ∉ wr0) (h1 : r ∉ wr0_1) (h2 : r ∉ wr0_2) (h : ∀ w, Pipeline.arrRef spec0 w ≠ r) :
    W4 m ρ c (Proc.devRef .tc r) = arg m c r :=
  (carryR0 m ρ c r h).trans (W3_arg m ρ c r h0 h1 h2)
/-- h itself is staged by region 0's first window and never written back. -/
theorem W4_arg0 : W4 m ρ c (Proc.devRef .tc main_arg0) = arg m c main_arg0 :=
  ((W4_arr m ρ c 0).trans (((dat0 (V3 m ρ) c).arrAt_in 0 rfl _).trans (A_eq0 (V3 m ρ) c 0))).trans (V3_arg0 m ρ c)

/-! ## The three gathers by endpoint (boundaries 5, 6, 7) -/

theorem W4_src : W4 m ρ c (Proc.devRef .tc main_arg2) = arg m c main_arg2 := W4_arg m ρ c main_arg2 (by decide) (by decide) (by decide) (by decide)
theorem W4_dst : W4 m ρ c (Proc.devRef .tc main_arg3) = arg m c main_arg3 := W4_arg m ρ c main_arg3 (by decide) (by decide) (by decide) (by decide)

section Endpoints

variable (hs : Gnn.IdxOk (arg m c main_arg2)) (hd : Gnn.IdxOk (arg m c main_arg3))

include hs in
theorem W5_DhS : (W5 m ρ c (Proc.devRef .tc main_v4) : Gnn.SE.Idx → EReal)
    = Gnn.gath (F := Ideal) (DhV m c) (arg m c main_arg2) := by
  refine (take1_read (W4 m ρ c)).trans ?_
  rw [W4_Dh m ρ c, W4_src m ρ c]
  exact Gnn.takeF_eq_gath _ _ hs

include hd in
theorem W6_EhD : (W6 m ρ c (Proc.devRef .tc main_v5) : Gnn.SE.Idx → EReal)
    = Gnn.gath (F := Ideal) (EhV m c) (arg m c main_arg3) := by
  refine (take2_read (W5 m ρ c)).trans ?_
  rw [show W5 m ρ c (Proc.devRef .tc main_v3_3) = EhV m c from (keep1 _ main_v3_3 (by decide)).trans (W4_Eh m ρ c),
    show W5 m ρ c (Proc.devRef .tc main_arg3) = arg m c main_arg3 from (keep1 _ main_arg3 (by decide)).trans (W4_dst m ρ c)]
  exact Gnn.takeF_eq_gath _ _ hd

include hs in
theorem W7_BpS : (W7 m ρ c (Proc.devRef .tc main_v6) : Gnn.SE.Idx → EReal)
    = Gnn.gath (F := Ideal) (BpV m c) (arg m c main_arg2) := by
  refine (take3_read (W6 m ρ c)).trans ?_
  rw [show W6 m ρ c (Proc.devRef .tc main_v3_1) = BpV m c from
      (keep1_1 _ main_v3_1 (by decide)).trans ((keep1 _ main_v3_1 (by decide)).trans (W4_Bp m ρ c)),
    show W6 m ρ c (Proc.devRef .tc main_arg2) = arg m c main_arg2 from
      (keep1_1 _ main_arg2 (by decide)).trans ((keep1 _ main_arg2 (by decide)).trans (W4_src m ρ c))]
  exact Gnn.takeF_eq_gath _ _ hs

/-! ## Region 1 (boundaries 7 and 8): the edge message, the gate power, the gated message -/

include hs in
theorem V7_0 : V7 m ρ c (Pipeline.arrRef spec1 0) = Gnn.gath (F := Ideal) (DhV m c) (arg m c main_arg2) :=
  (keep1_2 _ main_v4 (by decide)).trans ((keep1_1 _ main_v4 (by decide)).trans (W5_DhS m ρ c hs))
include hd in
theorem V7_1 : V7 m ρ c (Pipeline.arrRef spec1 1) = Gnn.gath (F := Ideal) (EhV m c) (arg m c main_arg3) :=
  (keep1_2 _ main_v5 (by decide)).trans (W6_EhD m ρ c hd)
include hs in
theorem V7_2 : V7 m ρ c (Pipeline.arrRef spec1 2) = Gnn.gath (F := Ideal) (BpV m c) (arg m c main_arg2) :=
  W7_BpS m ρ c hs
theorem V7_3 : V7 m ρ c (Pipeline.arrRef spec1 3) = arg m c main_arg1 :=
  (carry1 m ρ c main_arg1 (by decide) (by decide) (by decide)).trans (W4_arg m ρ c main_arg1 (by decide) (by decide) (by decide) (by decide))
theorem V7_4 : V7 m ρ c (Pipeline.arrRef spec1 4) = arg m c main_arg8 :=
  (carry1 m ρ c main_arg8 (by decide) (by decide) (by decide)).trans (W4_arg m ρ c main_arg8 (by decide) (by decide) (by decide) (by decide))
theorem V7_5 : V7 m ρ c (Pipeline.arrRef spec1 5) = arg m c main_arg9 :=
  (carry1 m ρ c main_arg9 (by decide) (by decide) (by decide)).trans (W4_arg m ρ c main_arg9 (by decide) (by decide) (by decide) (by decide))
theorem V7_6 : V7 m ρ c (Pipeline.arrRef spec1 6) = pV m c :=
  (carry1 m ρ c main_v0 (by decide) (by decide) (by decide)).trans (W4_p m ρ c)

include hs hd in
theorem W8_eMsg : (W8 m ρ c (Proc.devRef .tc main_v7_0) : Gnn.SE.Idx → EReal) = eMsgV m c := by
  refine (W8_arr m ρ c 7).trans ((Region1.arr_eout (V7 m ρ) c).trans ?_)
  rw [V7_0 m ρ c hs, V7_1 m ρ c hd, V7_3 m ρ c, V7_4 m ρ c, V7_5 m ρ c]

include hs hd in
theorem W8_sigPow : (W8 m ρ c (Proc.devRef .tc main_v7_2) : Gnn.SE.Idx → EReal) = sigPowV m c := by
  have hp : Gnn.PRange (V7 m ρ c (Pipeline.arrRef spec1 6)) := by rw [V7_6 m ρ c]; exact pV_range m c
  refine (W8_arr m ρ c 9).trans ((Region1.arr_sigpow (V7 m ρ) c hp).trans ?_)
  rw [V7_0 m ρ c hs, V7_1 m ρ c hd, V7_3 m ρ c, V7_4 m ρ c, V7_5 m ρ c, V7_6 m ρ c]

include hs hd in
theorem W8_gated : (W8 m ρ c (Proc.devRef .tc main_v7_1) : Gnn.SE.Idx → EReal) = gatedV m c := by
  have hp : Gnn.PRange (V7 m ρ c (Pipeline.arrRef spec1 6)) := by rw [V7_6 m ρ c]; exact pV_range m c
  refine (W8_arr m ρ c 8).trans ((Region1.arr_gated (V7 m ρ) c hp).trans ?_)
  rw [V7_0 m ρ c hs, V7_1 m ρ c hd, V7_2 m ρ c hs, V7_3 m ρ c, V7_4 m ρ c, V7_5 m ρ c, V7_6 m ρ c]

/-! ## The scatter-sums (boundary 9) and region 2 (boundary 10): the node features before normalisation -/

theorem W8_dst : W8 m ρ c (Proc.devRef .tc main_arg3) = arg m c main_arg3 :=
  (carryR1 m ρ c main_arg3 (by decide)).trans ((carry1 m ρ c main_arg3 (by decide) (by decide) (by decide)).trans (W4_dst m ρ c))

include hs hd in
theorem V9_1 : V9 m ρ c (Pipeline.arrRef spec2 1) = sshV m c := by
  refine (scat1_read (W8 m ρ c)).trans ?_
  rw [W8_dst m ρ c, W8_gated m ρ c hs hd]
include hs hd in
theorem V9_2 : V9 m ρ c (Pipeline.arrRef spec2 2) = ssV m c := by
  refine (scat2_read (W8 m ρ c)).trans ?_
  rw [W8_dst m ρ c, W8_sigPow m ρ c hs hd]
theorem V9_0 : V9 m ρ c (Pipeline.arrRef spec2 0) = AhV m c :=
  (carry2 m ρ c main_v3_0 (by decide)).trans ((carryR1 m ρ c main_v3_0 (by decide)).trans
    ((carry1 m ρ c main_v3_0 (by decide) (by decide) (by decide)).trans (W4_Ah m ρ c)))
theorem V9_3 : V9 m ρ c (Pipeline.arrRef spec2 3) = qV m c :=
  (carry2 m ρ c main_v2 (by decide)).trans ((carryR1 m ρ c main_v2 (by decide)).trans
    ((carry1 m ρ c main_v2 (by decide) (by decide) (by decide)).trans ((carryR0 m ρ c main_v2 (by decide)).trans (W3_q m ρ c))))

theorem sigPowV_nonneg : Gnn.NonNeg (s := Gnn.SE) (sigPowV m c) := Gnn.powE_nonneg _ _ (pV_range m c)
theorem gatedV_nonneg : Gnn.NonNeg (s := Gnn.SE) (gatedV m c) :=
  Gnn.mulf_nonneg _ _ (Gnn.gath_nonneg _ _ (Gnn.powN_nonneg _ _ (pV_range m c))) (sigPowV_nonneg m c)

include hs hd in
theorem W10_hPre : (W10 m ρ c (Proc.devRef .tc main_v14) : Gnn.SN.Idx → EReal) = hPreV m c := by
  have hq : Gnn.QRange (V9 m ρ c (Pipeline.arrRef spec2 3)) := by
    rw [V9_3 m ρ c]; exact Gnn.recip_range _ (pV_range m c)
  have h1 : Gnn.NonNeg (s := Gnn.SN) (V9 m ρ c (Pipeline.arrRef spec2 1)) := by
    rw [V9_1 m ρ c hs hd]; exact Gnn.scat_nonneg _ _ (gatedV_nonneg m c)
  have h2 : Gnn.NonNeg (s := Gnn.SN) (V9 m ρ c (Pipeline.arrRef spec2 2)) := by
    rw [V9_2 m ρ c hs hd]; exact Gnn.scat_nonneg _ _ (sigPowV_nonneg m c)
  refine (W10_arr m ρ c 4).trans ((Region2.arr_hpre (V9 m ρ) c hq h1 h2).trans ?_)
  rw [V9_0 m ρ c, V9_1 m ρ c hs hd, V9_2 m ρ c hs hd, V9_3 m ρ c]

end Endpoints

/-! ## The node statistics (boundaries 11, 12), region 3 (13), and the node result carried to the end (16) -/

section Results

variable (hs : Gnn.IdxOk (arg m c main_arg2)) (hd : Gnn.IdxOk (arg m c main_arg3))

include hs hd in
theorem W11_meanH : (W11 m ρ c (Proc.devRef .tc main_v17) : Gnn.SD.Idx → EReal) = Gnn.meanN (F := Ideal) (hPreV m c) := by
  refine (meanN_read (W10 m ρ c)).trans ?_
  rw [W10_hPre m ρ c hs hd]

include hs hd in
theorem W12_varH : (W12 m ρ c (Proc.devRef .tc main_v18) : Gnn.SD.Idx → EReal) = Gnn.varN (F := Ideal) (hPreV m c) := by
  refine (varN_read (W11 m ρ c) (c_read (W10 m ρ c))).trans ?_
  rw [show W11 m ρ c (Proc.devRef .tc main_v14) = hPreV m c from (keep3 _ main_v14 (by decide)).trans (W10_hPre m ρ c hs hd)]

include hs hd in
theorem V12_0 : V12 m ρ c (Pipeline.arrRef spec3 0) = hPreV m c :=
  (carry3 m ρ c main_v14 (by decide) (by decide)).trans (W10_hPre m ρ c hs hd)
include hs hd in
theorem V12_1 : V12 m ρ c (Pipeline.arrRef spec3 1) = Gnn.meanN (F := Ideal) (hPreV m c) :=
  (keep3_1 _ main_v17 (by decide)).trans (W11_meanH m ρ c hs hd)
include hs hd in
theorem V12_2 : V12 m ρ c (Pipeline.arrRef spec3 2) = Gnn.varN (F := Ideal) (hPreV m c) := W12_varH m ρ c hs hd

/-- An argument no region before the fourth stages, at that region's entry. -/
theorem W12_arg (r : Ref sig .tc) (h0 : r ∉ wr0) (h1 : r ∉ wr0_1) (h2 : r ∉ wr0_2) (hR0 : ∀ w, Pipeline.arrRef spec0 w ≠ r)
    (h3 : r ∉ wr1) (h4 : r ∉ wr1_1) (h5 : r ∉ wr1_2) (hR1 : ∀ w, Pipeline.arrRef spec1 w ≠ r) (h6 : r ∉ wr2)
    (hR2 : ∀ w, Pipeline.arrRef spec2 w ≠ r) (h7 : r ∉ wr3) (h8 : r ∉ wr3_1) :
    W12 m ρ c (Proc.devRef .tc r) = arg m c r :=
  (carry3 m ρ c r h7 h8).trans ((carryR2 m ρ c r hR2).trans ((carry2 m ρ c r h6).trans ((carryR1 m ρ c r hR1).trans
    ((carry1 m ρ c r h3 h4 h5).trans (W4_arg m ρ c r h0 h1 h2 hR0)))))
theorem V12_3 : V12 m ρ c (Pipeline.arrRef spec3 3) = arg m c main_arg15 :=
  W12_arg m ρ c main_arg15 (by decide) (by decide) (by decide) (by decide) (by decide) (by decide) (by decide) (by decide) (by decide) (by decide) (by decide) (by decide)
theorem V12_4 : V12 m ρ c (Pipeline.arrRef spec3 4) = arg m c main_arg16 :=
  W12_arg m ρ c main_arg16 (by decide) (by decide) (by decide) (by decide) (by decide) (by decide) (by decide) (by decide) (by decide) (by decide) (by decide) (by decide)
theorem V12_5 : V12 m ρ c (Pipeline.arrRef spec3 5) = arg m c main_arg0 :=
  (carry3 m ρ c main_arg0 (by decide) (by decide)).trans ((carryR2 m ρ c main_arg0 (by decide)).trans ((carry2 m ρ c main_arg0 (by decide)).trans
    ((carryR1 m ρ c main_arg0 (by decide)).trans ((carry1 m ρ c main_arg0 (by decide) (by decide) (by decide)).trans (W4_arg0 m ρ c)))))

include hs hd in
/-- THE NODE RESULT: what the last boundary holds at the first result buffer is the layer's node output. -/
theorem W16_hOut : (W16 m ρ c (Proc.devRef .tc main_v19) : Gnn.SN.Idx → EReal)
    = Gnn.hOut (F := Ideal) (arg m c main_arg0) (arg m c main_arg1) (arg m c main_arg2) (arg m c main_arg3)
        (arg m c main_arg4) (arg m c main_arg5) (arg m c main_arg6) (arg m c main_arg7) (arg m c main_arg8) (arg m c main_arg9)
        (arg m c main_arg10) (arg m c main_arg11) (arg m c main_arg12) (arg m c main_arg13) (arg m c main_arg14)
        (arg m c main_arg15) (arg m c main_arg16) := by
  refine (carryR4 m ρ c main_v19 (by decide)).trans ((carry4 m ρ c main_v19 (by decide) (by decide)).trans ?_)
  refine (W13_arr m ρ c 6).trans ((Region3.arr_hout (V12 m ρ) c).trans ?_)
  rw [V12_0 m ρ c hs hd, V12_1 m ρ c hs hd, V12_2 m ρ c hs hd, V12_3 m ρ c, V12_4 m ρ c, V12_5 m ρ c]
  rfl

/-! ## The edge statistics (boundaries 14, 15), region 4 (16): the edge result -/

include hs hd in
theorem W13_eMsg : (W13 m ρ c (Proc.devRef .tc main_v7_0) : Gnn.SE.Idx → EReal) = eMsgV m c :=
  (carryR3 m ρ c main_v7_0 (by decide)).trans ((carry3 m ρ c main_v7_0 (by decide) (by decide)).trans ((carryR2 m ρ c main_v7_0 (by decide)).trans
    ((carry2 m ρ c main_v7_0 (by decide)).trans (W8_eMsg m ρ c hs hd))))

include hs hd in
theorem W14_meanE : (W14 m ρ c (Proc.devRef .tc main_v22) : Gnn.SD.Idx → EReal) = Gnn.meanE (F := Ideal) (eMsgV m c) := by
  refine (meanE_read (W13 m ρ c)).trans ?_
  rw [W13_eMsg m ρ c hs hd]

include hs hd in
theorem W15_varE : (W15 m ρ c (Proc.devRef .tc main_v23) : Gnn.SD.Idx → EReal) = Gnn.varE (F := Ideal) (eMsgV m c) := by
  refine (varE_read (W14 m ρ c) (c8_read (W13 m ρ c))).trans ?_
  rw [show W14 m ρ c (Proc.devRef .tc main_v7_0) = eMsgV m c from (keep4 _ main_v7_0 (by decide)).trans (W13_eMsg m ρ c hs hd)]

include hs hd in
theorem V15_0 : V15 m ρ c (Pipeline.arrRef spec4 0) = eMsgV m c :=
  (carry4 m ρ c main_v7_0 (by decide) (by decide)).trans (W13_eMsg m ρ c hs hd)
include hs hd in
theorem V15_1 : V15 m ρ c (Pipeline.arrRef spec4 1) = Gnn.meanE (F := Ideal) (eMsgV m c) :=
  (keep4_1 _ main_v22 (by decide)).trans (W14_meanE m ρ c hs hd)
include hs hd in
theorem V15_2 : V15 m ρ c (Pipeline.arrRef spec4 2) = Gnn.varE (F := Ideal) (eMsgV m c) := W15_varE m ρ c hs hd

/-- An argument no region before the fifth stages, at that region's entry. -/
theorem W15_arg (r : Ref sig .tc) (h0 : r ∉ wr0) (h1 : r ∉ wr0_1) (h2 : r ∉ wr0_2) (hR0 : ∀ w, Pipeline.arrRef spec0 w ≠ r)
    (h3 : r ∉ wr1) (h4 : r ∉ wr1_1) (h5 : r ∉ wr1_2) (hR1 : ∀ w, Pipeline.arrRef spec1 w ≠ r) (h6 : r ∉ wr2)
    (hR2 : ∀ w, Pipeline.arrRef spec2 w ≠ r) (h7 : r ∉ wr3) (h8 : r ∉ wr3_1) (hR3 : ∀ w, Pipeline.arrRef spec3 w ≠ r)
    (h9 : r ∉ wr4) (h10 : r ∉ wr4_1) :
    W15 m ρ c (Proc.devRef .tc r) = arg m c r :=
  (carry4 m ρ c r h9 h10).trans ((carryR3 m ρ c r hR3).trans
    (W12_arg m ρ c r h0 h1 h2 hR0 h3 h4 h5 hR1 h6 hR2 h7 h8))
theorem V15_3 : V15 m ρ c (Pipeline.arrRef spec4 3) = arg m c main_arg17 :=
  W15_arg m ρ c main_arg17 (by decide) (by decide) (by decide) (by decide) (by decide) (by decide) (by decide) (by decide) (by decide) (by decide) (by decide) (by decide) (by decide) (by decide) (by decide)
theorem V15_4 : V15 m ρ c (Pipeline.arrRef spec4 4) = arg m c main_arg18 :=
  W15_arg m ρ c main_arg18 (by decide) (by decide) (by decide) (by decide) (by decide) (by decide) (by decide) (by decide) (by decide) (by decide) (by decide) (by decide) (by decide) (by decide) (by decide)
/-- e is staged by region 1's fourth window and never written back. -/
theorem W8_arg1 : W8 m ρ c (Proc.devRef .tc main_arg1) = arg m c main_arg1 :=
  ((W8_arr m ρ c 3).trans (((dat1 (V7 m ρ) c).arrAt_in 3 rfl _).trans (A_eq1 (V7 m ρ) c 3))).trans (V7_3 m ρ c)
theorem V15_5 : V15 m ρ c (Pipeline.arrRef spec4 5) = arg m c main_arg1 :=
  (carry4 m ρ c main_arg1 (by decide) (by decide)).trans ((carryR3 m ρ c main_arg1 (by decide)).trans ((carry3 m ρ c main_arg1 (by decide) (by decide)).trans
    ((carryR2 m ρ c main_arg1 (by decide)).trans ((carry2 m ρ c main_arg1 (by decide)).trans (W8_arg1 m ρ c)))))

include hs hd in
/-- THE EDGE RESULT: what the last boundary holds at the second result buffer is the layer's edge output. -/
theorem W16_eOut : (W16 m ρ c (Proc.devRef .tc main_v24) : Gnn.SE.Idx → EReal)
    = Gnn.eOut (F := Ideal) (arg m c main_arg0) (arg m c main_arg1) (arg m c main_arg2) (arg m c main_arg3)
        (arg m c main_arg8) (arg m c main_arg9) (arg m c main_arg10) (arg m c main_arg11) (arg m c main_arg12) (arg m c main_arg13)
        (arg m c main_arg17) (arg m c main_arg18) := by
  refine (W16_arr m ρ c 6).trans ((Region4.arr_eout (V15 m ρ) c).trans ?_)
  rw [V15_0 m ρ c hs hd, V15_1 m ρ c hs hd, V15_2 m ρ c hs hd, V15_3 m ρ c, V15_4 m ρ c, V15_5 m ρ c]
  rfl

end Results

end Cert.KernelIdeal.Chain

end
-- ==== Proof.RefRunOps.lean ====
/-
  The reference's @main as a list of host operations, cut into consecutive stretches that each compute one stage of the
  layer: the exponent's clip, the five linear maps, the two endpoint gathers, the edge message, its gate, the powers, the
  gated gather, the two scatter-sums, the p-norm combination, the node statistics and normalisation, the edge statistics
  and normalisation, the two rectified residuals. The clip, the two variances and the two relus are written out where
  they are called, over the call's own buffers. @main is that line; it touches only the TensorCore's buffers and
  determines every result.
-/
import proofs.«402615_j67370857005182_3_alg».proof.ReferenceIdeal
import proofs.«402615_j67370857005182_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

local notation "dotN'" => dot_S50000x64_S64x64_S50000x64_1_0_0_1_n_n
local notation "dotE'" => dot_S800000x64_S64x64_S800000x64_1_0_0_1_n_n
local notation "gat'" => gather_S50000x64_S800000x1_S800000x64_1_0_n_n_0_1_164
local notation "sca'" => scatter_S50000x64_S800000x1_S800000x64_1_0_0_1
local notation "redN'" => reducesTo_S50000x64_S64_d0
local notation "redE'" => reducesTo_S800000x64_S64_d0
local notation "bDR'" => bcast_S64_S1x64_1
local notation "bRN'" => bcast_S1x64_S50000x64_0_1
local notation "bRE'" => bcast_S1x64_S800000x64_0_1
local notation "bII1'" => bcast_S800000_S800000x1_0

/-! ## The stretches of @main's statements 1 … 60 -/

/-- p = min(100, max(1, P)): the two bounds, then the clip's six operations over its call's buffers. -/
abbrev s01 : List (HloOp τ sig (Elt F)) :=
  [ nullary main_cst (constant S_ .f32 0x3F800000#32),
    nullary main_cst_0 (constant S_ .f32 0x42C80000#32),
    TRef.unary (.of main_cst : TRef sig ⟨S_, .f32⟩) main_call0.v0 id,
    TRef.unary main_call0.v0 main_call0.v1 (broadcastInDim S64 ![] bcast_S_S64),
    TRef.binary main_call0.v1 (.of main_arg14 : TRef sig ⟨S64, .f32⟩) main_call0.v2 maximumf,
    TRef.unary (.of main_cst_0 : TRef sig ⟨S_, .f32⟩) main_call0.v3 id,
    TRef.unary main_call0.v3 main_call0.v4 (broadcastInDim S64 ![] bcast_S_S64),
    TRef.binary main_call0.v4 main_call0.v2 main_call0.v5 minimumf ]

/-- Ah = h·WA + bA. -/
abbrev s02 : List (HloOp τ sig (Elt F)) :=
  [ binary main_arg0 main_arg4 main_v1 (fun l r => Host.dotGeneral dotN' none l r),
    unary main_arg5 main_v2 (broadcastInDim S1x64 ![1] bDR'),
    unary main_v2 main_v3 (broadcastInDim S50000x64 ![0, 1] bRN'),
    binary main_v1 main_v3 main_v4 addf ]

/-- Bh = h·WB + bB. -/
abbrev s03 : List (HloOp τ sig (Elt F)) :=
  [ binary main_arg0 main_arg6 main_v5 (fun l r => Host.dotGeneral dotN' none l r),
    unary main_arg7 main_v6 (broadcastInDim S1x64 ![1] bDR'),
    unary main_v6 main_v7 (broadcastInDim S50000x64 ![0, 1] bRN'),
    binary main_v5 main_v7 main_v8 addf ]

/-- Dh = h·WD + bD. -/
abbrev s04 : List (HloOp τ sig (Elt F)) :=
  [ binary main_arg0 main_arg10 main_v9 (fun l r => Host.dotGeneral dotN' none l r),
    unary main_arg11 main_v10 (broadcastInDim S1x64 ![1] bDR'),
    unary main_v10 main_v11 (broadcastInDim S50000x64 ![0, 1] bRN'),
    binary main_v9 main_v11 main_v12 addf ]

/-- Eh = h·WE + bE. -/
abbrev s05 : List (HloOp τ sig (Elt F)) :=
  [ binary main_arg0 main_arg12 main_v13 (fun l r => Host.dotGeneral dotN' none l r),
    unary main_arg13 main_v14 (broadcastInDim S1x64 ![1] bDR'),
    unary main_v14 main_v15 (broadcastInDim S50000x64 ![0, 1] bRN'),
    binary main_v13 main_v15 main_v16 addf ]

/-- Ce = e·WC + bC. -/
abbrev s06 : List (HloOp τ sig (Elt F)) :=
  [ binary main_arg1 main_arg8 main_v17 (fun l r => Host.dotGeneral dotE' none l r),
    unary main_arg9 main_v18 (broadcastInDim S1x64 ![1] bDR'),
    unary main_v18 main_v19 (broadcastInDim S800000x64 ![0, 1] bRE'),
    binary main_v17 main_v19 main_v20 addf ]

/-- Dh[src]: the wrapped source index as a column, then the row gather. -/
abbrev s07 : List (HloOp τ sig (Elt F)) :=
  [ nullary main_c (constantI S_ 32 0#32),
    unary main_c main_v21 (broadcastInDim S800000 ![] bcast_S_S800000),
    binary main_arg2 main_v21 main_v22 (cmpi .slt),
    nullary main_c_1 (constantI S_ 32 50000#32),
    unary main_c_1 main_v23 (broadcastInDim S800000 ![] bcast_S_S800000),
    binary main_arg2 main_v23 main_v24 addi,
    ternary main_v22 main_v24 main_arg2 main_v25 select,
    unary main_v25 main_v26 (broadcastInDim S800000x1 ![0] bII1'),
    binary main_v12 main_v26 main_v27 (fun x i => Host.gather gat' x i) ]

/-- Eh[dst]. -/
abbrev s08 : List (HloOp τ sig (Elt F)) :=
  [ nullary main_c_2 (constantI S_ 32 0#32),
    unary main_c_2 main_v28 (broadcastInDim S800000 ![] bcast_S_S800000),
    binary main_arg3 main_v28 main_v29 (cmpi .slt),
    nullary main_c_3 (constantI S_ 32 50000#32),
    unary main_c_3 main_v30 (broadcastInDim S800000 ![] bcast_S_S800000),
    binary main_arg3 main_v30 main_v31 addi,
    ternary main_v29 main_v31 main_arg3 main_v32 select,
    unary main_v32 main_v33 (broadcastInDim S800000x1 ![0] bII1'),
    binary main_v16 main_v33 main_v34 (fun x i => Host.gather gat' x i) ]

/-- The edge message Dh[src] + Eh[dst] + Ce. -/
abbrev s09 : List (HloOp τ sig (Elt F)) :=
  [ binary main_v27 main_v34 main_v35 addf,
    binary main_v35 main_v20 main_v36 addf ]

/-- Its logistic gate 1 / (1 + exp(−x)). -/
abbrev s10 : List (HloOp τ sig (Elt F)) :=
  [ unary main_v36 main_v37 Host.negf,
    unary main_v37 main_v38 Host.exp,
    nullary main_cst_4 (constant S_ .f32 0x3F800000#32),
    unary main_cst_4 main_v39 (broadcastInDim S800000x64 ![] bcast_S_S800000x64),
    binary main_v39 main_v38 main_v40 addf,
    nullary main_cst_5 (constant S_ .f32 0x3F800000#32),
    unary main_cst_5 main_v41 (broadcastInDim S800000x64 ![] bcast_S_S800000x64),
    binary main_v41 main_v40 main_v42 Host.divf ]

/-- |Bh|^p. -/
abbrev s11 : List (HloOp τ sig (Elt F)) :=
  [ unary main_v8 main_v43 Host.absf,
    unary main_v0 main_v44 (broadcastInDim S1x64 ![1] bDR'),
    unary main_v44 main_v45 (broadcastInDim S50000x64 ![0, 1] bRN'),
    binary main_v43 main_v45 main_v46 Host.powf ]

/-- σ^p. -/
abbrev s12 : List (HloOp τ sig (Elt F)) :=
  [ unary main_v42 main_v47 Host.absf,
    unary main_v0 main_v48 (broadcastInDim S1x64 ![1] bDR'),
    unary main_v48 main_v49 (broadcastInDim S800000x64 ![0, 1] bRE'),
    binary main_v47 main_v49 main_v50 Host.powf ]

/-- The zero the next wrap compares against. -/
abbrev s13 : List (HloOp τ sig (Elt F)) :=
  [ nullary main_c_6 (constantI S_ 32 0#32) ]

/-! ## The stretches of @main's statements 61 … 120 -/

/-- The gated message |Bh|^p[src] · σ^p: the wrap again (against the zero already written), the gather, the product. -/
abbrev s14 : List (HloOp τ sig (Elt F)) :=
  [ unary main_c_6 main_v51 (broadcastInDim S800000 ![] bcast_S_S800000),
    binary main_arg2 main_v51 main_v52 (cmpi .slt),
    nullary main_c_7 (constantI S_ 32 50000#32),
    unary main_c_7 main_v53 (broadcastInDim S800000 ![] bcast_S_S800000),
    binary main_arg2 main_v53 main_v54 addi,
    ternary main_v52 main_v54 main_arg2 main_v55 select,
    unary main_v55 main_v56 (broadcastInDim S800000x1 ![0] bII1'),
    binary main_v46 main_v56 main_v57 (fun x i => Host.gather gat' x i),
    binary main_v57 main_v50 main_v58 mulf ]

/-- Σ over incoming edges of the gated message. -/
abbrev s15 : List (HloOp τ sig (Elt F)) :=
  [ nullary main_cst_8 (constant S_ .f32 0x00000000#32),
    unary main_cst_8 main_v59 (broadcastInDim S50000x64 ![] bcast_S_S50000x64),
    unary main_arg3 main_v60 (broadcastInDim S800000x1 ![0] bII1'),
    ternary main_v59 main_v60 main_v58 main_v61 (fun x i u => Host.scatterAdd sca' x i u) ]

/-- Σ over incoming edges of σ^p. -/
abbrev s16 : List (HloOp τ sig (Elt F)) :=
  [ nullary main_cst_9 (constant S_ .f32 0x00000000#32),
    unary main_cst_9 main_v62 (broadcastInDim S50000x64 ![] bcast_S_S50000x64),
    unary main_arg3 main_v63 (broadcastInDim S800000x1 ![0] bII1'),
    ternary main_v62 main_v63 main_v50 main_v64 (fun x i u => Host.scatterAdd sca' x i u) ]

/-- Ah + (Σσh / (Σσ + ε))^(1/p). -/
abbrev s17 : List (HloOp τ sig (Elt F)) :=
  [ nullary main_cst_10 (constant S_ .f32 0x358637BD#32),
    unary main_cst_10 main_v65 (broadcastInDim S50000x64 ![] bcast_S_S50000x64),
    binary main_v64 main_v65 main_v66 addf,
    binary main_v61 main_v66 main_v67 Host.divf,
    nullary main_cst_11 (constant S_ .f32 0x3F800000#32),
    unary main_cst_11 main_v68 (broadcastInDim S64 ![] bcast_S_S64),
    binary main_v68 main_v0 main_v69 Host.divf,
    unary main_v69 main_v70 (broadcastInDim S1x64 ![1] bDR'),
    unary main_v70 main_v71 (broadcastInDim S50000x64 ![0, 1] bRN'),
    binary main_v67 main_v71 main_v72 Host.powf,
    binary main_v4 main_v72 main_v73 addf ]

/-- The node mean over axis 0. -/
abbrev s18 : List (HloOp τ sig (Elt F)) :=
  [ nullary main_cst_12 (constant S_ .f32 0x00000000#32),
    binary main_v73 main_cst_12 main_v74 (fun x v => Host.reduceAdd x v redN' h_S_),
    nullary main_cst_13 (constant S_ .f32 0x47435000#32),
    unary main_cst_13 main_v75 (broadcastInDim S64 ![] bcast_S_S64),
    binary main_v74 main_v75 main_v76 Host.divf ]

/-- The node variance over axis 0: the degrees of freedom, then the variance's nineteen operations and its
    masking select's three, over their calls' buffers. -/
abbrev s19 : List (HloOp τ sig (Elt F)) :=
  [ nullary main_c_14 (constantI S_ 32 0#32),
    TRef.nullary main_call1.cst (constant S_ .f32 0x00000000#32),
    TRef.binary (.of main_v73 : TRef sig ⟨S50000x64, .f32⟩) main_call1.cst main_call1.v0 (fun x v => Host.reduceAdd x v redN' h_S_),
    TRef.unary main_call1.v0 main_call1.v1 (broadcastInDim S1x64 ![1] bDR'),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bRN'),
    TRef.binary (.of main_v73 : TRef sig ⟨S50000x64, .f32⟩) main_call1.v4 main_call1.v5 subf,
    TRef.binary main_call1.v5 main_call1.v5 main_call1.v6 mulf,
    TRef.unary (.of main_c_14 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v redN' h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- γ·(x − mean)·rsqrt(var + ε) + β over the nodes. -/
abbrev s20 : List (HloOp τ sig (Elt F)) :=
  [ unary main_v76 main_v78 (broadcastInDim S1x64 ![1] bDR'),
    unary main_v78 main_v79 (broadcastInDim S50000x64 ![0, 1] bRN'),
    binary main_v73 main_v79 main_v80 subf,
    unary main_arg15 main_v81 (broadcastInDim S1x64 ![1] bDR'),
    unary main_v81 main_v82 (broadcastInDim S50000x64 ![0, 1] bRN'),
    binary main_v82 main_v80 main_v83 mulf,
    nullary main_cst_15 (constant S_ .f32 0x3727C5AC#32),
    unary main_cst_15 main_v84 (broadcastInDim S64 ![] bcast_S_S64),
    binary main_v77 main_v84 main_v85 addf,
    unary main_v85 main_v86 Host.rsqrt,
    unary main_v86 main_v87 (broadcastInDim S1x64 ![1] bDR'),
    unary main_v87 main_v88 (broadcastInDim S50000x64 ![0, 1] bRN'),
    binary main_v83 main_v88 main_v89 mulf,
    unary main_arg16 main_v90 (broadcastInDim S1x64 ![1] bDR'),
    unary main_v90 main_v91 (broadcastInDim S50000x64 ![0, 1] bRN'),
    binary main_v89 main_v91 main_v92 addf ]

/-- The edge mean over axis 0. -/
abbrev s21 : List (HloOp τ sig (Elt F)) :=
  [ nullary main_cst_16 (constant S_ .f32 0x00000000#32),
    binary main_v36 main_cst_16 main_v93 (fun x v => Host.reduceAdd x v redE' h_S_),
    nullary main_cst_17 (constant S_ .f32 0x49435000#32),
    unary main_cst_17 main_v94 (broadcastInDim S64 ![] bcast_S_S64),
    binary main_v93 main_v94 main_v95 Host.divf ]

/-- The edge variance over axis 0, as the node variance. -/
abbrev s22 : List (HloOp τ sig (Elt F)) :=
  [ nullary main_c_18 (constantI S_ 32 0#32),
    TRef.nullary main_call2.cst (constant S_ .f32 0x00000000#32),
    TRef.binary (.of main_v36 : TRef sig ⟨S800000x64, .f32⟩) main_call2.cst main_call2.v0 (fun x v => Host.reduceAdd x v redE' h_S_),
    TRef.unary main_call2.v0 main_call2.v1 (broadcastInDim S1x64 ![1] bDR'),
    TRef.nullary main_call2.cst_0 (constant S_ .f32 0x49435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S800000x64 ![0, 1] bRE'),
    TRef.binary (.of main_v36 : TRef sig ⟨S800000x64, .f32⟩) main_call2.v4 main_call2.v5 subf,
    TRef.binary main_call2.v5 main_call2.v5 main_call2.v6 mulf,
    TRef.unary (.of main_c_18 : TRef sig ⟨S_, .i32⟩) main_call2.v7 (sitofp .f32),
    TRef.nullary main_call2.cst_1 (constant S_ .f32 0x49435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v redE' h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]

/-- The edge mean laid along every edge row. -/
abbrev s23 : List (HloOp τ sig (Elt F)) :=
  [ unary main_v95 main_v97 (broadcastInDim S1x64 ![1] bDR'),
    unary main_v97 main_v98 (broadcastInDim S800000x64 ![0, 1] bRE') ]

/-! ## The stretches of @main's statements 121 … 138 -/

/-- γ·(x − mean)·rsqrt(var + ε) + β over the edges. -/
abbrev s24 : List (HloOp τ sig (Elt F)) :=
  [ binary main_v36 main_v98 main_v99 subf,
    unary main_arg17 main_v100 (broadcastInDim S1x64 ![1] bDR'),
    unary main_v100 main_v101 (broadcastInDim S800000x64 ![0, 1] bRE'),
    binary main_v101 main_v99 main_v102 mulf,
    nullary main_cst_19 (constant S_ .f32 0x3727C5AC#32),
    unary main_cst_19 main_v103 (broadcastInDim S64 ![] bcast_S_S64),
    binary main_v96 main_v103 main_v104 addf,
    unary main_v104 main_v105 Host.rsqrt,
    unary main_v105 main_v106 (broadcastInDim S1x64 ![1] bDR'),
    unary main_v106 main_v107 (broadcastInDim S800000x64 ![0, 1] bRE'),
    binary main_v102 main_v107 main_v108 mulf,
    unary main_arg18 main_v109 (broadcastInDim S1x64 ![1] bDR'),
    unary main_v109 main_v110 (broadcastInDim S800000x64 ![0, 1] bRE'),
    binary main_v108 main_v110 main_v111 addf ]

/-- The two rectified residuals: max(·, 0) over each relu's own buffers, then the input added back. -/
abbrev s25 : List (HloOp τ sig (Elt F)) :=
  [ TRef.nullary main_call3.cst (constant S_ .f32 0x00000000#32),
    TRef.unary main_call3.cst main_call3.v0 (broadcastInDim S50000x64 ![] bcast_S_S50000x64),
    TRef.binary (.of main_v92 : TRef sig ⟨S50000x64, .f32⟩) main_call3.v0 main_call3.v1 maximumf,
    TRef.nullary main_call4.cst (constant S_ .f32 0x00000000#32),
    TRef.unary main_call4.cst main_call4.v0 (broadcastInDim S800000x64 ![] bcast_S_S800000x64),
    TRef.binary (.of main_v111 : TRef sig ⟨S800000x64, .f32⟩) main_call4.v0 main_call4.v1 maximumf,
    binary main_arg0 main_v112 main_v114 addf,
    binary main_arg1 main_v113 main_v115 addf ]

/-! ## What each stretch touches, determines and writes -/

/-- Two lines folded one after the other are their concatenation folded. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of two lines holds of their concatenation. -/
theorem forall_app {p : HloOp τ sig (Elt F) → Prop} {l₁ l₂ : List (HloOp τ sig (Elt F))}
    (h₁ : l₁.Forall p) (h₂ : l₂.Forall p) : (l₁ ++ l₂).Forall p := List.forall_append.mpr ⟨h₁, h₂⟩

/-- An operation whose one written buffer is among a list of references writes inside that list. -/
theorem writes_sub_of {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

open Lean in
/-- For a stretch `s` (a literal list of operations) and the references it writes, in order: that every operation
    touches TensorCore buffers only (`s_sub`) and determines what it writes (`s_fresh`); the written references as a
    list `w`, inside which every operation writes (`s_writes`); the device's buffers after the stretch as a function `a`
    of the contents before it; and that a buffer outside `w` keeps its contents through it (`a_keep`). -/
macro "stretch " s:ident " writes " w:ident " := " "[" rs:term,* "]" " then " a:ident : command => do
  let sSub := mkIdent (s.getId.appendAfter "_sub")
  let sFresh := mkIdent (s.getId.appendAfter "_fresh")
  let sWrites := mkIdent (s.getId.appendAfter "_writes")
  let aKeep := mkIdent (a.getId.appendAfter "_keep")
  `(theorem $sSub {F : FTy → Type} [FloatOps F] :
        ($s : List (HloOp τ sig (Elt F))).Forall fun op => op.bufs ⊆ tcRefs τ sig := by
      simp only [List.Forall, nullary_bufs_sub, unary_bufs_sub, binary_bufs_sub, ternary_bufs_sub, and_self]
    theorem $sFresh {F : FTy → Type} [FloatOps F] :
        ($s : List (HloOp τ sig (Elt F))).Forall fun op => op.fresh = ∅ := by
      simp only [List.Forall]
      repeat' constructor
    abbrev $w : List (Ref sig .tc) := [$rs,*]
    theorem $sWrites {F : FTy → Type} [FloatOps F] :
        ($s : List (HloOp τ sig (Elt F))).Forall fun op => op.writes ⊆ (($w).map (Proc.devRef (τ := τ) .tc)).toFinset := by
      simp only [List.Forall]
      repeat' apply And.intro
      all_goals exact writes_sub_of rfl (by decide)
    def $a {F : FTy → Type} [FloatOps F] (V : Valuation τ sig (Elt F)) : Valuation τ sig (Elt F) := after $s V
    theorem $aKeep {F : FTy → Type} [FloatOps F] (V : Valuation τ sig (Elt F)) {r : Ref sig .tc} (h : r ∉ $w) :
        $a V (no_index (Proc.devRef .tc r)) = V (Proc.devRef .tc r) :=
      after_of_writes_sub $s V $sWrites h)

stretch s01 writes w01 := [main_cst, main_cst_0, main_call0_v0, main_call0_v1, main_call0_v2, main_call0_v3, main_call0_v4, main_v0] then a01
stretch s02 writes w02 := [main_v1, main_v2, main_v3, main_v4] then a02
stretch s03 writes w03 := [main_v5, main_v6, main_v7, main_v8] then a03
stretch s04 writes w04 := [main_v9, main_v10, main_v11, main_v12] then a04
stretch s05 writes w05 := [main_v13, main_v14, main_v15, main_v16] then a05
stretch s06 writes w06 := [main_v17, main_v18, main_v19, main_v20] then a06
stretch s07 writes w07 := [main_c, main_v21, main_v22, main_c_1, main_v23, main_v24, main_v25, main_v26, main_v27] then a07
stretch s08 writes w08 := [main_c_2, main_v28, main_v29, main_c_3, main_v30, main_v31, main_v32, main_v33, main_v34] then a08
stretch s09 writes w09 := [main_v35, main_v36] then a09
stretch s10 writes w10 := [main_v37, main_v38, main_cst_4, main_v39, main_v40, main_cst_5, main_v41, main_v42] then a10
stretch s11 writes w11 := [main_v43, main_v44, main_v45, main_v46] then a11
stretch s12 writes w12 := [main_v47, main_v48, main_v49, main_v50] then a12
stretch s13 writes w13 := [main_c_6] then a13
stretch s14 writes w14 := [main_v51, main_v52, main_c_7, main_v53, main_v54, main_v55, main_v56, main_v57, main_v58] then a14
stretch s15 writes w15 := [main_cst_8, main_v59, main_v60, main_v61] then a15
stretch s16 writes w16 := [main_cst_9, main_v62, main_v63, main_v64] then a16
stretch s17 writes w17 := [main_cst_10, main_v65, main_v66, main_v67, main_cst_11, main_v68, main_v69, main_v70, main_v71, main_v72, main_v73] then a17
stretch s18 writes w18 := [main_cst_12, main_v74, main_cst_13, main_v75, main_v76] then a18
stretch s19 writes w19 := [main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v77] then a19
stretch s20 writes w20 := [main_v78, main_v79, main_v80, main_v81, main_v82, main_v83, main_cst_15, main_v84, main_v85, main_v86, main_v87, main_v88, main_v89, main_v90, main_v91, main_v92] then a20
stretch s21 writes w21 := [main_cst_16, main_v93, main_cst_17, main_v94, main_v95] then a21
stretch s22 writes w22 := [main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v96] then a22
stretch s23 writes w23 := [main_v97, main_v98] then a23
stretch s24 writes w24 := [main_v99, main_v100, main_v101, main_v102, main_cst_19, main_v103, main_v104, main_v105, main_v106, main_v107, main_v108, main_v109, main_v110, main_v111] then a24
stretch s25 writes w25 := [main_call3_cst, main_call3_v0, main_v112, main_call4_cst, main_call4_v0, main_v113, main_v114, main_v115] then a25

/-! ## @main is that line -/

/-- Statements 1 … 60. -/
abbrev ops0 : List (HloOp τ sig (Elt F)) :=
  s01 ++ (s02 ++ (s03 ++ (s04 ++ (s05 ++ (s06 ++ (s07 ++ (s08 ++ (s09 ++ (s10 ++ (s11 ++ (s12 ++ s13)))))))))))
/-- Statements 61 … 120. -/
abbrev ops1 : List (HloOp τ sig (Elt F)) :=
  s14 ++ (s15 ++ (s16 ++ (s17 ++ (s18 ++ (s19 ++ (s20 ++ (s21 ++ (s22 ++ s23))))))))
/-- Statements 121 … 138. -/
abbrev ops2 : List (HloOp τ sig (Elt F)) := s24 ++ s25
/-- @main's 189 operations, in order. -/
abbrev ops : List (HloOp τ sig (Elt F)) := ops0 ++ (ops1 ++ ops2)

/-- Each window is its stretches: a called function's definition unfolded at its call, sequencing reassociated. -/
theorem part0_eq (c : Dev nD) : main_part0 (F := F) c = seq ops0 := by
  simp only [main_part0, fn_clip.body, bind_assoc, pure_bind]
  rfl
theorem part1_eq (c : Dev nD) : main_part1 (F := F) c = seq ops1 := by
  simp only [main_part1, fn_var.body, fn_var_0.body, fn_where.body, bind_assoc, pure_bind]
  rfl
theorem part2_eq (c : Dev nD) : main_part2 (F := F) c = seq ops2 := by
  simp only [main_part2, fn_relu.body, fn_relu_1.body, bind_assoc, pure_bind]
  rfl

/-- @main is the three windows in order. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_app
    (forall_app s01_sub (forall_app s02_sub (forall_app s03_sub (forall_app s04_sub (forall_app s05_sub (forall_app s06_sub
      (forall_app s07_sub (forall_app s08_sub (forall_app s09_sub (forall_app s10_sub (forall_app s11_sub
        (forall_app s12_sub s13_sub))))))))))))
    (forall_app
      (forall_app s14_sub (forall_app s15_sub (forall_app s16_sub (forall_app s17_sub (forall_app s18_sub (forall_app s19_sub
        (forall_app s20_sub (forall_app s21_sub (forall_app s22_sub s23_sub)))))))))
      (forall_app s24_sub s25_sub))

/-- Every operation determines what it writes. -/
theorem ops_fresh : ∀ op ∈ (ops : List (HloOp τ sig (Elt F))), op.fresh = ∅ :=
  List.forall_iff_forall_mem.mp
    (forall_app
      (forall_app s01_fresh (forall_app s02_fresh (forall_app s03_fresh (forall_app s04_fresh (forall_app s05_fresh
        (forall_app s06_fresh (forall_app s07_fresh (forall_app s08_fresh (forall_app s09_fresh (forall_app s10_fresh
          (forall_app s11_fresh (forall_app s12_fresh s13_fresh))))))))))))
      (forall_app
        (forall_app s14_fresh (forall_app s15_fresh (forall_app s16_fresh (forall_app s17_fresh (forall_app s18_fresh
          (forall_app s19_fresh (forall_app s20_fresh (forall_app s21_fresh (forall_app s22_fresh s23_fresh)))))))))
        (forall_app s24_fresh s25_fresh)))

/-- The whole line's fold is the stretches' folds in order. -/
theorem after_ops (V : Valuation τ sig (Elt F)) :
    after ops V = a25 (a24 (a23 (a22 (a21 (a20 (a19 (a18 (a17 (a16 (a15 (a14 (a13 (a12 (a11 (a10 (a09 (a08 (a07 (a06
      (a05 (a04 (a03 (a02 (a01 V)))))))))))))))))))))))) := by
  simp only [ops, ops0, ops1, ops2, after_app]
  rfl

/-- On every device, for any float values, from any memory with zero counters: every weakly fair execution of @main
    terminates with each buffer at the fold of the operations over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Run

end
-- ==== Proof.RefRunVal.lean ====
/-
  The reference's stretches as stages of the layer. Each stretch of @main's line computes one stage — the exponent's
  clip, a linear map, an endpoint gather, the edge message, its gate, a power, the gated message, a scatter-sum, the
  p-norm combination, a batch mean, a batch variance, a normalisation, a rectified residual — of the contents of the
  buffers it reads, and leaves every buffer it does not write as it was. Read through the stretches in order, the two
  result buffers hold the layer's node output and edge output as functions of the argument arrays, and no argument
  is written.
-/
import proofs.«402615_j67370857005182_3_alg».proof.Proof.RefRunOps
import proofs.«402615_j67370857005182_3_alg».proof.Proof.Spec

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes

Each stretch's result buffer, read after the stretch from any contents `V`, is one stage of the layer applied to the
contents of the buffers the stretch reads: the fold unrolled, each operation's result read off at its own buffer,
and the stage's definition unfolded to the same operations. The sums, gathers, scatter-sums and contractions stay
folded throughout: the equations never look inside them. -/

attribute [local irreducible] Host.reduceAdd Host.gather Host.scatterAdd

local notation "⟪" V ", " b "⟫" => V (Proc.devRef Proc.tc b)

theorem a01_v0 (V : Valuation τ sig (Elt F)) :
    a01 V (no_index (Proc.devRef .tc main_v0)) = Gnn.clipP ⟪V, main_arg14⟫ := by
  unfold a01; after_results; rfl

theorem a02_v4 (V : Valuation τ sig (Elt F)) :
    a02 V (no_index (Proc.devRef .tc main_v4)) = Gnn.lin ⟪V, main_arg0⟫ ⟪V, main_arg4⟫ ⟪V, main_arg5⟫ := by
  unfold a02; after_results; rfl

theorem a03_v8 (V : Valuation τ sig (Elt F)) :
    a03 V (no_index (Proc.devRef .tc main_v8)) = Gnn.lin ⟪V, main_arg0⟫ ⟪V, main_arg6⟫ ⟪V, main_arg7⟫ := by
  unfold a03; after_results; rfl

theorem a04_v12 (V : Valuation τ sig (Elt F)) :
    a04 V (no_index (Proc.devRef .tc main_v12)) = Gnn.lin ⟪V, main_arg0⟫ ⟪V, main_arg10⟫ ⟪V, main_arg11⟫ := by
  unfold a04; after_results; rfl

theorem a05_v16 (V : Valuation τ sig (Elt F)) :
    a05 V (no_index (Proc.devRef .tc main_v16)) = Gnn.lin ⟪V, main_arg0⟫ ⟪V, main_arg12⟫ ⟪V, main_arg13⟫ := by
  unfold a05; after_results; rfl

theorem a06_v20 (V : Valuation τ sig (Elt F)) :
    a06 V (no_index (Proc.devRef .tc main_v20)) = Gnn.linE ⟪V, main_arg1⟫ ⟪V, main_arg8⟫ ⟪V, main_arg9⟫ := by
  unfold a06; after_results; rfl

theorem a07_v27 (V : Valuation τ sig (Elt F)) :
    a07 V (no_index (Proc.devRef .tc main_v27)) = Gnn.gath (F := F) ⟪V, main_v12⟫ ⟪V, main_arg2⟫ := by
  unfold a07; after_results; rfl

theorem a08_v34 (V : Valuation τ sig (Elt F)) :
    a08 V (no_index (Proc.devRef .tc main_v34)) = Gnn.gath (F := F) ⟪V, main_v16⟫ ⟪V, main_arg3⟫ := by
  unfold a08; after_results; rfl

theorem a09_v36 (V : Valuation τ sig (Elt F)) :
    a09 V (no_index (Proc.devRef .tc main_v36)) = Gnn.edgeMsg (F := F) ⟪V, main_v27⟫ ⟪V, main_v34⟫ ⟪V, main_v20⟫ := by
  unfold a09; after_results; rfl

theorem a10_v42 (V : Valuation τ sig (Elt F)) :
    a10 V (no_index (Proc.devRef .tc main_v42)) = Gnn.sigm (F := F) ⟪V, main_v36⟫ := by
  unfold a10; after_results; rfl

theorem a11_v46 (V : Valuation τ sig (Elt F)) :
    a11 V (no_index (Proc.devRef .tc main_v46)) = Gnn.powN (F := F) ⟪V, main_v8⟫ ⟪V, main_v0⟫ := by
  unfold a11; after_results; rfl

theorem a12_v50 (V : Valuation τ sig (Elt F)) :
    a12 V (no_index (Proc.devRef .tc main_v50)) = Gnn.powE (F := F) ⟪V, main_v42⟫ ⟪V, main_v0⟫ := by
  unfold a12; after_results; rfl

theorem a13_c6 (V : Valuation τ sig (Elt F)) :
    a13 V (no_index (Proc.devRef .tc main_c_6)) = constantI Gnn.S0 32 0#32 := by
  unfold a13; after_results

/-- The gated message with the wrap's zero still a value read: |Bh|^p gathered at the wrapped source index, times σ^p. -/
def gatedAt (x : FVec F Gnn.SN .f32) (s : IVec Gnn.SI 32) (z : IVec Gnn.S0 32) (sp : FVec F Gnn.SE .f32) :
    FVec F Gnn.SE .f32 :=
  Gnn.gateMul (Host.gather Gnn.gat x (Gnn.colIdx (select (cmpi .slt s (broadcastInDim Gnn.SI ![] Gnn.b0I z))
    (addi s (broadcastInDim Gnn.SI ![] Gnn.b0I (constantI Gnn.S0 32 50000#32))) s))) sp

/-- The edge normalisation with the mean already laid along the rows. -/
def bnEAt (x rm : FVec F Gnn.SE .f32) (var gamma beta : FVec F Gnn.SD .f32) : FVec F Gnn.SE .f32 :=
  addf (mulf (mulf (Gnn.rowE gamma) (subf x rm)) (Gnn.rowE (Host.rsqrt (addf var (Gnn.cstD 0x3727C5AC#32)))))
    (Gnn.rowE beta)

/-- x_in + max(y, 0), over the nodes and over the edges. -/
def resN (xin y : FVec F Gnn.SN .f32) : FVec F Gnn.SN .f32 := addf xin (maximumf y (Gnn.cstN 0x00000000#32))
def resE (xin y : FVec F Gnn.SE .f32) : FVec F Gnn.SE .f32 := addf xin (maximumf y (Gnn.cstE 0x00000000#32))

theorem a14_v58 (V : Valuation τ sig (Elt F)) :
    a14 V (no_index (Proc.devRef .tc main_v58))
      = gatedAt (F := F) ⟪V, main_v46⟫ ⟪V, main_arg2⟫ ⟪V, main_c_6⟫ ⟪V, main_v50⟫ := by
  unfold a14; after_results; rfl

theorem a15_v61 (V : Valuation τ sig (Elt F)) :
    a15 V (no_index (Proc.devRef .tc main_v61)) = Gnn.scat (F := F) ⟪V, main_arg3⟫ ⟪V, main_v58⟫ := by
  unfold a15; after_results; rfl

theorem a16_v64 (V : Valuation τ sig (Elt F)) :
    a16 V (no_index (Proc.devRef .tc main_v64)) = Gnn.scat (F := F) ⟪V, main_arg3⟫ ⟪V, main_v50⟫ := by
  unfold a16; after_results; rfl

theorem a17_v73 (V : Valuation τ sig (Elt F)) :
    a17 V (no_index (Proc.devRef .tc main_v73))
      = Gnn.combine (F := F) ⟪V, main_v4⟫ ⟪V, main_v61⟫ ⟪V, main_v64⟫ (Gnn.recip ⟪V, main_v0⟫) := by
  unfold a17; after_results; rfl

theorem a18_v76 (V : Valuation τ sig (Elt F)) :
    a18 V (no_index (Proc.devRef .tc main_v76)) = Gnn.meanN (F := F) ⟪V, main_v73⟫ := by
  unfold a18; after_results; rfl

theorem a19_v77 (V : Valuation τ sig (Elt F)) :
    a19 V (no_index (Proc.devRef .tc main_v77)) = Gnn.varN (F := F) ⟪V, main_v73⟫ := by
  unfold a19; after_results; rfl

theorem a20_v92 (V : Valuation τ sig (Elt F)) :
    a20 V (no_index (Proc.devRef .tc main_v92))
      = Gnn.bnN (F := F) ⟪V, main_v73⟫ ⟪V, main_v76⟫ ⟪V, main_v77⟫ ⟪V, main_arg15⟫ ⟪V, main_arg16⟫ := by
  unfold a20; after_results; rfl

theorem a21_v95 (V : Valuation τ sig (Elt F)) :
    a21 V (no_index (Proc.devRef .tc main_v95)) = Gnn.meanE (F := F) ⟪V, main_v36⟫ := by
  unfold a21; after_results; rfl

theorem a22_v96 (V : Valuation τ sig (Elt F)) :
    a22 V (no_index (Proc.devRef .tc main_v96)) = Gnn.varE (F := F) ⟪V, main_v36⟫ := by
  unfold a22; after_results; rfl

theorem a23_v98 (V : Valuation τ sig (Elt F)) :
    a23 V (no_index (Proc.devRef .tc main_v98)) = Gnn.rowE (F := F) ⟪V, main_v95⟫ := by
  unfold a23; after_results; rfl

theorem a24_v111 (V : Valuation τ sig (Elt F)) :
    a24 V (no_index (Proc.devRef .tc main_v111))
      = bnEAt (F := F) ⟪V, main_v36⟫ ⟪V, main_v98⟫ ⟪V, main_v96⟫ ⟪V, main_arg17⟫ ⟪V, main_arg18⟫ := by
  unfold a24; after_results; rfl

theorem a25_v114 (V : Valuation τ sig (Elt F)) :
    a25 V (no_index (Proc.devRef .tc main_v114)) = resN (F := F) ⟪V, main_arg0⟫ ⟪V, main_v92⟫ := by
  unfold a25; after_results; rfl

theorem a25_v115 (V : Valuation τ sig (Elt F)) :
    a25 V (no_index (Proc.devRef .tc main_v115)) = resE (F := F) ⟪V, main_arg1⟫ ⟪V, main_v111⟫ := by
  unfold a25; after_results; rfl

/-! ## The two results and the arguments, read through the stretches -/

/-- The node result is the layer's node output: each stretch's result at its stage, every other buffer kept, and
    the stages composed are the layer's definition unfolded. -/
theorem read_v114 (V : Valuation τ sig (Elt F)) :
    after ops V (Proc.devRef .tc main_v114)
      = Gnn.hOut (F := F) ⟪V, main_arg0⟫ ⟪V, main_arg1⟫ ⟪V, main_arg2⟫ ⟪V, main_arg3⟫ ⟪V, main_arg4⟫ ⟪V, main_arg5⟫
          ⟪V, main_arg6⟫ ⟪V, main_arg7⟫ ⟪V, main_arg8⟫ ⟪V, main_arg9⟫ ⟪V, main_arg10⟫ ⟪V, main_arg11⟫ ⟪V, main_arg12⟫
          ⟪V, main_arg13⟫ ⟪V, main_arg14⟫ ⟪V, main_arg15⟫ ⟪V, main_arg16⟫ := by
  rw [after_ops]
  simp (disch := decide) only [a25_v114, a20_v92, a19_v77, a18_v76, a17_v73, a16_v64, a15_v61, a14_v58, a13_c6, a12_v50,
    a11_v46, a10_v42, a09_v36, a08_v34, a07_v27, a06_v20, a05_v16, a04_v12, a03_v8, a02_v4, a01_v0,
    a01_keep, a02_keep, a03_keep, a04_keep, a05_keep, a06_keep, a07_keep, a08_keep, a09_keep, a10_keep, a11_keep, a12_keep, a13_keep,
    a14_keep, a15_keep, a16_keep, a17_keep, a18_keep, a19_keep, a20_keep, a21_keep, a22_keep, a23_keep, a24_keep, a25_keep]
  rfl

/-- The edge result is the layer's edge output. -/
theorem read_v115 (V : Valuation τ sig (Elt F)) :
    after ops V (Proc.devRef .tc main_v115)
      = Gnn.eOut (F := F) ⟪V, main_arg0⟫ ⟪V, main_arg1⟫ ⟪V, main_arg2⟫ ⟪V, main_arg3⟫ ⟪V, main_arg8⟫ ⟪V, main_arg9⟫
          ⟪V, main_arg10⟫ ⟪V, main_arg11⟫ ⟪V, main_arg12⟫ ⟪V, main_arg13⟫ ⟪V, main_arg17⟫ ⟪V, main_arg18⟫ := by
  rw [after_ops]
  simp (disch := decide) only [a25_v115, a24_v111, a23_v98, a22_v96, a21_v95, a09_v36, a08_v34, a07_v27, a06_v20, a05_v16,
    a04_v12,
    a01_keep, a02_keep, a03_keep, a04_keep, a05_keep, a06_keep, a07_keep, a08_keep, a09_keep, a10_keep, a11_keep, a12_keep, a13_keep,
    a14_keep, a15_keep, a16_keep, a17_keep, a18_keep, a19_keep, a20_keep, a21_keep, a22_keep, a23_keep, a24_keep, a25_keep]
  rfl

/-- No stretch writes an argument: it is kept through all of them. -/
macro "kept_through_all" : tactic =>
  `(tactic| (rw [after_ops]
             simp (disch := decide) only [a01_keep, a02_keep, a03_keep, a04_keep, a05_keep, a06_keep, a07_keep, a08_keep, a09_keep, a10_keep, a11_keep, a12_keep, a13_keep, a14_keep, a15_keep, a16_keep, a17_keep, a18_keep, a19_keep, a20_keep, a21_keep, a22_keep, a23_keep, a24_keep, a25_keep]))

theorem read_arg0 (V : Valuation τ sig (Elt F)) : after ops V (Proc.devRef .tc main_arg0) = ⟪V, main_arg0⟫ := by kept_through_all
theorem read_arg1 (V : Valuation τ sig (Elt F)) : after ops V (Proc.devRef .tc main_arg1) = ⟪V, main_arg1⟫ := by kept_through_all
theorem read_arg2 (V : Valuation τ sig (Elt F)) : after ops V (Proc.devRef .tc main_arg2) = ⟪V, main_arg2⟫ := by kept_through_all
theorem read_arg3 (V : Valuation τ sig (Elt F)) : after ops V (Proc.devRef .tc main_arg3) = ⟪V, main_arg3⟫ := by kept_through_all
theorem read_arg4 (V : Valuation τ sig (Elt F)) : after ops V (Proc.devRef .tc main_arg4) = ⟪V, main_arg4⟫ := by kept_through_all
theorem read_arg5 (V : Valuation τ sig (Elt F)) : after ops V (Proc.devRef .tc main_arg5) = ⟪V, main_arg5⟫ := by kept_through_all
theorem read_arg6 (V : Valuation τ sig (Elt F)) : after ops V (Proc.devRef .tc main_arg6) = ⟪V, main_arg6⟫ := by kept_through_all
theorem read_arg7 (V : Valuation τ sig (Elt F)) : after ops V (Proc.devRef .tc main_arg7) = ⟪V, main_arg7⟫ := by kept_through_all
theorem read_arg8 (V : Valuation τ sig (Elt F)) : after ops V (Proc.devRef .tc main_arg8) = ⟪V, main_arg8⟫ := by kept_through_all
theorem read_arg9 (V : Valuation τ sig (Elt F)) : after ops V (Proc.devRef .tc main_arg9) = ⟪V, main_arg9⟫ := by kept_through_all
theorem read_arg10 (V : Valuation τ sig (Elt F)) : after ops V (Proc.devRef .tc main_arg10) = ⟪V, main_arg10⟫ := by kept_through_all
theorem read_arg11 (V : Valuation τ sig (Elt F)) : after ops V (Proc.devRef .tc main_arg11) = ⟪V, main_arg11⟫ := by kept_through_all
theorem read_arg12 (V : Valuation τ sig (Elt F)) : after ops V (Proc.devRef .tc main_arg12) = ⟪V, main_arg12⟫ := by kept_through_all
theorem read_arg13 (V : Valuation τ sig (Elt F)) : after ops V (Proc.devRef .tc main_arg13) = ⟪V, main_arg13⟫ := by kept_through_all
theorem read_arg14 (V : Valuation τ sig (Elt F)) : after ops V (Proc.devRef .tc main_arg14) = ⟪V, main_arg14⟫ := by kept_through_all
theorem read_arg15 (V : Valuation τ sig (Elt F)) : after ops V (Proc.devRef .tc main_arg15) = ⟪V, main_arg15⟫ := by kept_through_all
theorem read_arg16 (V : Valuation τ sig (Elt F)) : after ops V (Proc.devRef .tc main_arg16) = ⟪V, main_arg16⟫ := by kept_through_all
theorem read_arg17 (V : Valuation τ sig (Elt F)) : after ops V (Proc.devRef .tc main_arg17) = ⟪V, main_arg17⟫ := by kept_through_all
theorem read_arg18 (V : Valuation τ sig (Elt F)) : after ops V (Proc.devRef .tc main_arg18) = ⟪V, main_arg18⟫ := by kept_through_all

end Cert.ReferenceIdeal.Run

end
-- ==== Proof.RefRun.lean ====
/-
  The reference, run: its @main is a straight line of host operations (the clip, the two variances and the two
  relus written out where they are called). Every weakly fair execution terminates with each buffer at the fold of
  those operations over the launch contents; read at the two result buffers, the fold is the layer's node output and
  edge output as functions of the nineteen argument arrays, and no argument is written.
-/
import proofs.«402615_j67370857005182_3_alg».proof.ReferenceIdeal
import proofs.«402615_j67370857005182_3_alg».proof.Proof.Gen.ReferenceIdeal
import proofs.«402615_j67370857005182_3_alg».proof.Proof.Spec
import proofs.«402615_j67370857005182_3_alg».proof.Proof.RefRunVal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

/-- Every weakly fair execution of the reference terminates with the two results at the layer's outputs and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v114) : Gnn.SN.Idx → EReal)
          = Gnn.hOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ (r.2.mem ((c.tc : Thread nD τ).loc main_v115) : Gnn.SE.Idx → EReal)
          = Gnn.eOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run (defs (F := Ideal)) _ _).mono
    (fun _ h c => ⟨(h c main_v114).trans (read_v114 _), (h c main_v115).trans (read_v115 _),
      (h c main_arg0).trans (read_arg0 _), (h c main_arg1).trans (read_arg1 _), (h c main_arg2).trans (read_arg2 _),
      (h c main_arg3).trans (read_arg3 _), (h c main_arg4).trans (read_arg4 _), (h c main_arg5).trans (read_arg5 _),
      (h c main_arg6).trans (read_arg6 _), (h c main_arg7).trans (read_arg7 _), (h c main_arg8).trans (read_arg8 _),
      (h c main_arg9).trans (read_arg9 _), (h c main_arg10).trans (read_arg10 _), (h c main_arg11).trans (read_arg11 _),
      (h c main_arg12).trans (read_arg12 _), (h c main_arg13).trans (read_arg13 _), (h c main_arg14).trans (read_arg14 _),
      (h c main_arg15).trans (read_arg15 _), (h c main_arg16).trans (read_arg16 _), (h c main_arg17).trans (read_arg17 _),
      (h c main_arg18).trans (read_arg18 _)⟩)
    (run_fold m ρ)

end Cert.ReferenceIdeal.Run

end
-- ==== Proof.lean ====
/-
  One gated graph-convolution layer (50000 nodes, 800000 edges, 64 features): the Pallas kernel program against its
  jnp reference, over the extended reals.

  Both programs compute  h_out = h + relu(BN(Ah + (Σ_dst |Bh|^p[src]·σ^p / (Σ_dst σ^p + ε))^(1/p)))  and
  e_out = e + relu(BN(Dh[src] + Eh[dst] + Ce)),  σ the logistic gate of the edge message, p = clip(P, 1, 100).
  They differ in four spellings, none of which changes a value under the precondition:
    · the kernel multiplies in five pallas_calls, block by block, where the reference multiplies whole arrays: every
      block of an output is the whole-array map restricted to the block's rows;
    · the kernel writes a power x^y as exp(y·log x): the bases (an absolute value, a logistic gate, a ratio of
      non-negative sums) are non-negative and the exponents (p in [1, 100], 1/p) are positive reals, where the two
      agree, x = 0 and x = +∞ included;
    · the kernel's gathers by endpoint answer the not-a-number pattern outside the table where the reference's clamp:
      the precondition says every endpoint is a row number, so neither happens;
    · the kernel's gate is the logistic operation, which over the extended reals is 1/(1 + exp(−x)) by definition.
  So each program ends with its two results at the same functions of the nineteen argument arrays (Gnn.hOut, Gnn.eOut),
  and with its arguments unchanged. No rewrite rule of the idealisation applied, so that conjunct is trivial.
-/
import proofs.«402615_j67370857005182_3_alg».proof.Defs
import proofs.«402615_j67370857005182_3_alg».proof.Proof.Gen.Kernel
import proofs.«402615_j67370857005182_3_alg».proof.Proof.Gen.Kernel.Frame
import proofs.«402615_j67370857005182_3_alg».proof.Proof.Gen.KernelIdeal
import proofs.«402615_j67370857005182_3_alg».proof.Proof.Gen.KernelIdeal.Frame
import proofs.«402615_j67370857005182_3_alg».proof.Proof.Gen.ReferenceIdeal
import proofs.«402615_j67370857005182_3_alg».proof.Proof.Gen.Pre_finite_inputs
import proofs.«402615_j67370857005182_3_alg».proof.Proof.Spec
import proofs.«402615_j67370857005182_3_alg».proof.Proof.PreDecode
import proofs.«402615_j67370857005182_3_alg».proof.Proof.KernelRun
import proofs.«402615_j67370857005182_3_alg».proof.Proof.KernelChain
import proofs.«402615_j67370857005182_3_alg».proof.Proof.RefRun

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference runs and leaves its arguments alone: its run with the two results dropped. -/
theorem frame_referenceIdeal : Cert.frame_ReferenceIdeal := fun m ρ _ =>
  (θ_run Cert.ReferenceIdeal.defs _ _).mono (fun _ h c => (h c).2.2) (Cert.ReferenceIdeal.Run.run m ρ)

/-- The two idealised programs, from memories that agree on the arguments, end with equal results. -/
theorem algebraic : Cert.algebraic_KernelIdeal_ReferenceIdeal := by
  intro m ρ m' ρ' hpre hagree
  have hidx : ∀ c : Dev Cert.KernelIdeal.nD,
      Gnn.IdxOk (m ((c.tc : Thread Cert.KernelIdeal.nD Cert.KernelIdeal.τ).loc Cert.KernelIdeal.main_arg2)) ∧ Gnn.IdxOk (m ((c.tc : Thread Cert.KernelIdeal.nD Cert.KernelIdeal.τ).loc Cert.KernelIdeal.main_arg3)) := fun c =>
    Cert.Pre_finite_inputs.Decode.idxOk_of_pre _ _ _ _ _ _ _ _ _ _ _ _ _ _ _ _ _ _ _ (hpre c)
  refine ⟨fun c => Gnn.hOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Gnn.eOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Chain.W16_hOut m ρ c (hidx c).1 (hidx c).2),
        (h c).2.1.trans (Cert.KernelIdeal.Chain.W16_eOut m ρ c (hidx c).1 (hidx c).2), (h c).2.2⟩)
      (Cert.KernelIdeal.Gen.run_results m ρ)
  · refine (θ_run Cert.ReferenceIdeal.defs _ _).mono (fun r h c => ⟨?_, ?_, (h c).2.2⟩)
      (Cert.ReferenceIdeal.Run.run m' ρ')
    · obtain ⟨e0, e1, e2, e3, e4, e5, e6, e7, e8, e9, e10, e11, e12, e13, e14, e15, e16, e17, e18⟩ := hagree c
      rw [(h c).1, e0, e1, e2, e3, e4, e5, e6, e7, e8, e9, e10, e11, e12, e13, e14, e15, e16]
    · obtain ⟨e0, e1, e2, e3, e4, e5, e6, e7, e8, e9, e10, e11, e12, e13, e14, e15, e16, e17, e18⟩ := hagree c
      rw [(h c).2.1, e0, e1, e2, e3, e8, e9, e10, e11, e12, e13, e17, e18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
